-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S3 : Shape := ⟨1, ![3]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3 : S_.BroadcastsInDim S3 (![] : Fin 0 → Fin S3.rank)
  reducesTo_S3_S_d0 : S3.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S128 .f32) (main_arg15 : FVec F S128x128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S50000x128 .f32) (main_arg1 : IVec S800000 32) (main_arg2 : IVec S800000 32) (main_arg3 : IVec S50000 32) (main_arg4 : FVec F S3 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3 .f32 := Host.absf main_arg4
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000 : Shape := ⟨1, ![800000]⟩
abbrev S50000 : Shape := ⟨1, ![50000]⟩
abbrev S3 : Shape := ⟨1, ![3]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128 : Shape := ⟨2, ![1, 128]⟩
abbrev S2000x128 : Shape := ⟨2, ![2000, 128]⟩
abbrev S50000x1 : Shape := ⟨2, ![50000, 1]⟩
abbrev S5000x1 : Shape := ⟨2, ![5000, 1]⟩
abbrev S5000x128 : Shape := ⟨2, ![5000, 128]⟩

abbrev nBuf : Space → Nat
  | .hbm => 85
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S3, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S1x128, .f32⟩
  | .hbm, ⟨82, _⟩ => ⟨S50000x128, .f32⟩
  | .hbm, ⟨83, _⟩ => ⟨S50000x1, .i32⟩
  | .hbm, ⟨84, _⟩ => ⟨S128x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S5000x1, .i32⟩
  | .local _ .vmem, ⟨31, _⟩ => ⟨S5000x1, .i32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3_S1_0 : S3.Slices ![0] S1
  shapeCasts_S1_S_ : S1.ShapeCasts S_
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3_S1_1 : S3.Slices ![1] S1
  slices_S3_S1_2 : S3.Slices ![2] S1
  shapeCasts_S50000_S50000x1 : S50000.ShapeCasts S50000x1
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S50000x1.size a
  hwx3_0 : ∀ i : grid3.Coords, EltTy.bits .i32 = 32 ∨ (Rect.block (s := S50000x1) S5000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S128x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S3 : Shape := ⟨1, ![3]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128 : Shape := ⟨2, ![1, 128]⟩
abbrev S50000x1 : Shape := ⟨2, ![50000, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S3, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S1, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S1, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S128x128, .f32⟩
  | .hbm, ⟨112, _⟩ => ⟨S50000x1, .i32⟩
  | .hbm, ⟨113, _⟩ => ⟨S128x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_8 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3_S1_0 : S3.Slices ![0] S1
  shapeCasts_S1_S_ : S1.ShapeCasts S_
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3_S1_1 : S3.Slices ![1] S1
  slices_S3_S1_2 : S3.Slices ![2] S1
  bcast_S_S128x128 : S_.BroadcastsInDim S128x128 (![] : Fin 0 → Fin S128x128.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.KI.Layer0.lean ====
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, the first GIN layer's MLP kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, so the buffer still holds the block; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved, so the buffer still holds the block; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved, so the buffer still holds the block; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block index
    has not moved, so the buffer still holds the block; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block index
    has not moved, so the buffer still holds the block; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block index
    has not moved, so the buffer still holds the block; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000x128 block, the whole 128x128 weight and the whole 1x128 bias: every load and the one store of the
    body go through one of these. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 6's staging buffer after the body, from the input windows' blocks: the body's single store of the whole
    block, whose payload is the two-layer perceptron of the sum of the first two blocks under the weights and biases
    of windows 2 to 5. -/
def out0_6 (xa xb : Vec F S2000x128 .f32) (xc : Vec F S128x128 .f32) (xd : Vec F S1x128 .f32) (xe : Vec F S128x128 .f32) (xf : Vec F S1x128 .f32) : Vec F S2000x128 .f32 :=
  View.canon [⟨r0_0, k0_pay1 (View.ld xa r0_0) (View.ld xb r0_0) (View.ld xc r0_1) (View.ld xd r0_2) (View.ld xe r0_1) (View.ld xf r0_2)⟩]

/-- The store tiles the buffer (checked by evaluation), so it covers it. -/
theorem cover0_6 (p : Vec F S2000x128 .f32) (y : S2000x128.Idx) :
    ∃ pc ∈ ([⟨r0_0, p⟩] : List (View.Piece (Elt F) S2000x128 .f32)), y ∈ pc.1.set :=
  View.cover_of_tiled [⟨r0_0, p⟩] S2000x128.size (by rfl) y

/-! ## The body's triple -/

set_option maxHeartbeats 1000000 in
/-- The kernel body on whole staging memrefs, the six inputs' at read contents and the output's at anything (the body
    also loads the output block before it overwrites it, and that value is unused), runs to the continuation holding
    the inputs' as they were and the output's at `out0_6` of the inputs'. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (xa xb : Vec F S2000x128 .f32) (xc : Vec F S128x128 .f32) (xd : Vec F S1x128 .f32) (xe : Vec F S128x128 .f32) (xf : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ owns (c : Thread nD τ) arg7 fullShare (out0_6 xa xb xc xd xe xf)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, Hk⟩
  subst hfa; subst hfb; subst hfc; subst hfd; subst hfe; subst hff
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  iexists _; isplitr
  swap; · iexact Hg
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%da, Ha⟩, ⟨%db, Hb⟩, ⟨%dc, Hc⟩, ⟨%dd, Hd⟩, ⟨%de, He⟩, ⟨%df, Hf⟩, ⟨%dg, Hg⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexists _; iexact Hg
  iintro ⟨Ha, Hb, Hc, Hd, He, Hf, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Layer1.lean ====
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, the first GIN layer's MLP kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved, so the buffer still holds the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved, so the buffer still holds the block; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved, so the buffer still holds the block; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved, so the buffer still holds the block; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved, so the buffer still holds the block; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved, so the buffer still holds the block; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x128 block, the whole 128x128 weight and the whole 1x128 bias: every load and the one store of the
    body go through one of these. -/
abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 6's staging buffer after the body, from the input windows' blocks: the body's single store of the whole
    block, whose payload is the two-layer perceptron of the sum of the first two blocks under the weights and biases
    of windows 2 to 5. -/
def out1_6 (xa xb : Vec F S2000x128 .f32) (xc : Vec F S128x128 .f32) (xd : Vec F S1x128 .f32) (xe : Vec F S128x128 .f32) (xf : Vec F S1x128 .f32) : Vec F S2000x128 .f32 :=
  View.canon [⟨r1_0, k1_pay1 (View.ld xa r1_0) (View.ld xb r1_0) (View.ld xc r1_1) (View.ld xd r1_2) (View.ld xe r1_1) (View.ld xf r1_2)⟩]

/-- The store tiles the buffer (checked by evaluation), so it covers it. -/
theorem cover1_6 (p : Vec F S2000x128 .f32) (y : S2000x128.Idx) :
    ∃ pc ∈ ([⟨r1_0, p⟩] : List (View.Piece (Elt F) S2000x128 .f32)), y ∈ pc.1.set :=
  View.cover_of_tiled [⟨r1_0, p⟩] S2000x128.size (by rfl) y

/-! ## The body's triple -/

set_option maxHeartbeats 1000000 in
/-- The kernel body on whole staging memrefs, the six inputs' at read contents and the output's at anything (the body
    also loads the output block before it overwrites it, and that value is unused), runs to the continuation holding
    the inputs' as they were and the output's at `out1_6` of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (xa xb : Vec F S2000x128 .f32) (xc : Vec F S128x128 .f32) (xd : Vec F S1x128 .f32) (xe : Vec F S128x128 .f32) (xf : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ owns (c : Thread nD τ) arg7 fullShare (out1_6 xa xb xc xd xe xf)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, Hk⟩
  subst hfa; subst hfb; subst hfc; subst hfd; subst hfe; subst hff
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  iexists _; isplitr
  swap; · iexact Hg
  ipureintro
  exact View.read_writes_eq_canon _ _ _ (cover1_6 _)

/-! ## The pipeline's proof data -/

/-- The proof data of pipeline 1 on core `c`: the arrays as the region finds them (`V`); after the body at point `t`
    each input's buffer at its block and the output's at `out1_6` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%da, Ha⟩, ⟨%db, Hb⟩, ⟨%dc, Hc⟩, ⟨%dd, Hd⟩, ⟨%de, He⟩, ⟨%df, Hf⟩, ⟨%dg, Hg⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexists _; iexact Hg
  iintro ⟨Ha, Hb, Hc, Hd, He, Hf, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Layer2.lean ====
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, the first GIN layer's MLP kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved, so the buffer still holds the block; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved, so the buffer still holds the block; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved, so the buffer still holds the block; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved, so the buffer still holds the block; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved, so the buffer still holds the block; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved, so the buffer still holds the block; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000x128 block, the whole 128x128 weight and the whole 1x128 bias: every load and the one store of the
    body go through one of these. -/
abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 6's staging buffer after the body, from the input windows' blocks: the body's single store of the whole
    block, whose payload is the two-layer perceptron of the sum of the first two blocks under the weights and biases
    of windows 2 to 5. -/
def out2_6 (xa xb : Vec F S2000x128 .f32) (xc : Vec F S128x128 .f32) (xd : Vec F S1x128 .f32) (xe : Vec F S128x128 .f32) (xf : Vec F S1x128 .f32) : Vec F S2000x128 .f32 :=
  View.canon [⟨r2_0, k2_pay1 (View.ld xa r2_0) (View.ld xb r2_0) (View.ld xc r2_1) (View.ld xd r2_2) (View.ld xe r2_1) (View.ld xf r2_2)⟩]

/-- The store tiles the buffer (checked by evaluation), so it covers it. -/
theorem cover2_6 (p : Vec F S2000x128 .f32) (y : S2000x128.Idx) :
    ∃ pc ∈ ([⟨r2_0, p⟩] : List (View.Piece (Elt F) S2000x128 .f32)), y ∈ pc.1.set :=
  View.cover_of_tiled [⟨r2_0, p⟩] S2000x128.size (by rfl) y

/-! ## The body's triple -/

set_option maxHeartbeats 1000000 in
/-- The kernel body on whole staging memrefs, the six inputs' at read contents and the output's at anything (the body
    also loads the output block before it overwrites it, and that value is unused), runs to the continuation holding
    the inputs' as they were and the output's at `out2_6` of the inputs'. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (xa xb : Vec F S2000x128 .f32) (xc : Vec F S128x128 .f32) (xd : Vec F S1x128 .f32) (xe : Vec F S128x128 .f32) (xf : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ owns (c : Thread nD τ) arg7 fullShare (out2_6 xa xb xc xd xe xf)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, Hk⟩
  subst hfa; subst hfb; subst hfc; subst hfd; subst hfe; subst hff
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  iexists _; isplitr
  swap; · iexact Hg
  ipureintro
  exact View.read_writes_eq_canon _ _ _ (cover2_6 _)

/-! ## The pipeline's proof data -/

/-- The proof data of pipeline 2 on core `c`: the arrays as the region finds them (`V`); after the body at point `t`
    each input's buffer at its block and the output's at `out2_6` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%da, Ha⟩, ⟨%db, Hb⟩, ⟨%dc, Hc⟩, ⟨%dd, Hd⟩, ⟨%de, He⟩, ⟨%df, Hf⟩, ⟨%dg, Hg⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexists _; iexact Hg
  iintro ⟨Ha, Hb, Hc, Hd, He, Hf, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  iexact Hg

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Pool.lean ====
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! # REGION 3 of @main: custom_call 3, `cc3__pool_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the scratch is zeroed), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (the scratch is stored out), from the grid coordinates. -/
abbrev cond3_1 (i : grid3.Coords) : Prop := k3_cond2 i = 1#1
/-- It holds at the last point only — decided over the grid. -/
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

/-- Windows 0 and 1 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
/-- Off the last point the output window is idle: the body stores nothing into it, -/
theorem idleAt3_2 : ∀ t : Fin cfg3.N, ¬cond3_1 (grid3.coords t) → cfg3.idle 2 (grid3.coords t) = true := by decide +kernel
/-- and the pipeline does not write its block back; -/
theorem noFlush3_2 : ∀ t : Fin cfg3.N, ¬cond3_1 (grid3.coords t) → (cfg3.win 2).flush t = false := by decide +kernel
/-- at the last point it is live: the body stores the scratch into it. -/
theorem liveAt3_2 : ∀ t : Fin cfg3.N, cond3_1 (grid3.coords t) → cfg3.idle 2 (grid3.coords t) = false := by decide +kernel

/-! ## The memrefs the body is called with -/

/-- Each window's current staging memref at point `t`, spelled as the pipeline passes it, and its wholeness. -/
abbrev ms3_0 (t : Fin cfg3.N) : Memref sig .tc .vmem S5000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)
/-- The scratch operand: a whole scoped buffer of the kernel's own, passed beside the windows and carried between points. -/
abbrev scM3 : Memref sig .tc .vmem S128x128 .f32 := Memref.whole cc3_scratch0

/-- The class invariant with the scratch operand as a memref owned at some contents, the other scoped buffers
    unopened, and the generator register at some state. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case -/

/-- The zero offsets of a rank-2 rectangle, however spelt. -/
theorem hz2 : (![0, 0] : Fin 2 → Nat) = fun _ => 0 := funext fun a => by fin_cases a <;> rfl

/-- A store through the whole-shape rectangle at zero offsets, last, covers the buffer. -/
theorem cover_cons3 {e : EltTy} (w : Vec F S128x128 e) (L : List (View.Piece (Elt F) S128x128 e)) (y : S128x128.Idx) :
    ∃ pc ∈ ((⟨Rect.unit (s := S128x128) ![0, 0] S128x128.size inb_S128x128_S128x128_0_0, w⟩ : View.Piece (Elt F) S128x128 e) :: L), y ∈ pc.1.set :=
  ⟨_, List.mem_cons_self, View.mem_set_unit_zero hz2 inb_S128x128_S128x128_0_0 y⟩

set_option maxHeartbeats 1000000 in
/-- CASE A (the first point: the first `scf.if` taken, the second not). On whole staging memrefs — the inputs' at their
    contents, the output's handed back untouched — and the scratch at anything, the body runs to the continuation with
    the scratch at the second store's contents over the zeros the first left. -/
theorem run3_A (c : Dev nD) (i : grid3.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole)
    (hc0 : cond3_0 i) (hc1 : ¬cond3_1 i)
    (x0 : Vec F S5000x1 .i32) (x1 : Vec F S5000x128 .f32) (xi : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (cover_cons3 _ _), View.canon_cons_unit_zero hz2, View.readCov_unit_zero _ hz2,
    View.readAt_eq_ld, View.readAt_eq_ld, View.ld_unit_zero hz2, View.ld_unit_zero hz2]

set_option maxHeartbeats 1000000 in
/-- CASE B (a middle point: neither `scf.if` taken). The scratch, found at `xs`, is left at the store's contents over `xs`;
    the output's buffer is handed back untouched. -/
theorem run3_B (c : Dev nD) (i : grid3.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole)
    (hc0 : ¬cond3_0 i) (hc1 : ¬cond3_1 i)
    (x0 : Vec F S5000x1 .i32) (x1 : Vec F S5000x128 .f32) (xs : Vec F S128x128 .f32) (xi : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_cons3 _ _), View.canon_unit_zero hz2,
    View.readAt_eq_ld, View.readAt_eq_ld, View.readAt_eq_ld, View.ld_unit_zero hz2, View.ld_unit_zero hz2, View.ld_unit_zero hz2]

set_option maxHeartbeats 1000000 in
/-- CASE C (the last point: the first `scf.if` not taken, the second taken). The scratch, found at `xs`, is left at the
    store's contents over `xs`, and the output's buffer, found at anything, at a copy of that. -/
theorem run3_C (c : Dev nD) (i : grid3.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole)
    (hc0 : ¬cond3_0 i) (hc1 : cond3_1 i)
    (x0 : Vec F S5000x1 .i32) (x1 : Vec F S5000x128 .f32) (xs : Vec F S128x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k3_pay2 x0 x1 xs) ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover_cons3 _ _), View.canon_unit_zero hz2, View.readCov_unit_zero _ hz2,
      View.readAt_eq_ld, View.readAt_eq_ld, View.readAt_eq_ld, View.ld_unit_zero hz2, View.ld_unit_zero hz2, View.ld_unit_zero hz2]
  iexists _; isplitr
  swap; · iexact HS
  ipureintro
  sl_unfold_run_names
  rw [View.read_writes_eq_canon _ _ _ (cover_cons3 _ _), View.canon_unit_zero hz2,
    View.readAt_eq_ld, View.readAt_eq_ld, View.readAt_eq_ld, View.ld_unit_zero hz2, View.ld_unit_zero hz2, View.ld_unit_zero hz2]

/-! ## What the scratch holds after each point -/

/-- THE ACCUMULATION. What the scratch holds after the body at point `n`: at the first point the second store's
    contents over the first's (the zeros read back), afterwards the second store's contents over what the point
    before left. -/
def accAt3 (c : Dev nD) : (n : ℕ) → n < cfg3.N → Vec F S128x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (accAt3 c n (Nat.lt_of_succ_lt h))

theorem accAt3_zero (c : Dev nD) (h0 : 0 < cfg3.N) :
    accAt3 V c 0 h0 = k3_pay2 (iblk3 V c 0 ⟨0, h0⟩) (iblk3 V c 1 ⟨0, h0⟩) (k3_pay1 (F := F)) := rfl

theorem accAt3_succ (c : Dev nD) (n : ℕ) (h : n + 1 < cfg3.N) :
    accAt3 V c (n + 1) h = k3_pay2 (iblk3 V c 0 ⟨n + 1, h⟩) (iblk3 V c 1 ⟨n + 1, h⟩) (accAt3 V c n (Nat.lt_of_succ_lt h)) := rfl

/-- `accAt3` at the first point. -/
theorem accAt3_first (c : Dev nD) (t : Fin cfg3.N) (h : t.val = 0) :
    accAt3 V c t.val t.isLt = k3_pay2 (iblk3 V c 0 t) (iblk3 V c 1 t) (k3_pay1 (F := F)) := by
  obtain ⟨n, hn⟩ := t
  cases n with
  | zero => rfl
  | succ n => exact absurd h (Nat.succ_ne_zero n)

/-- `accAt3` at a later point: over what the point before left. -/
theorem accAt3_pos (c : Dev nD) (t : Fin cfg3.N) (h : t.val ≠ 0) :
    accAt3 V c t.val t.isLt = k3_pay2 (iblk3 V c 0 t) (iblk3 V c 1 t) (accAt3 V c (t.val - 1) (Nat.lt_of_le_of_lt (Nat.sub_le _ _) t.isLt)) := by
  obtain ⟨n, hn⟩ := t
  cases n with
  | zero => exact absurd rfl h
  | succ n => rfl

/-- The region invariant before position `n`: before the first point the class's (the scratch at anything);
    afterwards the scratch at what the point before left in it, the other scoped buffers unopened, and the
    generator register at some state. -/
def PhiS3 (c : Dev nD) : (n : ℕ) → n ≤ cfg3.N → sProp 𝕄
  | 0, _ => Pipeline.ΦA spec3 c
  | n + 1, hn => iprop(owns (c : Thread nD τ) scM3 fullShare (accAt3 V c n hn)
      ∗ Pipeline.scopedRestBut (Ix := Unit) (Name := ℕ) (U := UR sig nD τ) (Lvl := ℕ) (Val := Elt F) spec3 c [cc3_scratch0] ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (accAt3 V c n hn)
      ∗ Pipeline.scopedRestBut (Ix := Unit) (Name := ℕ) (U := UR sig nD τ) (Lvl := ℕ) (Val := Elt F) spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at what the scratch then holds (consulted at the last
    point only, where the body stores the scratch into it); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in, and that
    case's run applies; the invariant hands the body the scratch at what the point before left (at anything at the first
    point), the other scoped buffers and the generator register pass through unread, and it takes the scratch back at this
    point's contents; off the last point the output's buffer is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  have hN : t.val < 10 := lt_of_lt_of_eq t.isLt (show cfg3.N = 10 from N_3)
  by_cases h0 : t.val = 0
  · -- the first point: the scratch is found at anything and zeroed first
    have h1 : ¬t.val = 9 := by omega
    have hc0 : cond3_0 (grid3.coords t) := (hcond3_0 t).mpr h0
    have hc1 : ¬cond3_1 (grid3.coords t) := fun h => h1 ((hcond3_1 t).mp h)
    rw [Dat.leavesExact_idle (dat3 V c) 2 t (idleAt3_2 t hc1) (noFlush3_2 t hc1)]
    rw [accAt3_first V c t h0]
    rw [PhiS3_castSucc V c t, PhiS3_zero V c _ _ h0, PhiA3_eq]
    iintro ⟨⟨⟨HS, HR⟩, Hg⟩, Ho, ⟨%d0, H0⟩, ⟨%d1, H1⟩, ⟨%d2, H2⟩⟩
    iapply (run3_A c (grid3.coords t) _ _ _ _ _ _ _ _ hc0 hc1 (iblk3 V c 0 t) (iblk3 V c 1 t) _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hc0 : ¬cond3_0 (grid3.coords t) := fun h => h0 ((hcond3_0 t).mp h)
    by_cases h1 : t.val = 9
    · -- the last point: the scratch is found at what the point before left, and stored out
      have hc1 : cond3_1 (grid3.coords t) := (hcond3_1 t).mpr h1
      rw [show (dat3 V c).leavesExact 2 t = owns (c : Thread nD τ) (ms3_2 t) fullShare ((dat3 V c).after 2 t) from by
          unfold Dat.leavesExact; rw [liveAt3_2 t hc1], after3_2]
      rw [accAt3_pos V c t h0]
      rw [PhiS3_castSucc V c t, PhiS3_pos V c _ _ h0]
      iintro ⟨⟨HS, HR, Hg⟩, Ho, ⟨%d0, H0⟩, ⟨%d1, H1⟩, ⟨%d2, H2⟩⟩
      iapply (run3_C c (grid3.coords t) _ _ _ _ _ _ _ _ hc0 hc1 (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · -- a middle point: the scratch is found at what the point before left
      have hc1 : ¬cond3_1 (grid3.coords t) := fun h => h1 ((hcond3_1 t).mp h)
      rw [Dat.leavesExact_idle (dat3 V c) 2 t (idleAt3_2 t hc1) (noFlush3_2 t hc1)]
      rw [accAt3_pos V c t h0]
      rw [PhiS3_castSucc V c t, PhiS3_pos V c _ _ h0]
      iintro ⟨⟨HS, HR, Hg⟩, Ho, ⟨%d0, H0⟩, ⟨%d1, H1⟩, ⟨%d2, H2⟩⟩
      iapply (run3_B c (grid3.coords t) _ _ _ _ _ _ _ _ hc0 hc1 (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS, HR, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

end Region3

end Cert.KernelIdeal.Hand

end
-- ==== Proof.KI.Run.lean ====
/-
  The run of the whole program: @main is four stretches of host operations, each followed by a kernel region
  (three perceptron layers, then the pooling). Between two items every unscoped buffer of the TensorCore is held
  at a named valuation: the launch memory, then the host stretch's operations applied, then the region's output
  array replaced by what the region's write-backs leave. The four regions' proof data are taken at those
  valuations, each region is a segment entered from the valuation before it and left at the one after it, and the
  segments' run is @main. What comes out: every weakly fair execution terminates without a fault and ends with
  every unscoped buffer at the last valuation — from which the arguments are read back unchanged and the result
  is the pooling region's output.
-/
import proofs.«423360_j44504451121830_1_alg».proof.Proof.KernelIdealRegions
import proofs.«423360_j44504451121830_1_alg».proof.Proof.KI.Layer0
import proofs.«423360_j44504451121830_1_alg».proof.Proof.KI.Layer1
import proofs.«423360_j44504451121830_1_alg».proof.Proof.KI.Layer2
import proofs.«423360_j44504451121830_1_alg».proof.Proof.KI.Pool

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 (c : Dev nD) : Valuation τ sig (Elt F) := fun b => m (c, b)

/-- After `hostOps0` (region 0's entry). -/
abbrev W1 (c : Dev nD) : Valuation τ sig (Elt F) := StableHlo.after hostOps0 (W0 m c)
/-- The same read at the TensorCore's references (what region 0's proof data take). -/
abbrev E1 : (c : Dev nD) → (b : Ref sig .tc) → Buf (Elt F) ((c : Thread nD τ).loc b) := fun c b => W1 m c b
/-- What region 0 leaves in its output array `main_v17`: the write-backs of its 25 blocks folded. -/
def o2 (c : Dev nD) : Buf (Elt F) ((c : Thread nD τ).loc main_v17) := (dat0 (E1 m) c).arrAt 6 cfg0.N
/-- At region 0's exit: `main_v17` at what the region leaves, every other buffer as entered. -/
def W2 (c : Dev nD) : Valuation τ sig (Elt F) := Function.update (W1 m c) main_v17 (o2 m c)
abbrev E2 : (c : Dev nD) → (b : Ref sig .tc) → Buf (Elt F) ((c : Thread nD τ).loc b) := fun c b => W2 m c b
theorem W2_out (c : Dev nD) : W2 m c main_v17 = o2 m c := by
  unfold W2; exact Function.update_self _ _ _
theorem W2_of (c : Dev nD) (r : Ref sig .tc) (h : r ≠ main_v17) : W2 m c r = W1 m c r := by
  unfold W2
  exact Function.update_of_ne (StableHlo.devRef_ne_of_ne h : (Proc.devRef .tc r : DevRef τ sig) ≠ Proc.devRef .tc main_v17) _ _

/-- After `hostOps1` (region 1's entry). -/
abbrev W3 (c : Dev nD) : Valuation τ sig (Elt F) := StableHlo.after hostOps1 (W2 m c)
/-- The same read at the TensorCore's references (what region 1's proof data take). -/
abbrev E3 : (c : Dev nD) → (b : Ref sig .tc) → Buf (Elt F) ((c : Thread nD τ).loc b) := fun c b => W3 m c b
/-- What region 1 leaves in its output array `main_v35`: the write-backs of its 25 blocks folded. -/
def o4 (c : Dev nD) : Buf (Elt F) ((c : Thread nD τ).loc main_v35) := (dat1 (E3 m) c).arrAt 6 cfg1.N
/-- At region 1's exit: `main_v35` at what the region leaves, every other buffer as entered. -/
def W4 (c : Dev nD) : Valuation τ sig (Elt F) := Function.update (W3 m c) main_v35 (o4 m c)
abbrev E4 : (c : Dev nD) → (b : Ref sig .tc) → Buf (Elt F) ((c : Thread nD τ).loc b) := fun c b => W4 m c b
theorem W4_out (c : Dev nD) : W4 m c main_v35 = o4 m c := by
  unfold W4; exact Function.update_self _ _ _
theorem W4_of (c : Dev nD) (r : Ref sig .tc) (h : r ≠ main_v35) : W4 m c r = W3 m c r := by
  unfold W4
  exact Function.update_of_ne (StableHlo.devRef_ne_of_ne h : (Proc.devRef .tc r : DevRef τ sig) ≠ Proc.devRef .tc main_v35) _ _

/-- After `hostOps2` (region 2's entry). -/
abbrev W5 (c : Dev nD) : Valuation τ sig (Elt F) := StableHlo.after hostOps2 (W4 m c)
/-- The same read at the TensorCore's references (what region 2's proof data take). -/
abbrev E5 : (c : Dev nD) → (b : Ref sig .tc) → Buf (Elt F) ((c : Thread nD τ).loc b) := fun c b => W5 m c b
/-- What region 2 leaves in its output array `main_v53`: the write-backs of its 25 blocks folded. -/
def o6 (c : Dev nD) : Buf (Elt F) ((c : Thread nD τ).loc main_v53) := (dat2 (E5 m) c).arrAt 6 cfg2.N
/-- At region 2's exit: `main_v53` at what the region leaves, every other buffer as entered. -/
def W6 (c : Dev nD) : Valuation τ sig (Elt F) := Function.update (W5 m c) main_v53 (o6 m c)
abbrev E6 : (c : Dev nD) → (b : Ref sig .tc) → Buf (Elt F) ((c : Thread nD τ).loc b) := fun c b => W6 m c b
theorem W6_out (c : Dev nD) : W6 m c main_v53 = o6 m c := by
  unfold W6; exact Function.update_self _ _ _
theorem W6_of (c : Dev nD) (r : Ref sig .tc) (h : r ≠ main_v53) : W6 m c r = W5 m c r := by
  unfold W6
  exact Function.update_of_ne (StableHlo.devRef_ne_of_ne h : (Proc.devRef .tc r : DevRef τ sig) ≠ Proc.devRef .tc main_v53) _ _

/-- After `hostOps3` (region 3's entry). -/
abbrev W7 (c : Dev nD) : Valuation τ sig (Elt F) := StableHlo.after hostOps3 (W6 m c)
/-- The same read at the TensorCore's references (what region 3's proof data take). -/
abbrev E7 : (c : Dev nD) → (b : Ref sig .tc) → Buf (Elt F) ((c : Thread nD τ).loc b) := fun c b => W7 m c b
/-- What region 3 leaves in its output array `main_v55`: the write-backs of its one block folded. -/
def o8 (c : Dev nD) : Buf (Elt F) ((c : Thread nD τ).loc main_v55) := (dat3 (E7 m) c).arrAt 2 cfg3.N
/-- At region 3's exit: `main_v55` at what the region leaves, every other buffer as entered. -/
def W8 (c : Dev nD) : Valuation τ sig (Elt F) := Function.update (W7 m c) main_v55 (o8 m c)
abbrev E8 : (c : Dev nD) → (b : Ref sig .tc) → Buf (Elt F) ((c : Thread nD τ).loc b) := fun c b => W8 m c b
theorem W8_out (c : Dev nD) : W8 m c main_v55 = o8 m c := by
  unfold W8; exact Function.update_self _ _ _
theorem W8_of (c : Dev nD) (r : Ref sig .tc) (h : r ≠ main_v55) : W8 m c r = W7 m c r := by
  unfold W8
  exact Function.update_of_ne (StableHlo.devRef_ne_of_ne h : (Proc.devRef .tc r : DevRef τ sig) ≠ Proc.devRef .tc main_v55) _ _

/-- At region 0's exit each of its arrays holds what the pipeline leaves: an input window's array is unchanged, the
    output's is the folded write-backs; and every other buffer holds what it held at entry. -/
theorem hF0 (c : Dev nD) : ∀ w : Fin cfg0.W, (dat0 (E1 m) c).arrAt w cfg0.N = (fun b : Ref sig .tc => W2 m c b) (Pipeline.arrRef spec0 w) :=
  fun
  | 0 => ((dat0 (E1 m) c).arrAt_in 0 rfl _).trans ((A_eq0 (E1 m) c 0).trans (W2_of m c (Pipeline.arrRef spec0 0) (by decide)).symm)
  | 1 => ((dat0 (E1 m) c).arrAt_in 1 rfl _).trans ((A_eq0 (E1 m) c 1).trans (W2_of m c (Pipeline.arrRef spec0 1) (by decide)).symm)
  | 2 => ((dat0 (E1 m) c).arrAt_in 2 rfl _).trans ((A_eq0 (E1 m) c 2).trans (W2_of m c (Pipeline.arrRef spec0 2) (by decide)).symm)
  | 3 => ((dat0 (E1 m) c).arrAt_in 3 rfl _).trans ((A_eq0 (E1 m) c 3).trans (W2_of m c (Pipeline.arrRef spec0 3) (by decide)).symm)
  | 4 => ((dat0 (E1 m) c).arrAt_in 4 rfl _).trans ((A_eq0 (E1 m) c 4).trans (W2_of m c (Pipeline.arrRef spec0 4) (by decide)).symm)
  | 5 => ((dat0 (E1 m) c).arrAt_in 5 rfl _).trans ((A_eq0 (E1 m) c 5).trans (W2_of m c (Pipeline.arrRef spec0 5) (by decide)).symm)
  | 6 => (W2_out m c).symm
  | ⟨_ + 7, h⟩ => absurd h (Nat.not_lt.2 (Nat.le_add_left _ _))
theorem hrest0 (c : Dev nD) : ∀ b, b ∉ Finset.univ.image (Pipeline.arrRef spec0) → (fun b : Ref sig .tc => W2 m c b) b = (fun b : Ref sig .tc => W1 m c b) b :=
  fun b hb => W2_of m c b fun e => hb (Finset.mem_image.mpr ⟨6, Finset.mem_univ _, e.symm⟩)

/-- At region 1's exit each of its arrays holds what the pipeline leaves: an input window's array is unchanged, the
    output's is the folded write-backs; and every other buffer holds what it held at entry. -/
theorem hF1 (c : Dev nD) : ∀ w : Fin cfg1.W, (dat1 (E3 m) c).arrAt w cfg1.N = (fun b : Ref sig .tc => W4 m c b) (Pipeline.arrRef spec1 w) :=
  fun
  | 0 => ((dat1 (E3 m) c).arrAt_in 0 rfl _).trans ((A_eq1 (E3 m) c 0).trans (W4_of m c (Pipeline.arrRef spec1 0) (by decide)).symm)
  | 1 => ((dat1 (E3 m) c).arrAt_in 1 rfl _).trans ((A_eq1 (E3 m) c 1).trans (W4_of m c (Pipeline.arrRef spec1 1) (by decide)).symm)
  | 2 => ((dat1 (E3 m) c).arrAt_in 2 rfl _).trans ((A_eq1 (E3 m) c 2).trans (W4_of m c (Pipeline.arrRef spec1 2) (by decide)).symm)
  | 3 => ((dat1 (E3 m) c).arrAt_in 3 rfl _).trans ((A_eq1 (E3 m) c 3).trans (W4_of m c (Pipeline.arrRef spec1 3) (by decide)).symm)
  | 4 => ((dat1 (E3 m) c).arrAt_in 4 rfl _).trans ((A_eq1 (E3 m) c 4).trans (W4_of m c (Pipeline.arrRef spec1 4) (by decide)).symm)
  | 5 => ((dat1 (E3 m) c).arrAt_in 5 rfl _).trans ((A_eq1 (E3 m) c 5).trans (W4_of m c (Pipeline.arrRef spec1 5) (by decide)).symm)
  | 6 => (W4_out m c).symm
  | ⟨_ + 7, h⟩ => absurd h (Nat.not_lt.2 (Nat.le_add_left _ _))
theorem hrest1 (c : Dev nD) : ∀ b, b ∉ Finset.univ.image (Pipeline.arrRef spec1) → (fun b : Ref sig .tc => W4 m c b) b = (fun b : Ref sig .tc => W3 m c b) b :=
  fun b hb => W4_of m c b fun e => hb (Finset.mem_image.mpr ⟨6, Finset.mem_univ _, e.symm⟩)

/-- At region 2's exit each of its arrays holds what the pipeline leaves: an input window's array is unchanged, the
    output's is the folded write-backs; and every other buffer holds what it held at entry. -/
theorem hF2 (c : Dev nD) : ∀ w : Fin cfg2.W, (dat2 (E5 m) c).arrAt w cfg2.N = (fun b : Ref sig .tc => W6 m c b) (Pipeline.arrRef spec2 w) :=
  fun
  | 0 => ((dat2 (E5 m) c).arrAt_in 0 rfl _).trans ((A_eq2 (E5 m) c 0).trans (W6_of m c (Pipeline.arrRef spec2 0) (by decide)).symm)
  | 1 => ((dat2 (E5 m) c).arrAt_in 1 rfl _).trans ((A_eq2 (E5 m) c 1).trans (W6_of m c (Pipeline.arrRef spec2 1) (by decide)).symm)
  | 2 => ((dat2 (E5 m) c).arrAt_in 2 rfl _).trans ((A_eq2 (E5 m) c 2).trans (W6_of m c (Pipeline.arrRef spec2 2) (by decide)).symm)
  | 3 => ((dat2 (E5 m) c).arrAt_in 3 rfl _).trans ((A_eq2 (E5 m) c 3).trans (W6_of m c (Pipeline.arrRef spec2 3) (by decide)).symm)
  | 4 => ((dat2 (E5 m) c).arrAt_in 4 rfl _).trans ((A_eq2 (E5 m) c 4).trans (W6_of m c (Pipeline.arrRef spec2 4) (by decide)).symm)
  | 5 => ((dat2 (E5 m) c).arrAt_in 5 rfl _).trans ((A_eq2 (E5 m) c 5).trans (W6_of m c (Pipeline.arrRef spec2 5) (by decide)).symm)
  | 6 => (W6_out m c).symm
  | ⟨_ + 7, h⟩ => absurd h (Nat.not_lt.2 (Nat.le_add_left _ _))
theorem hrest2 (c : Dev nD) : ∀ b, b ∉ Finset.univ.image (Pipeline.arrRef spec2) → (fun b : Ref sig .tc => W6 m c b) b = (fun b : Ref sig .tc => W5 m c b) b :=
  fun b hb => W6_of m c b fun e => hb (Finset.mem_image.mpr ⟨6, Finset.mem_univ _, e.symm⟩)

/-- At region 3's exit: the two input arrays unchanged, the pooled output at the last point's write-back. -/
theorem hF3 (c : Dev nD) : ∀ w : Fin cfg3.W, (dat3 (E7 m) c).arrAt w cfg3.N = (fun b : Ref sig .tc => W8 m c b) (Pipeline.arrRef spec3 w) :=
  fun
  | 0 => ((dat3 (E7 m) c).arrAt_in 0 rfl _).trans ((A_eq3 (E7 m) c 0).trans (W8_of m c (Pipeline.arrRef spec3 0) (by decide)).symm)
  | 1 => ((dat3 (E7 m) c).arrAt_in 1 rfl _).trans ((A_eq3 (E7 m) c 1).trans (W8_of m c (Pipeline.arrRef spec3 1) (by decide)).symm)
  | 2 => (W8_out m c).symm
  | ⟨_ + 3, h⟩ => absurd h (Nat.not_lt.2 (Nat.le_add_left _ _))
theorem hrest3 (c : Dev nD) : ∀ b, b ∉ Finset.univ.image (Pipeline.arrRef spec3) → (fun b : Ref sig .tc => W8 m c b) b = (fun b : Ref sig .tc => W7 m c b) b :=
  fun b hb => W8_of m c b fun e => hb (Finset.mem_image.mpr ⟨2, Finset.mem_univ _, e.symm⟩)

/-! ## No item writes an argument -/

/-- A buffer that no host stretch writes and that is no region's output reaches the end as launched. -/
theorem W8_of_launch (c : Dev nD) (r : Ref sig .tc)
    (h0 : r ∉ hostOps0_W) (h1 : r ∉ hostOps1_W) (h2 : r ∉ hostOps2_W) (h3 : r ∉ hostOps3_W)
    (ho : r ≠ main_v17 ∧ r ≠ main_v35 ∧ r ≠ main_v53 ∧ r ≠ main_v55) :
    W8 m c r = m ((c : Thread nD τ).loc r) :=
  (W8_of m c r ho.2.2.2).trans <| (StableHlo.after_of_writes_sub hostOps3 _ hostOps3_writes h3).trans <|
  (W6_of m c r ho.2.2.1).trans <| (StableHlo.after_of_writes_sub hostOps2 _ hostOps2_writes h2).trans <|
  (W4_of m c r ho.2.1).trans <| (StableHlo.after_of_writes_sub hostOps1 _ hostOps1_writes h1).trans <|
  (W2_of m c r ho.1).trans <| (StableHlo.after_of_writes_sub hostOps0 _ hostOps0_writes h0).trans rfl

-- from here on the exit valuations are opaque: only `WK_out` and `WK_of` speak of them
attribute [irreducible] W2 W4 W6 W8

/-! ## The proof data family and the thread state -/

/-- Every pipeline's proof data, each at its region's entry contents — a literal match, so that the regions kit's
    pinned configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

-- a library lemma stated over `pin pcs a p` unifies with the pinned configuration only when unification may unfold
-- plain definitions in a metavariable's type
set_option backward.isDefEq.respectTransparency.types false in
/-- REGION 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 over the thread state: entered from every unscoped buffer at `W3`, left at `W4`. Its arrays are
    split out of the unscoped buffers and put back at the exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 over the thread state: entered from every unscoped buffer at `W5`, left at `W6`. Its arrays are
    split out of the unscoped buffers and put back at the exit contents; the generator register goes into the
    region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 over the thread state: entered from every unscoped buffer at `W7`, left at `W8`. Its arrays are
    split out of the unscoped buffers and put back at the exit contents; the generator register goes into the
    region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (E7 m) c)
    unfold Pipeline.ΦA
    iintro ⟨Hp, -, Hr⟩
    isplitl [Hr]; · iexact Hr
    iexact Hp
  hout c := by
    rw [Pipeline.ownSems0_none]
    refine (hout3 (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state holds every unscoped buffer at the last valuation `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- A buffer of the final state at the last valuation, for an unscoped reference. -/
theorem read_final {r : PUnit × MemSt nD τ sig (Elt F)} (h : ∀ c : Dev nD, ∀ b ∈ Pipeline.ucRefs τ sig, r.2.mem (((c : Thread nD τ)).1, b) = W8 m c b)
    (c : Dev nD) (b : Ref sig .tc) (hb : ¬ (Proc.devRef .tc b : DevRef τ sig).isScoped) :
    r.2.mem ((c.tc : Thread nD τ).loc b) = W8 m c b := h c _ (mem_uc b hb)

end Cert.KernelIdeal.Hand

end
-- ==== Proof.KB.Layer0.lean ====
import proofs.«423360_j44504451121830_1_alg».proof.Proof.KernelLaunch
import proofs.«423360_j44504451121830_1_alg».proof.Proof.Gen.Kernel.Skeleton
import proofs.«423360_j44504451121830_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, the first GIN layer's MLP kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, so the buffer still holds the block; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved, so the buffer still holds the block; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved, so the buffer still holds the block; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block index
    has not moved, so the buffer still holds the block; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block index
    has not moved, so the buffer still holds the block; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block index
    has not moved, so the buffer still holds the block; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000x128 block, the whole 128x128 weight and the whole 1x128 bias: every load and the one store of the
    body go through one of these. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 6's staging buffer after the body, from the input windows' blocks: the body's single store of the whole
    block, whose payload is the two-layer perceptron of the sum of the first two blocks under the weights and biases
    of windows 2 to 5. -/
def out0_6 (xa xb : Vec F S2000x128 .f32) (xc : Vec F S128x128 .f32) (xd : Vec F S1x128 .f32) (xe : Vec F S128x128 .f32) (xf : Vec F S1x128 .f32) : Vec F S2000x128 .f32 :=
  View.canon [⟨r0_0, k0_pay1 (View.ld xa r0_0) (View.ld xb r0_0) (View.ld xc r0_1) (View.ld xd r0_2) (View.ld xe r0_1) (View.ld xf r0_2)⟩]

/-- The store tiles the buffer (checked by evaluation), so it covers it. -/
theorem cover0_6 (p : Vec F S2000x128 .f32) (y : S2000x128.Idx) :
    ∃ pc ∈ ([⟨r0_0, p⟩] : List (View.Piece (Elt F) S2000x128 .f32)), y ∈ pc.1.set :=
  View.cover_of_tiled [⟨r0_0, p⟩] S2000x128.size (by rfl) y

/-! ## The body's triple -/

set_option maxHeartbeats 1000000 in
/-- The kernel body on whole staging memrefs, the six inputs' at read contents and the output's at anything (the body
    also loads the output block before it overwrites it, and that value is unused), runs to the continuation holding
    the inputs' as they were and the output's at `out0_6` of the inputs'. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (xa xb : Vec F S2000x128 .f32) (xc : Vec F S128x128 .f32) (xd : Vec F S1x128 .f32) (xe : Vec F S128x128 .f32) (xf : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ owns (c : Thread nD τ) arg7 fullShare (out0_6 xa xb xc xd xe xf)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, Hk⟩
  subst hfa; subst hfb; subst hfc; subst hfd; subst hfe; subst hff
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  iexists _; isplitr
  swap; · iexact Hg
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%da, Ha⟩, ⟨%db, Hb⟩, ⟨%dc, Hc⟩, ⟨%dd, Hd⟩, ⟨%de, He⟩, ⟨%df, Hf⟩, ⟨%dg, Hg⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexists _; iexact Hg
  iintro ⟨Ha, Hb, Hc, Hd, He, Hf, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Layer1.lean ====
import proofs.«423360_j44504451121830_1_alg».proof.Proof.KernelLaunch
import proofs.«423360_j44504451121830_1_alg».proof.Proof.Gen.Kernel.Skeleton
import proofs.«423360_j44504451121830_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, the first GIN layer's MLP kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved, so the buffer still holds the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved, so the buffer still holds the block; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved, so the buffer still holds the block; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved, so the buffer still holds the block; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved, so the buffer still holds the block; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved, so the buffer still holds the block; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x128 block, the whole 128x128 weight and the whole 1x128 bias: every load and the one store of the
    body go through one of these. -/
abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 6's staging buffer after the body, from the input windows' blocks: the body's single store of the whole
    block, whose payload is the two-layer perceptron of the sum of the first two blocks under the weights and biases
    of windows 2 to 5. -/
def out1_6 (xa xb : Vec F S2000x128 .f32) (xc : Vec F S128x128 .f32) (xd : Vec F S1x128 .f32) (xe : Vec F S128x128 .f32) (xf : Vec F S1x128 .f32) : Vec F S2000x128 .f32 :=
  View.canon [⟨r1_0, k1_pay1 (View.ld xa r1_0) (View.ld xb r1_0) (View.ld xc r1_1) (View.ld xd r1_2) (View.ld xe r1_1) (View.ld xf r1_2)⟩]

/-- The store tiles the buffer (checked by evaluation), so it covers it. -/
theorem cover1_6 (p : Vec F S2000x128 .f32) (y : S2000x128.Idx) :
    ∃ pc ∈ ([⟨r1_0, p⟩] : List (View.Piece (Elt F) S2000x128 .f32)), y ∈ pc.1.set :=
  View.cover_of_tiled [⟨r1_0, p⟩] S2000x128.size (by rfl) y

/-! ## The body's triple -/

set_option maxHeartbeats 1000000 in
/-- The kernel body on whole staging memrefs, the six inputs' at read contents and the output's at anything (the body
    also loads the output block before it overwrites it, and that value is unused), runs to the continuation holding
    the inputs' as they were and the output's at `out1_6` of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (xa xb : Vec F S2000x128 .f32) (xc : Vec F S128x128 .f32) (xd : Vec F S1x128 .f32) (xe : Vec F S128x128 .f32) (xf : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ owns (c : Thread nD τ) arg7 fullShare (out1_6 xa xb xc xd xe xf)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, Hk⟩
  subst hfa; subst hfb; subst hfc; subst hfd; subst hfe; subst hff
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  iexists _; isplitr
  swap; · iexact Hg
  ipureintro
  exact View.read_writes_eq_canon _ _ _ (cover1_6 _)

/-! ## The pipeline's proof data -/

/-- The proof data of pipeline 1 on core `c`: the arrays as the region finds them (`V`); after the body at point `t`
    each input's buffer at its block and the output's at `out1_6` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%da, Ha⟩, ⟨%db, Hb⟩, ⟨%dc, Hc⟩, ⟨%dd, Hd⟩, ⟨%de, He⟩, ⟨%df, Hf⟩, ⟨%dg, Hg⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexists _; iexact Hg
  iintro ⟨Ha, Hb, Hc, Hd, He, Hf, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Layer2.lean ====
import proofs.«423360_j44504451121830_1_alg».proof.Proof.KernelLaunch
import proofs.«423360_j44504451121830_1_alg».proof.Proof.Gen.Kernel.Skeleton
import proofs.«423360_j44504451121830_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, the first GIN layer's MLP kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved, so the buffer still holds the block; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved, so the buffer still holds the block; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved, so the buffer still holds the block; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved, so the buffer still holds the block; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved, so the buffer still holds the block; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved, so the buffer still holds the block; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000x128 block, the whole 128x128 weight and the whole 1x128 bias: every load and the one store of the
    body go through one of these. -/
abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 6's staging buffer after the body, from the input windows' blocks: the body's single store of the whole
    block, whose payload is the two-layer perceptron of the sum of the first two blocks under the weights and biases
    of windows 2 to 5. -/
def out2_6 (xa xb : Vec F S2000x128 .f32) (xc : Vec F S128x128 .f32) (xd : Vec F S1x128 .f32) (xe : Vec F S128x128 .f32) (xf : Vec F S1x128 .f32) : Vec F S2000x128 .f32 :=
  View.canon [⟨r2_0, k2_pay1 (View.ld xa r2_0) (View.ld xb r2_0) (View.ld xc r2_1) (View.ld xd r2_2) (View.ld xe r2_1) (View.ld xf r2_2)⟩]

/-- The store tiles the buffer (checked by evaluation), so it covers it. -/
theorem cover2_6 (p : Vec F S2000x128 .f32) (y : S2000x128.Idx) :
    ∃ pc ∈ ([⟨r2_0, p⟩] : List (View.Piece (Elt F) S2000x128 .f32)), y ∈ pc.1.set :=
  View.cover_of_tiled [⟨r2_0, p⟩] S2000x128.size (by rfl) y

/-! ## The body's triple -/

set_option maxHeartbeats 1000000 in
/-- The kernel body on whole staging memrefs, the six inputs' at read contents and the output's at anything (the body
    also loads the output block before it overwrites it, and that value is unused), runs to the continuation holding
    the inputs' as they were and the output's at `out2_6` of the inputs'. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (xa xb : Vec F S2000x128 .f32) (xc : Vec F S128x128 .f32) (xd : Vec F S1x128 .f32) (xe : Vec F S128x128 .f32) (xf : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare xf ∗ owns (c : Thread nD τ) arg7 fullShare (out2_6 xa xb xc xd xe xf)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, Hk⟩
  subst hfa; subst hfb; subst hfc; subst hfd; subst hfe; subst hff
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  iexists _; isplitr
  swap; · iexact Hg
  ipureintro
  exact View.read_writes_eq_canon _ _ _ (cover2_6 _)

/-! ## The pipeline's proof data -/

/-- The proof data of pipeline 2 on core `c`: the arrays as the region finds them (`V`); after the body at point `t`
    each input's buffer at its block and the output's at `out2_6` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%da, Ha⟩, ⟨%db, Hb⟩, ⟨%dc, Hc⟩, ⟨%dd, Hd⟩, ⟨%de, He⟩, ⟨%df, Hf⟩, ⟨%dg, Hg⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexists _; iexact Hg
  iintro ⟨Ha, Hb, Hc, Hd, He, Hf, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  iexact Hg

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Pool.lean ====
import proofs.«423360_j44504451121830_1_alg».proof.Proof.KernelLaunch
import proofs.«423360_j44504451121830_1_alg».proof.Proof.Gen.Kernel.Skeleton
import proofs.«423360_j44504451121830_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! # REGION 3 of @main: custom_call 3, `cc3__pool_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the scratch is zeroed), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (the scratch is stored out), from the grid coordinates. -/
abbrev cond3_1 (i : grid3.Coords) : Prop := k3_cond2 i = 1#1
/-- It holds at the last point only — decided over the grid. -/
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

/-- Windows 0 and 1 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
/-- Off the last point the output window is idle: the body stores nothing into it, -/
theorem idleAt3_2 : ∀ t : Fin cfg3.N, ¬cond3_1 (grid3.coords t) → cfg3.idle 2 (grid3.coords t) = true := by decide +kernel
/-- and the pipeline does not write its block back; -/
theorem noFlush3_2 : ∀ t : Fin cfg3.N, ¬cond3_1 (grid3.coords t) → (cfg3.win 2).flush t = false := by decide +kernel
/-- at the last point it is live: the body stores the scratch into it. -/
theorem liveAt3_2 : ∀ t : Fin cfg3.N, cond3_1 (grid3.coords t) → cfg3.idle 2 (grid3.coords t) = false := by decide +kernel

/-! ## The memrefs the body is called with -/

/-- Each window's current staging memref at point `t`, spelled as the pipeline passes it, and its wholeness. -/
abbrev ms3_0 (t : Fin cfg3.N) : Memref sig .tc .vmem S5000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)
/-- The scratch operand: a whole scoped buffer of the kernel's own, passed beside the windows and carried between points. -/
abbrev scM3 : Memref sig .tc .vmem S128x128 .f32 := Memref.whole cc3_scratch0

/-- The class invariant with the scratch operand as a memref owned at some contents, the other scoped buffers
    unopened, and the generator register at some state. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case -/

/-- The zero offsets of a rank-2 rectangle, however spelt. -/
theorem hz2 : (![0, 0] : Fin 2 → Nat) = fun _ => 0 := funext fun a => by fin_cases a <;> rfl

/-- A store through the whole-shape rectangle at zero offsets, last, covers the buffer. -/
theorem cover_cons3 {e : EltTy} (w : Vec F S128x128 e) (L : List (View.Piece (Elt F) S128x128 e)) (y : S128x128.Idx) :
    ∃ pc ∈ ((⟨Rect.unit (s := S128x128) ![0, 0] S128x128.size inb_S128x128_S128x128_0_0, w⟩ : View.Piece (Elt F) S128x128 e) :: L), y ∈ pc.1.set :=
  ⟨_, List.mem_cons_self, View.mem_set_unit_zero hz2 inb_S128x128_S128x128_0_0 y⟩

set_option maxHeartbeats 1000000 in
/-- CASE A (the first point: the first `scf.if` taken, the second not). On whole staging memrefs — the inputs' at their
    contents, the output's handed back untouched — and the scratch at anything, the body runs to the continuation with
    the scratch at the second store's contents over the zeros the first left. -/
theorem run3_A (c : Dev nD) (i : grid3.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole)
    (hc0 : cond3_0 i) (hc1 : ¬cond3_1 i)
    (x0 : Vec F S5000x1 .i32) (x1 : Vec F S5000x128 .f32) (xi : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (cover_cons3 _ _), View.canon_cons_unit_zero hz2, View.readCov_unit_zero _ hz2,
    View.readAt_eq_ld, View.readAt_eq_ld, View.ld_unit_zero hz2, View.ld_unit_zero hz2]

set_option maxHeartbeats 1000000 in
/-- CASE B (a middle point: neither `scf.if` taken). The scratch, found at `xs`, is left at the store's contents over `xs`;
    the output's buffer is handed back untouched. -/
theorem run3_B (c : Dev nD) (i : grid3.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole)
    (hc0 : ¬cond3_0 i) (hc1 : ¬cond3_1 i)
    (x0 : Vec F S5000x1 .i32) (x1 : Vec F S5000x128 .f32) (xs : Vec F S128x128 .f32) (xi : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_cons3 _ _), View.canon_unit_zero hz2,
    View.readAt_eq_ld, View.readAt_eq_ld, View.readAt_eq_ld, View.ld_unit_zero hz2, View.ld_unit_zero hz2, View.ld_unit_zero hz2]

set_option maxHeartbeats 1000000 in
/-- CASE C (the last point: the first `scf.if` not taken, the second taken). The scratch, found at `xs`, is left at the
    store's contents over `xs`, and the output's buffer, found at anything, at a copy of that. -/
theorem run3_C (c : Dev nD) (i : grid3.Coords) (arg1 : Memref sig .tc .vmem S5000x1 .i32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole)
    (hc0 : ¬cond3_0 i) (hc1 : cond3_1 i)
    (x0 : Vec F S5000x1 .i32) (x1 : Vec F S5000x128 .f32) (xs : Vec F S128x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k3_pay2 x0 x1 xs) ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover_cons3 _ _), View.canon_unit_zero hz2, View.readCov_unit_zero _ hz2,
      View.readAt_eq_ld, View.readAt_eq_ld, View.readAt_eq_ld, View.ld_unit_zero hz2, View.ld_unit_zero hz2, View.ld_unit_zero hz2]
  iexists _; isplitr
  swap; · iexact HS
  ipureintro
  sl_unfold_run_names
  rw [View.read_writes_eq_canon _ _ _ (cover_cons3 _ _), View.canon_unit_zero hz2,
    View.readAt_eq_ld, View.readAt_eq_ld, View.readAt_eq_ld, View.ld_unit_zero hz2, View.ld_unit_zero hz2, View.ld_unit_zero hz2]

/-! ## What the scratch holds after each point -/

/-- THE ACCUMULATION. What the scratch holds after the body at point `n`: at the first point the second store's
    contents over the first's (the zeros read back), afterwards the second store's contents over what the point
    before left. -/
def accAt3 (c : Dev nD) : (n : ℕ) → n < cfg3.N → Vec F S128x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (accAt3 c n (Nat.lt_of_succ_lt h))

theorem accAt3_zero (c : Dev nD) (h0 : 0 < cfg3.N) :
    accAt3 V c 0 h0 = k3_pay2 (iblk3 V c 0 ⟨0, h0⟩) (iblk3 V c 1 ⟨0, h0⟩) (k3_pay1 (F := F)) := rfl

theorem accAt3_succ (c : Dev nD) (n : ℕ) (h : n + 1 < cfg3.N) :
    accAt3 V c (n + 1) h = k3_pay2 (iblk3 V c 0 ⟨n + 1, h⟩) (iblk3 V c 1 ⟨n + 1, h⟩) (accAt3 V c n (Nat.lt_of_succ_lt h)) := rfl

/-- `accAt3` at the first point. -/
theorem accAt3_first (c : Dev nD) (t : Fin cfg3.N) (h : t.val = 0) :
    accAt3 V c t.val t.isLt = k3_pay2 (iblk3 V c 0 t) (iblk3 V c 1 t) (k3_pay1 (F := F)) := by
  obtain ⟨n, hn⟩ := t
  cases n with
  | zero => rfl
  | succ n => exact absurd h (Nat.succ_ne_zero n)

/-- `accAt3` at a later point: over what the point before left. -/
theorem accAt3_pos (c : Dev nD) (t : Fin cfg3.N) (h : t.val ≠ 0) :
    accAt3 V c t.val t.isLt = k3_pay2 (iblk3 V c 0 t) (iblk3 V c 1 t) (accAt3 V c (t.val - 1) (Nat.lt_of_le_of_lt (Nat.sub_le _ _) t.isLt)) := by
  obtain ⟨n, hn⟩ := t
  cases n with
  | zero => exact absurd rfl h
  | succ n => rfl

/-- The region invariant before position `n`: before the first point the class's (the scratch at anything);
    afterwards the scratch at what the point before left in it, the other scoped buffers unopened, and the
    generator register at some state. -/
def PhiS3 (c : Dev nD) : (n : ℕ) → n ≤ cfg3.N → sProp 𝕄
  | 0, _ => Pipeline.ΦA spec3 c
  | n + 1, hn => iprop(owns (c : Thread nD τ) scM3 fullShare (accAt3 V c n hn)
      ∗ Pipeline.scopedRestBut (Ix := Unit) (Name := ℕ) (U := UR sig nD τ) (Lvl := ℕ) (Val := Elt F) spec3 c [cc3_scratch0] ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (accAt3 V c n hn)
      ∗ Pipeline.scopedRestBut (Ix := Unit) (Name := ℕ) (U := UR sig nD τ) (Lvl := ℕ) (Val := Elt F) spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at what the scratch then holds (consulted at the last
    point only, where the body stores the scratch into it); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in, and that
    case's run applies; the invariant hands the body the scratch at what the point before left (at anything at the first
    point), the other scoped buffers and the generator register pass through unread, and it takes the scratch back at this
    point's contents; off the last point the output's buffer is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  have hN : t.val < 10 := lt_of_lt_of_eq t.isLt (show cfg3.N = 10 from N_3)
  by_cases h0 : t.val = 0
  · -- the first point: the scratch is found at anything and zeroed first
    have h1 : ¬t.val = 9 := by omega
    have hc0 : cond3_0 (grid3.coords t) := (hcond3_0 t).mpr h0
    have hc1 : ¬cond3_1 (grid3.coords t) := fun h => h1 ((hcond3_1 t).mp h)
    rw [Dat.leavesExact_idle (dat3 V c) 2 t (idleAt3_2 t hc1) (noFlush3_2 t hc1)]
    rw [accAt3_first V c t h0]
    rw [PhiS3_castSucc V c t, PhiS3_zero V c _ _ h0, PhiA3_eq]
    iintro ⟨⟨⟨HS, HR⟩, Hg⟩, Ho, ⟨%d0, H0⟩, ⟨%d1, H1⟩, ⟨%d2, H2⟩⟩
    iapply (run3_A c (grid3.coords t) _ _ _ _ _ _ _ _ hc0 hc1 (iblk3 V c 0 t) (iblk3 V c 1 t) _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hc0 : ¬cond3_0 (grid3.coords t) := fun h => h0 ((hcond3_0 t).mp h)
    by_cases h1 : t.val = 9
    · -- the last point: the scratch is found at what the point before left, and stored out
      have hc1 : cond3_1 (grid3.coords t) := (hcond3_1 t).mpr h1
      rw [show (dat3 V c).leavesExact 2 t = owns (c : Thread nD τ) (ms3_2 t) fullShare ((dat3 V c).after 2 t) from by
          unfold Dat.leavesExact; rw [liveAt3_2 t hc1], after3_2]
      rw [accAt3_pos V c t h0]
      rw [PhiS3_castSucc V c t, PhiS3_pos V c _ _ h0]
      iintro ⟨⟨HS, HR, Hg⟩, Ho, ⟨%d0, H0⟩, ⟨%d1, H1⟩, ⟨%d2, H2⟩⟩
      iapply (run3_C c (grid3.coords t) _ _ _ _ _ _ _ _ hc0 hc1 (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · -- a middle point: the scratch is found at what the point before left
      have hc1 : ¬cond3_1 (grid3.coords t) := fun h => h1 ((hcond3_1 t).mp h)
      rw [Dat.leavesExact_idle (dat3 V c) 2 t (idleAt3_2 t hc1) (noFlush3_2 t hc1)]
      rw [accAt3_pos V c t h0]
      rw [PhiS3_castSucc V c t, PhiS3_pos V c _ _ h0]
      iintro ⟨⟨HS, HR, Hg⟩, Ho, ⟨%d0, H0⟩, ⟨%d1, H1⟩, ⟨%d2, H2⟩⟩
      iapply (run3_B c (grid3.coords t) _ _ _ _ _ _ _ _ hc0 hc1 (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS, HR, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

end Region3

end Cert.Kernel.Hand

end
-- ==== Proof.KB.Run.lean ====
/-
  The run of the whole program: @main is four stretches of host operations, each followed by a kernel region
  (three perceptron layers, then the pooling). Between two items every unscoped buffer of the TensorCore is held
  at a named valuation: the launch memory, then the host stretch's operations applied, then the region's output
  array replaced by what the region's write-backs leave. The four regions' proof data are taken at those
  valuations, each region is a segment entered from the valuation before it and left at the one after it, and the
  segments' run is @main. What comes out: every weakly fair execution terminates without a fault and ends with
  every unscoped buffer at the last valuation — from which the arguments are read back unchanged and the result
  is the pooling region's output.
-/
import proofs.«423360_j44504451121830_1_alg».proof.Proof.KernelRegions
import proofs.«423360_j44504451121830_1_alg».proof.Proof.KB.Layer0
import proofs.«423360_j44504451121830_1_alg».proof.Proof.KB.Layer1
import proofs.«423360_j44504451121830_1_alg».proof.Proof.KB.Layer2
import proofs.«423360_j44504451121830_1_alg».proof.Proof.KB.Pool

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 (c : Dev nD) : Valuation τ sig (Elt F) := fun b => m (c, b)

/-- After `hostOps0` (region 0's entry). -/
abbrev W1 (c : Dev nD) : Valuation τ sig (Elt F) := StableHlo.after hostOps0 (W0 m c)
/-- The same read at the TensorCore's references (what region 0's proof data take). -/
abbrev E1 : (c : Dev nD) → (b : Ref sig .tc) → Buf (Elt F) ((c : Thread nD τ).loc b) := fun c b => W1 m c b
/-- What region 0 leaves in its output array `main_v17`: the write-backs of its 25 blocks folded. -/
def o2 (c : Dev nD) : Buf (Elt F) ((c : Thread nD τ).loc main_v17) := (dat0 (E1 m) c).arrAt 6 cfg0.N
/-- At region 0's exit: `main_v17` at what the region leaves, every other buffer as entered. -/
def W2 (c : Dev nD) : Valuation τ sig (Elt F) := Function.update (W1 m c) main_v17 (o2 m c)
abbrev E2 : (c : Dev nD) → (b : Ref sig .tc) → Buf (Elt F) ((c : Thread nD τ).loc b) := fun c b => W2 m c b
theorem W2_out (c : Dev nD) : W2 m c main_v17 = o2 m c := by
  unfold W2; exact Function.update_self _ _ _
theorem W2_of (c : Dev nD) (r : Ref sig .tc) (h : r ≠ main_v17) : W2 m c r = W1 m c r := by
  unfold W2
  exact Function.update_of_ne (StableHlo.devRef_ne_of_ne h : (Proc.devRef .tc r : DevRef τ sig) ≠ Proc.devRef .tc main_v17) _ _

/-- After `hostOps1` (region 1's entry). -/
abbrev W3 (c : Dev nD) : Valuation τ sig (Elt F) := StableHlo.after hostOps1 (W2 m c)
/-- The same read at the TensorCore's references (what region 1's proof data take). -/
abbrev E3 : (c : Dev nD) → (b : Ref sig .tc) → Buf (Elt F) ((c : Thread nD τ).loc b) := fun c b => W3 m c b
/-- What region 1 leaves in its output array `main_v35`: the write-backs of its 25 blocks folded. -/
def o4 (c : Dev nD) : Buf (Elt F) ((c : Thread nD τ).loc main_v35) := (dat1 (E3 m) c).arrAt 6 cfg1.N
/-- At region 1's exit: `main_v35` at what the region leaves, every other buffer as entered. -/
def W4 (c : Dev nD) : Valuation τ sig (Elt F) := Function.update (W3 m c) main_v35 (o4 m c)
abbrev E4 : (c : Dev nD) → (b : Ref sig .tc) → Buf (Elt F) ((c : Thread nD τ).loc b) := fun c b => W4 m c b
theorem W4_out (c : Dev nD) : W4 m c main_v35 = o4 m c := by
  unfold W4; exact Function.update_self _ _ _
theorem W4_of (c : Dev nD) (r : Ref sig .tc) (h : r ≠ main_v35) : W4 m c r = W3 m c r := by
  unfold W4
  exact Function.update_of_ne (StableHlo.devRef_ne_of_ne h : (Proc.devRef .tc r : DevRef τ sig) ≠ Proc.devRef .tc main_v35) _ _

/-- After `hostOps2` (region 2's entry). -/
abbrev W5 (c : Dev nD) : Valuation τ sig (Elt F) := StableHlo.after hostOps2 (W4 m c)
/-- The same read at the TensorCore's references (what region 2's proof data take). -/
abbrev E5 : (c : Dev nD) → (b : Ref sig .tc) → Buf (Elt F) ((c : Thread nD τ).loc b) := fun c b => W5 m c b
/-- What region 2 leaves in its output array `main_v53`: the write-backs of its 25 blocks folded. -/
def o6 (c : Dev nD) : Buf (Elt F) ((c : Thread nD τ).loc main_v53) := (dat2 (E5 m) c).arrAt 6 cfg2.N
/-- At region 2's exit: `main_v53` at what the region leaves, every other buffer as entered. -/
def W6 (c : Dev nD) : Valuation τ sig (Elt F) := Function.update (W5 m c) main_v53 (o6 m c)
abbrev E6 : (c : Dev nD) → (b : Ref sig .tc) → Buf (Elt F) ((c : Thread nD τ).loc b) := fun c b => W6 m c b
theorem W6_out (c : Dev nD) : W6 m c main_v53 = o6 m c := by
  unfold W6; exact Function.update_self _ _ _
theorem W6_of (c : Dev nD) (r : Ref sig .tc) (h : r ≠ main_v53) : W6 m c r = W5 m c r := by
  unfold W6
  exact Function.update_of_ne (StableHlo.devRef_ne_of_ne h : (Proc.devRef .tc r : DevRef τ sig) ≠ Proc.devRef .tc main_v53) _ _

/-- After `hostOps3` (region 3's entry). -/
abbrev W7 (c : Dev nD) : Valuation τ sig (Elt F) := StableHlo.after hostOps3 (W6 m c)
/-- The same read at the TensorCore's references (what region 3's proof data take). -/
abbrev E7 : (c : Dev nD) → (b : Ref sig .tc) → Buf (Elt F) ((c : Thread nD τ).loc b) := fun c b => W7 m c b
/-- What region 3 leaves in its output array `main_v55`: the write-backs of its one block folded. -/
def o8 (c : Dev nD) : Buf (Elt F) ((c : Thread nD τ).loc main_v55) := (dat3 (E7 m) c).arrAt 2 cfg3.N
/-- At region 3's exit: `main_v55` at what the region leaves, every other buffer as entered. -/
def W8 (c : Dev nD) : Valuation τ sig (Elt F) := Function.update (W7 m c) main_v55 (o8 m c)
abbrev E8 : (c : Dev nD) → (b : Ref sig .tc) → Buf (Elt F) ((c : Thread nD τ).loc b) := fun c b => W8 m c b
theorem W8_out (c : Dev nD) : W8 m c main_v55 = o8 m c := by
  unfold W8; exact Function.update_self _ _ _
theorem W8_of (c : Dev nD) (r : Ref sig .tc) (h : r ≠ main_v55) : W8 m c r = W7 m c r := by
  unfold W8
  exact Function.update_of_ne (StableHlo.devRef_ne_of_ne h : (Proc.devRef .tc r : DevRef τ sig) ≠ Proc.devRef .tc main_v55) _ _

/-- At region 0's exit each of its arrays holds what the pipeline leaves: an input window's array is unchanged, the
    output's is the folded write-backs; and every other buffer holds what it held at entry. -/
theorem hF0 (c : Dev nD) : ∀ w : Fin cfg0.W, (dat0 (E1 m) c).arrAt w cfg0.N = (fun b : Ref sig .tc => W2 m c b) (Pipeline.arrRef spec0 w) :=
  fun
  | 0 => ((dat0 (E1 m) c).arrAt_in 0 rfl _).trans ((A_eq0 (E1 m) c 0).trans (W2_of m c (Pipeline.arrRef spec0 0) (by decide)).symm)
  | 1 => ((dat0 (E1 m) c).arrAt_in 1 rfl _).trans ((A_eq0 (E1 m) c 1).trans (W2_of m c (Pipeline.arrRef spec0 1) (by decide)).symm)
  | 2 => ((dat0 (E1 m) c).arrAt_in 2 rfl _).trans ((A_eq0 (E1 m) c 2).trans (W2_of m c (Pipeline.arrRef spec0 2) (by decide)).symm)
  | 3 => ((dat0 (E1 m) c).arrAt_in 3 rfl _).trans ((A_eq0 (E1 m) c 3).trans (W2_of m c (Pipeline.arrRef spec0 3) (by decide)).symm)
  | 4 => ((dat0 (E1 m) c).arrAt_in 4 rfl _).trans ((A_eq0 (E1 m) c 4).trans (W2_of m c (Pipeline.arrRef spec0 4) (by decide)).symm)
  | 5 => ((dat0 (E1 m) c).arrAt_in 5 rfl _).trans ((A_eq0 (E1 m) c 5).trans (W2_of m c (Pipeline.arrRef spec0 5) (by decide)).symm)
  | 6 => (W2_out m c).symm
  | ⟨_ + 7, h⟩ => absurd h (Nat.not_lt.2 (Nat.le_add_left _ _))
theorem hrest0 (c : Dev nD) : ∀ b, b ∉ Finset.univ.image (Pipeline.arrRef spec0) → (fun b : Ref sig .tc => W2 m c b) b = (fun b : Ref sig .tc => W1 m c b) b :=
  fun b hb => W2_of m c b fun e => hb (Finset.mem_image.mpr ⟨6, Finset.mem_univ _, e.symm⟩)

/-- At region 1's exit each of its arrays holds what the pipeline leaves: an input window's array is unchanged, the
    output's is the folded write-backs; and every other buffer holds what it held at entry. -/
theorem hF1 (c : Dev nD) : ∀ w : Fin cfg1.W, (dat1 (E3 m) c).arrAt w cfg1.N = (fun b : Ref sig .tc => W4 m c b) (Pipeline.arrRef spec1 w) :=
  fun
  | 0 => ((dat1 (E3 m) c).arrAt_in 0 rfl _).trans ((A_eq1 (E3 m) c 0).trans (W4_of m c (Pipeline.arrRef spec1 0) (by decide)).symm)
  | 1 => ((dat1 (E3 m) c).arrAt_in 1 rfl _).trans ((A_eq1 (E3 m) c 1).trans (W4_of m c (Pipeline.arrRef spec1 1) (by decide)).symm)
  | 2 => ((dat1 (E3 m) c).arrAt_in 2 rfl _).trans ((A_eq1 (E3 m) c 2).trans (W4_of m c (Pipeline.arrRef spec1 2) (by decide)).symm)
  | 3 => ((dat1 (E3 m) c).arrAt_in 3 rfl _).trans ((A_eq1 (E3 m) c 3).trans (W4_of m c (Pipeline.arrRef spec1 3) (by decide)).symm)
  | 4 => ((dat1 (E3 m) c).arrAt_in 4 rfl _).trans ((A_eq1 (E3 m) c 4).trans (W4_of m c (Pipeline.arrRef spec1 4) (by decide)).symm)
  | 5 => ((dat1 (E3 m) c).arrAt_in 5 rfl _).trans ((A_eq1 (E3 m) c 5).trans (W4_of m c (Pipeline.arrRef spec1 5) (by decide)).symm)
  | 6 => (W4_out m c).symm
  | ⟨_ + 7, h⟩ => absurd h (Nat.not_lt.2 (Nat.le_add_left _ _))
theorem hrest1 (c : Dev nD) : ∀ b, b ∉ Finset.univ.image (Pipeline.arrRef spec1) → (fun b : Ref sig .tc => W4 m c b) b = (fun b : Ref sig .tc => W3 m c b) b :=
  fun b hb => W4_of m c b fun e => hb (Finset.mem_image.mpr ⟨6, Finset.mem_univ _, e.symm⟩)

/-- At region 2's exit each of its arrays holds what the pipeline leaves: an input window's array is unchanged, the
    output's is the folded write-backs; and every other buffer holds what it held at entry. -/
theorem hF2 (c : Dev nD) : ∀ w : Fin cfg2.W, (dat2 (E5 m) c).arrAt w cfg2.N = (fun b : Ref sig .tc => W6 m c b) (Pipeline.arrRef spec2 w) :=
  fun
  | 0 => ((dat2 (E5 m) c).arrAt_in 0 rfl _).trans ((A_eq2 (E5 m) c 0).trans (W6_of m c (Pipeline.arrRef spec2 0) (by decide)).symm)
  | 1 => ((dat2 (E5 m) c).arrAt_in 1 rfl _).trans ((A_eq2 (E5 m) c 1).trans (W6_of m c (Pipeline.arrRef spec2 1) (by decide)).symm)
  | 2 => ((dat2 (E5 m) c).arrAt_in 2 rfl _).trans ((A_eq2 (E5 m) c 2).trans (W6_of m c (Pipeline.arrRef spec2 2) (by decide)).symm)
  | 3 => ((dat2 (E5 m) c).arrAt_in 3 rfl _).trans ((A_eq2 (E5 m) c 3).trans (W6_of m c (Pipeline.arrRef spec2 3) (by decide)).symm)
  | 4 => ((dat2 (E5 m) c).arrAt_in 4 rfl _).trans ((A_eq2 (E5 m) c 4).trans (W6_of m c (Pipeline.arrRef spec2 4) (by decide)).symm)
  | 5 => ((dat2 (E5 m) c).arrAt_in 5 rfl _).trans ((A_eq2 (E5 m) c 5).trans (W6_of m c (Pipeline.arrRef spec2 5) (by decide)).symm)
  | 6 => (W6_out m c).symm
  | ⟨_ + 7, h⟩ => absurd h (Nat.not_lt.2 (Nat.le_add_left _ _))
theorem hrest2 (c : Dev nD) : ∀ b, b ∉ Finset.univ.image (Pipeline.arrRef spec2) → (fun b : Ref sig .tc => W6 m c b) b = (fun b : Ref sig .tc => W5 m c b) b :=
  fun b hb => W6_of m c b fun e => hb (Finset.mem_image.mpr ⟨6, Finset.mem_univ _, e.symm⟩)

/-- At region 3's exit: the two input arrays unchanged, the pooled output at the last point's write-back. -/
theorem hF3 (c : Dev nD) : ∀ w : Fin cfg3.W, (dat3 (E7 m) c).arrAt w cfg3.N = (fun b : Ref sig .tc => W8 m c b) (Pipeline.arrRef spec3 w) :=
  fun
  | 0 => ((dat3 (E7 m) c).arrAt_in 0 rfl _).trans ((A_eq3 (E7 m) c 0).trans (W8_of m c (Pipeline.arrRef spec3 0) (by decide)).symm)
  | 1 => ((dat3 (E7 m) c).arrAt_in 1 rfl _).trans ((A_eq3 (E7 m) c 1).trans (W8_of m c (Pipeline.arrRef spec3 1) (by decide)).symm)
  | 2 => (W8_out m c).symm
  | ⟨_ + 3, h⟩ => absurd h (Nat.not_lt.2 (Nat.le_add_left _ _))
theorem hrest3 (c : Dev nD) : ∀ b, b ∉ Finset.univ.image (Pipeline.arrRef spec3) → (fun b : Ref sig .tc => W8 m c b) b = (fun b : Ref sig .tc => W7 m c b) b :=
  fun b hb => W8_of m c b fun e => hb (Finset.mem_image.mpr ⟨2, Finset.mem_univ _, e.symm⟩)

/-! ## No item writes an argument -/

/-- A buffer that no host stretch writes and that is no region's output reaches the end as launched. -/
theorem W8_of_launch (c : Dev nD) (r : Ref sig .tc)
    (h0 : r ∉ hostOps0_W) (h1 : r ∉ hostOps1_W) (h2 : r ∉ hostOps2_W) (h3 : r ∉ hostOps3_W)
    (ho : r ≠ main_v17 ∧ r ≠ main_v35 ∧ r ≠ main_v53 ∧ r ≠ main_v55) :
    W8 m c r = m ((c : Thread nD τ).loc r) :=
  (W8_of m c r ho.2.2.2).trans <| (StableHlo.after_of_writes_sub hostOps3 _ hostOps3_writes h3).trans <|
  (W6_of m c r ho.2.2.1).trans <| (StableHlo.after_of_writes_sub hostOps2 _ hostOps2_writes h2).trans <|
  (W4_of m c r ho.2.1).trans <| (StableHlo.after_of_writes_sub hostOps1 _ hostOps1_writes h1).trans <|
  (W2_of m c r ho.1).trans <| (StableHlo.after_of_writes_sub hostOps0 _ hostOps0_writes h0).trans rfl

-- from here on the exit valuations are opaque: only `WK_out` and `WK_of` speak of them
attribute [irreducible] W2 W4 W6 W8

/-! ## The proof data family and the thread state -/

/-- Every pipeline's proof data, each at its region's entry contents — a literal match, so that the regions kit's
    pinned configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

-- a library lemma stated over `pin pcs a p` unifies with the pinned configuration only when unification may unfold
-- plain definitions in a metavariable's type
set_option backward.isDefEq.respectTransparency.types false in
/-- REGION 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 over the thread state: entered from every unscoped buffer at `W3`, left at `W4`. Its arrays are
    split out of the unscoped buffers and put back at the exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 over the thread state: entered from every unscoped buffer at `W5`, left at `W6`. Its arrays are
    split out of the unscoped buffers and put back at the exit contents; the generator register goes into the
    region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 over the thread state: entered from every unscoped buffer at `W7`, left at `W8`. Its arrays are
    split out of the unscoped buffers and put back at the exit contents; the generator register goes into the
    region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (E7 m) c)
    unfold Pipeline.ΦA
    iintro ⟨Hp, -, Hr⟩
    isplitl [Hr]; · iexact Hr
    iexact Hp
  hout c := by
    rw [Pipeline.ownSems0_none]
    refine (hout3 (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state holds every unscoped buffer at the last valuation `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- A buffer of the final state at the last valuation, for an unscoped reference. -/
theorem read_final {r : PUnit × MemSt nD τ sig (Elt F)} (h : ∀ c : Dev nD, ∀ b ∈ Pipeline.ucRefs τ sig, r.2.mem (((c : Thread nD τ)).1, b) = W8 m c b)
    (c : Dev nD) (b : Ref sig .tc) (hb : ¬ (Proc.devRef .tc b : DevRef τ sig).isScoped) :
    r.2.mem ((c.tc : Thread nD τ).loc b) = W8 m c b := h c _ (mem_uc b hb)

end Cert.Kernel.Hand

end
-- ==== Proof.Frames.lean ====
/-
  The frame claims of the three programs, and the idealized kernel's run with its result named.
  Each kernel program's run ends with every unscoped buffer at the last valuation of its fold through @main; an
  argument array is unscoped, no host stretch writes it and no region outputs it, so that valuation holds it as
  launched. The reference's run already states its arguments unchanged.
-/
import proofs.«423360_j44504451121830_1_alg».proof.Defs
import proofs.«423360_j44504451121830_1_alg».proof.Proof.KI.Run
import proofs.«423360_j44504451121830_1_alg».proof.Proof.KB.Run
import proofs.«423360_j44504451121830_1_alg».proof.Proof.Gen.ReferenceIdeal.Run
import proofs.«423360_j44504451121830_1_alg».proof.Proof.Gen.Pre_finite_inputs

noncomputable section

namespace Cert.Proof.Frames

open Idealize.ShloMosaic Idealize.ShloMosaic.TcCoe Idealize.SL.Sem

/-- A buffer of `Kernel` that is unscoped, that no host stretch writes and that no region outputs ends as launched:
    the final state holds it at the last valuation, and no item on the way to that valuation touches it. -/
theorem kept_kernel (m : (ℓ : Loc Cert.Kernel.nD Cert.Kernel.τ Cert.Kernel.sig) → Buf (Elt Bits) ℓ)
    {r : PUnit × MemSt Cert.Kernel.nD Cert.Kernel.τ Cert.Kernel.sig (Elt Bits)}
    (h : ∀ c : Dev Cert.Kernel.nD, ∀ b ∈ Pipeline.ucRefs Cert.Kernel.τ Cert.Kernel.sig, r.2.mem (((c : Thread Cert.Kernel.nD Cert.Kernel.τ)).1, b) = Cert.Kernel.Hand.W8 m c b)
    (c : Dev Cert.Kernel.nD) (b : Ref Cert.Kernel.sig .tc) (hb : ¬ (Proc.devRef .tc b : DevRef Cert.Kernel.τ Cert.Kernel.sig).isScoped)
    (h0 : b ∉ Cert.Kernel.GenP.hostOps0_W) (h1 : b ∉ Cert.Kernel.GenP.hostOps1_W) (h2 : b ∉ Cert.Kernel.GenP.hostOps2_W) (h3 : b ∉ Cert.Kernel.GenP.hostOps3_W)
    (ho : b ≠ Cert.Kernel.main_v17 ∧ b ≠ Cert.Kernel.main_v35 ∧ b ≠ Cert.Kernel.main_v53 ∧ b ≠ Cert.Kernel.main_v55) :
    r.2.mem ((c.tc : Thread Cert.Kernel.nD Cert.Kernel.τ).loc b) = m ((c.tc : Thread Cert.Kernel.nD Cert.Kernel.τ).loc b) :=
  (Cert.Kernel.Hand.read_final m h c b hb).trans (Cert.Kernel.Hand.W8_of_launch m c b h0 h1 h2 h3 ho)

/-- The kernel runs and leaves its argument arrays unchanged. -/
theorem frame_kernel : Cert.frame_Kernel := fun m ρ _ =>
  (θ_run Cert.Kernel.defs _ _).mono (fun r h c =>
    ⟨kept_kernel m h c Cert.Kernel.main_arg0 (by decide) (by decide) (by decide) (by decide) (by decide) (by decide),
      kept_kernel m h c Cert.Kernel.main_arg1 (by decide) (by decide) (by decide) (by decide) (by decide) (by decide),
      kept_kernel m h c Cert.Kernel.main_arg2 (by decide) (by decide) (by decide) (by decide) (by decide) (by decide),
      kept_kernel m h c Cert.Kernel.main_arg3 (by decide) (by decide) (by decide) (by decide) (by decide) (by decide),
      kept_kernel m h c Cert.Kernel.main_arg4 (by decide) (by decide) (by decide) (by decide) (by decide) (by decide),
      kept_kernel m h c Cert.Kernel.main_arg5 (by decide) (by decide) (by decide) (by decide) (by decide) (by decide),
      kept_kernel m h c Cert.Kernel.main_arg6 (by decide) (by decide) (by decide) (by decide) (by decide) (by decide),
      kept_kernel m h c Cert.Kernel.main_arg7 (by decide) (by decide) (by decide) (by decide) (by decide) (by decide),
      kept_kernel m h c Cert.Kernel.main_arg8 (by decide) (by decide) (by decide) (by decide) (by decide) (by decide),
      kept_kernel m h c Cert.Kernel.main_arg9 (by decide) (by decide) (by decide) (by decide) (by decide) (by decide),
      kept_kernel m h c Cert.Kernel.main_arg10 (by decide) (by decide) (by decide) (by decide) (by decide) (by decide),
      kept_kernel m h c Cert.Kernel.main_arg11 (by decide) (by decide) (by decide) (by decide) (by decide) (by decide),
      kept_kernel m h c Cert.Kernel.main_arg12 (by decide) (by decide) (by decide) (by decide) (by decide) (by decide),
      kept_kernel m h c Cert.Kernel.main_arg13 (by decide) (by decide) (by decide) (by decide) (by decide) (by decide),
      kept_kernel m h c Cert.Kernel.main_arg14 (by decide) (by decide) (by decide) (by decide) (by decide) (by decide),
      kept_kernel m h c Cert.Kernel.main_arg15 (by decide) (by decide) (by decide) (by decide) (by decide) (by decide),
      kept_kernel m h c Cert.Kernel.main_arg16 (by decide) (by decide) (by decide) (by decide) (by decide) (by decide)⟩)
    (Cert.Kernel.Hand.run_all (F := Bits) m ρ)

/-- A buffer of `KernelIdeal` that is unscoped, that no host stretch writes and that no region outputs ends as launched:
    the final state holds it at the last valuation, and no item on the way to that valuation touches it. -/
theorem kept_kernelIdeal (m : (ℓ : Loc Cert.KernelIdeal.nD Cert.KernelIdeal.τ Cert.KernelIdeal.sig) → Buf (Elt Ideal) ℓ)
    {r : PUnit × MemSt Cert.KernelIdeal.nD Cert.KernelIdeal.τ Cert.KernelIdeal.sig (Elt Ideal)}
    (h : ∀ c : Dev Cert.KernelIdeal.nD, ∀ b ∈ Pipeline.ucRefs Cert.KernelIdeal.τ Cert.KernelIdeal.sig, r.2.mem (((c : Thread Cert.KernelIdeal.nD Cert.KernelIdeal.τ)).1, b) = Cert.KernelIdeal.Hand.W8 m c b)
    (c : Dev Cert.KernelIdeal.nD) (b : Ref Cert.KernelIdeal.sig .tc) (hb : ¬ (Proc.devRef .tc b : DevRef Cert.KernelIdeal.τ Cert.KernelIdeal.sig).isScoped)
    (h0 : b ∉ Cert.KernelIdeal.GenP.hostOps0_W) (h1 : b ∉ Cert.KernelIdeal.GenP.hostOps1_W) (h2 : b ∉ Cert.KernelIdeal.GenP.hostOps2_W) (h3 : b ∉ Cert.KernelIdeal.GenP.hostOps3_W)
    (ho : b ≠ Cert.KernelIdeal.main_v17 ∧ b ≠ Cert.KernelIdeal.main_v35 ∧ b ≠ Cert.KernelIdeal.main_v53 ∧ b ≠ Cert.KernelIdeal.main_v55) :
    r.2.mem ((c.tc : Thread Cert.KernelIdeal.nD Cert.KernelIdeal.τ).loc b) = m ((c.tc : Thread Cert.KernelIdeal.nD Cert.KernelIdeal.τ).loc b) :=
  (Cert.KernelIdeal.Hand.read_final m h c b hb).trans (Cert.KernelIdeal.Hand.W8_of_launch m c b h0 h1 h2 h3 ho)

/-- The idealized kernel runs and leaves its argument arrays unchanged. -/
theorem frame_kernelIdeal : Cert.frame_KernelIdeal := fun m ρ _ =>
  (θ_run Cert.KernelIdeal.defs _ _).mono (fun r h c =>
    ⟨kept_kernelIdeal m h c Cert.KernelIdeal.main_arg0 (by decide) (by decide) (by decide) (by decide) (by decide) (by decide),
      kept_kernelIdeal m h c Cert.KernelIdeal.main_arg1 (by decide) (by decide) (by decide) (by decide) (by decide) (by decide),
      kept_kernelIdeal m h c Cert.KernelIdeal.main_arg2 (by decide) (by decide) (by decide) (by decide) (by decide) (by decide),
      kept_kernelIdeal m h c Cert.KernelIdeal.main_arg3 (by decide) (by decide) (by decide) (by decide) (by decide) (by decide),
      kept_kernelIdeal m h c Cert.KernelIdeal.main_arg4 (by decide) (by decide) (by decide) (by decide) (by decide) (by decide),
      kept_kernelIdeal m h c Cert.KernelIdeal.main_arg5 (by decide) (by decide) (by decide) (by decide) (by decide) (by decide),
      kept_kernelIdeal m h c Cert.KernelIdeal.main_arg6 (by decide) (by decide) (by decide) (by decide) (by decide) (by decide),
      kept_kernelIdeal m h c Cert.KernelIdeal.main_arg7 (by decide) (by decide) (by decide) (by decide) (by decide) (by decide),
      kept_kernelIdeal m h c Cert.KernelIdeal.main_arg8 (by decide) (by decide) (by decide) (by decide) (by decide) (by decide),
      kept_kernelIdeal m h c Cert.KernelIdeal.main_arg9 (by decide) (by decide) (by decide) (by decide) (by decide) (by decide),
      kept_kernelIdeal m h c Cert.KernelIdeal.main_arg10 (by decide) (by decide) (by decide) (by decide) (by decide) (by decide),
      kept_kernelIdeal m h c Cert.KernelIdeal.main_arg11 (by decide) (by decide) (by decide) (by decide) (by decide) (by decide),
      kept_kernelIdeal m h c Cert.KernelIdeal.main_arg12 (by decide) (by decide) (by decide) (by decide) (by decide) (by decide),
      kept_kernelIdeal m h c Cert.KernelIdeal.main_arg13 (by decide) (by decide) (by decide) (by decide) (by decide) (by decide),
      kept_kernelIdeal m h c Cert.KernelIdeal.main_arg14 (by decide) (by decide) (by decide) (by decide) (by decide) (by decide),
      kept_kernelIdeal m h c Cert.KernelIdeal.main_arg15 (by decide) (by decide) (by decide) (by decide) (by decide) (by decide),
      kept_kernelIdeal m h c Cert.KernelIdeal.main_arg16 (by decide) (by decide) (by decide) (by decide) (by decide) (by decide)⟩)
    (Cert.KernelIdeal.Hand.run_all (F := Ideal) m ρ)

/-- The reference runs and leaves its argument arrays unchanged: its run states them beside its result. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel's run with its result named: the result array ends at the last valuation's contents for it
    (what the pooling region's write-back leaves), the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v55) = Cert.KernelIdeal.Hand.W8 m c Cert.KernelIdeal.main_v55
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run Cert.KernelIdeal.defs _ _).mono (fun r h c =>
    ⟨Cert.KernelIdeal.Hand.read_final m h c Cert.KernelIdeal.main_v55 (by decide),
      kept_kernelIdeal m h c Cert.KernelIdeal.main_arg0 (by decide) (by decide) (by decide) (by decide) (by decide) (by decide),
      kept_kernelIdeal m h c Cert.KernelIdeal.main_arg1 (by decide) (by decide) (by decide) (by decide) (by decide) (by decide),
      kept_kernelIdeal m h c Cert.KernelIdeal.main_arg2 (by decide) (by decide) (by decide) (by decide) (by decide) (by decide),
      kept_kernelIdeal m h c Cert.KernelIdeal.main_arg3 (by decide) (by decide) (by decide) (by decide) (by decide) (by decide),
      kept_kernelIdeal m h c Cert.KernelIdeal.main_arg4 (by decide) (by decide) (by decide) (by decide) (by decide) (by decide),
      kept_kernelIdeal m h c Cert.KernelIdeal.main_arg5 (by decide) (by decide) (by decide) (by decide) (by decide) (by decide),
      kept_kernelIdeal m h c Cert.KernelIdeal.main_arg6 (by decide) (by decide) (by decide) (by decide) (by decide) (by decide),
      kept_kernelIdeal m h c Cert.KernelIdeal.main_arg7 (by decide) (by decide) (by decide) (by decide) (by decide) (by decide),
      kept_kernelIdeal m h c Cert.KernelIdeal.main_arg8 (by decide) (by decide) (by decide) (by decide) (by decide) (by decide),
      kept_kernelIdeal m h c Cert.KernelIdeal.main_arg9 (by decide) (by decide) (by decide) (by decide) (by decide) (by decide),
      kept_kernelIdeal m h c Cert.KernelIdeal.main_arg10 (by decide) (by decide) (by decide) (by decide) (by decide) (by decide),
      kept_kernelIdeal m h c Cert.KernelIdeal.main_arg11 (by decide) (by decide) (by decide) (by decide) (by decide) (by decide),
      kept_kernelIdeal m h c Cert.KernelIdeal.main_arg12 (by decide) (by decide) (by decide) (by decide) (by decide) (by decide),
      kept_kernelIdeal m h c Cert.KernelIdeal.main_arg13 (by decide) (by decide) (by decide) (by decide) (by decide) (by decide),
      kept_kernelIdeal m h c Cert.KernelIdeal.main_arg14 (by decide) (by decide) (by decide) (by decide) (by decide) (by decide),
      kept_kernelIdeal m h c Cert.KernelIdeal.main_arg15 (by decide) (by decide) (by decide) (by decide) (by decide) (by decide),
      kept_kernelIdeal m h c Cert.KernelIdeal.main_arg16 (by decide) (by decide) (by decide) (by decide) (by decide) (by decide)⟩)
    (Cert.KernelIdeal.Hand.run_all (F := Ideal) m ρ)

end Cert.Proof.Frames

end
-- ==== Proof.Spec.lean ====
/-
  What the graph network computes, index by index over the extended reals, stated once for both programs.
  A node's update is a two-layer perceptron of `e · h[n, ·] + agg(h)[n, ·]`; the network applies three updates
  and then adds, per graph, the features of the graph's nodes. The neighbour aggregation `agg` is a parameter:
  both programs compute it by the same host operations, and nothing below looks inside it.
-/
import Idealize.ShloMosaic.PureOps.Ideal
import Idealize.ShloMosaic.Lib.ValueIdx

noncomputable section

namespace Cert.Spec

/-- One node's two-layer perceptron `relu(z · W1 + b1) · W2 + b2`, at output feature `q`. -/
def mlp (z : Fin 128 → EReal) (W1 : Fin 128 → Fin 128 → EReal) (b1 : Fin 128 → EReal)
    (W2 : Fin 128 → Fin 128 → EReal) (b2 : Fin 128 → EReal) (q : Fin 128) : EReal :=
  (∑ k : Fin 128, max ((∑ j : Fin 128, z j * W1 j k) + b1 k) 0 * W2 k q) + b2 q

/-- One layer on every node: the perceptron of `e · h[n, ·] + a[n, ·]`, `a` the aggregated neighbours. -/
def layer (e : EReal) (W1 : Fin 128 → Fin 128 → EReal) (b1 : Fin 128 → EReal)
    (W2 : Fin 128 → Fin 128 → EReal) (b2 : Fin 128 → EReal)
    (h a : Fin 50000 → Fin 128 → EReal) : Fin 50000 → Fin 128 → EReal :=
  fun n q => mlp (fun j => e * h n j + a n j) W1 b1 W2 b2 q

/-- Sum pooling by graph: entry `(g, q)` adds feature `q` of every node whose graph id, read as a signed
    32-bit integer, is `g`; a node whose id names no graph is dropped. -/
def pool (gid : Fin 50000 → BitVec 32) (h : Fin 50000 → Fin 128 → EReal) (g q : Fin 128) : EReal :=
  ∑ n ∈ Finset.univ.filter (fun n : Fin 50000 => (gid n).toInt = (g.val : Int)), h n q

/-- A node-feature array `[50000, 128]` and the pooled result `[128, 128]`, as functions of their indices. -/
abbrev Arr : Type := (⟨2, ![50000, 128]⟩ : Idealize.ShloMosaic.Shape).Idx → EReal
abbrev Out : Type := (⟨2, ![128, 128]⟩ : Idealize.ShloMosaic.Shape).Idx → EReal

/-- One layer as a map of arrays, the aggregation `agg` a parameter. -/
def step (agg : Arr → Arr) (e : EReal) (W1 : Fin 128 → Fin 128 → EReal) (b1 : Fin 128 → EReal)
    (W2 : Fin 128 → Fin 128 → EReal) (b2 : Fin 128 → EReal) (H : Arr) : Arr :=
  fun i => layer e W1 b1 W2 b2 (fun n j => H (Idealize.ShloMosaic.ValueIdx.ix2 n j))
    (fun n j => agg H (Idealize.ShloMosaic.ValueIdx.ix2 n j)) (i 0) (i 1)

theorem step_apply (agg : Arr → Arr) (e : EReal) (W1 : Fin 128 → Fin 128 → EReal) (b1 : Fin 128 → EReal)
    (W2 : Fin 128 → Fin 128 → EReal) (b2 : Fin 128 → EReal) (H : Arr) (n : Fin 50000) (q : Fin 128) :
    step agg e W1 b1 W2 b2 H (Idealize.ShloMosaic.ValueIdx.ix2 n q)
      = layer e W1 b1 W2 b2 (fun n j => H (Idealize.ShloMosaic.ValueIdx.ix2 n j))
          (fun n j => agg H (Idealize.ShloMosaic.ValueIdx.ix2 n j)) n q := rfl

/-- The pooled features of an array of node features. -/
def pooled (gid : Fin 50000 → BitVec 32) (H : Arr) : Out :=
  fun i => pool gid (fun n q => H (Idealize.ShloMosaic.ValueIdx.ix2 n q)) (i 0) (i 1)

theorem pooled_apply (gid : Fin 50000 → BitVec 32) (H : Arr) (g q : Fin 128) :
    pooled gid H (Idealize.ShloMosaic.ValueIdx.ix2 g q)
      = pool gid (fun n q => H (Idealize.ShloMosaic.ValueIdx.ix2 n q)) g q := rfl

end Cert.Spec

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.LibVecGather.lean ====
/-
  Reading a gather of scalars, and two small broadcasts, at an index.
  `x[idx]` of a flat array `x : [N]` at an index column `idx : [T, 1]` lowers to a gather whose result element `t` is the
  operand at the start index `idx[t, 0]`, read signed and clamped into `[0, N − 1]` (a negative index reads entry `0`,
  an index past the end reads the last entry). A vector broadcast to a one-column matrix along axis 0 reads, at `(t, z)`,
  the vector at `t`. A one-element vector broadcast to `[1, 1]` and on to `[N, 1]` reads its one element everywhere.
-/
import Idealize.ShloMosaic.PureOps.Ideal
import Idealize.ShloMosaic.Lib.ValueIdx
import Idealize.ShloMosaic.Lib.Pipeline.Value

noncomputable section

namespace Cert.LibVecGather

open Idealize.ShloMosaic Idealize.ShloMosaic.ValueIdx

/-- The dimension numbers of a gather of scalars: operand `[N]`, indices `[T, 1]`, result `[T]`; result element `t` is the
    operand's entry at the start index `idx[t, 0]` (slice size `[1]`, the one operand axis collapsed). -/
abbrev vecGatherDims (N T : Nat)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- Result position `t` reads its start index at `(t, 0)`: the result's one axis is a batch axis and supplies the indices'
    axis 0; the index vector (axis 1, of extent 1) has only the component `0`. -/
theorem vecGather_siIdx {N T : Nat} (wf : GatherDims.WF ⟨1, ![N]⟩ ⟨2, ![T, 1]⟩ ⟨1, ![T]⟩ [] [0] [] [0] [] 1 ![1])
    (t : Fin T) (c : Fin (vecGatherDims N T wf).startIndexMap.length) :
    (vecGatherDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- THE GATHER OF SCALARS READ AT `t`: the operand at the start index `idx[t, 0]`, read signed and clamped into `[0, N − 1]`. -/
theorem vecGather_apply {α : Type} {N T w : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (t : Fin T) :
    Host.gather (vecGatherDims N T wf) x idx (ix1 t)
      = x (ix1 (⟨min (idx (ix2 t (0 : Fin 1))).toInt.toNat (N - 1), by omega⟩ : Fin N)) := by
  unfold Host.gather
  congr 1
  funext a
  obtain rfl : a = 0 := Subsingleton.elim _ _
  refine Fin.ext ?_
  -- the operand's one coordinate is slice start + batching coordinate + offset; the last two are 0
  show (vecGatherDims N T wf).start (ix1 t) idx 0 + (vecGatherDims N T wf).batchCoord (ix1 t) 0
      + (vecGatherDims N T wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl),
    vecGather_siIdx]
  rfl

/-- A vector of `T ≠ 1` entries broadcast along axis 0 to a `[T, 1]` column reads, at `(t, z)`, its entry `t`. -/
theorem column_apply {α : Type} {T : Nat} (hT : T ≠ 1)
    (h : (⟨1, ![T]⟩ : Shape).BroadcastsInDim ⟨2, ![T, 1]⟩ (![0] : Fin 1 → Fin 2))
    (v : (⟨1, ![T]⟩ : Shape).Idx → α) (t : Fin T) (z : Fin 1) :
    broadcastInDim ⟨2, ![T, 1]⟩ ![0] h v (ix2 t z) = v (ix1 t) :=
  broadcastInDim_apply _ h v (ix2 t z) (ix1 t) (fun a => match a with
    | ⟨0, _⟩ => by show t.val = if T = 1 then 0 else t.val; rw [if_neg hT])

/-- A one-element vector broadcast to `[1, 1]` (as the column axis) and then to `[N, 1]` reads its element everywhere. -/
theorem bias_apply {α : Type} {N : Nat}
    (h1 : (⟨1, ![1]⟩ : Shape).BroadcastsInDim ⟨2, ![1, 1]⟩ (![1] : Fin 1 → Fin 2))
    (h2 : (⟨2, ![1, 1]⟩ : Shape).BroadcastsInDim ⟨2, ![N, 1]⟩ (![0, 1] : Fin 2 → Fin 2))
    (b : (⟨1, ![1]⟩ : Shape).Idx → α) (i : (⟨2, ![N, 1]⟩ : Shape).Idx) :
    broadcastInDim ⟨2, ![N, 1]⟩ ![0, 1] h2 (broadcastInDim ⟨2, ![1, 1]⟩ ![1] h1 b) i = b (ix1 (0 : Fin 1)) := by
  rw [broadcastInDim_apply _ h2 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ h1 b _ (ix1 (0 : Fin 1)) (fun a => match a with
    | ⟨0, _⟩ => by show 0 = if (1 : Nat) = 1 then 0 else ((ix2 (0 : Fin 1) (0 : Fin 1)) 1).val; rw [if_pos rfl])

end Cert.LibVecGather

end
-- ==== Proof.RefValue.lean ====
import proofs.«423360_j44504451121830_1_alg».proof.Proof.Gen.ReferenceIdeal.Run
import proofs.«423360_j44504451121830_1_alg».proof.Proof.Spec
import proofs.«423360_j44504451121830_1_alg».proof.Proof.LibPlainDot
import proofs.«423360_j44504451121830_1_alg».proof.Proof.LibIndex
import proofs.«423360_j44504451121830_1_alg».proof.Proof.LibVecGather
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx

/-! # The reference's result at the ideal instance, index by index

The reference applies one layer three times and pools by graph. A layer is two plain products with a bias each and a
rectifier between them, applied to `e · H + agg H`; the neighbour aggregation `agg` (a gather of the source rows
followed by an accumulating scatter onto the destination rows) is carried as one function and never opened. -/

variable (m : (ℓ : Loc nD τ sig) → Buf (Elt Ideal) ℓ) (c : Dev nD)

/-! ## The arguments, as functions of their indices -/

/-- The node features at launch. -/
def featsR : Cert.Spec.Arr := m ((c.tc : Thread nD τ).loc main_arg0)
/-- The edges' source and destination node ids. -/
def srcR : (⟨S800000, .i32⟩ : BufTy).Contents (Elt Ideal) := m ((c.tc : Thread nD τ).loc main_arg1)
def dstR : (⟨S800000, .i32⟩ : BufTy).Contents (Elt Ideal) := m ((c.tc : Thread nD τ).loc main_arg2)
/-- The graph id of each node. -/
def gidBuf : (⟨S50000, .i32⟩ : BufTy).Contents (Elt Ideal) := m ((c.tc : Thread nD τ).loc main_arg3)
def gidR : Fin 50000 → BitVec 32 := fun n => gidBuf m c (ix1 n)
/-- The three layers' `eps`. -/
def epsBuf : (⟨S3, .f32⟩ : BufTy).Contents (Elt Ideal) := m ((c.tc : Thread nD τ).loc main_arg4)
/-- Layer `k`'s factor `1 + eps[k]`. -/
def epsAt (k : Fin 3) : EReal := (1 : EReal) + epsBuf m c (ix1 k)

/-- Layer `k`'s weight and bias buffers: arguments 5 + 4k, 6 + 4k, 7 + 4k and 8 + 4k. -/
def w1Buf : Fin 3 → (⟨S128x128, .f32⟩ : BufTy).Contents (Elt Ideal)
  | 0 => m ((c.tc : Thread nD τ).loc main_arg5) | 1 => m ((c.tc : Thread nD τ).loc main_arg9) | 2 => m ((c.tc : Thread nD τ).loc main_arg13)
def b1Buf : Fin 3 → (⟨S128, .f32⟩ : BufTy).Contents (Elt Ideal)
  | 0 => m ((c.tc : Thread nD τ).loc main_arg6) | 1 => m ((c.tc : Thread nD τ).loc main_arg10) | 2 => m ((c.tc : Thread nD τ).loc main_arg14)
def w2Buf : Fin 3 → (⟨S128x128, .f32⟩ : BufTy).Contents (Elt Ideal)
  | 0 => m ((c.tc : Thread nD τ).loc main_arg7) | 1 => m ((c.tc : Thread nD τ).loc main_arg11) | 2 => m ((c.tc : Thread nD τ).loc main_arg15)
def b2Buf : Fin 3 → (⟨S128, .f32⟩ : BufTy).Contents (Elt Ideal)
  | 0 => m ((c.tc : Thread nD τ).loc main_arg8) | 1 => m ((c.tc : Thread nD τ).loc main_arg12) | 2 => m ((c.tc : Thread nD τ).loc main_arg16)
/-- and the same read at their indices. -/
def w1R (k : Fin 3) : Fin 128 → Fin 128 → EReal := fun i j => w1Buf m c k (ix2 i j)
def b1R (k : Fin 3) : Fin 128 → EReal := fun j => b1Buf m c k (ix1 j)
def w2R (k : Fin 3) : Fin 128 → Fin 128 → EReal := fun i j => w2Buf m c k (ix2 i j)
def b2R (k : Fin 3) : Fin 128 → EReal := fun j => b2Buf m c k (ix1 j)

/-! ## The reference's terms, named -/

/-- The neighbour aggregation of an array of node features, as the reference computes it: a negative source id is
    wrapped by the node count, the source rows are gathered, and they are added onto the zero array at the
    destination rows. -/
def aggR (src dst : (⟨S800000, .i32⟩ : BufTy).Contents (Elt Ideal)) (H : Cert.Spec.Arr) : Cert.Spec.Arr :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 (H : (⟨S50000x128, .f32⟩ : BufTy).Contents (Elt Ideal))
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The scalar buffer holding layer `k`'s factor, as the reference computes it: one plus the `k`-th entry of `eps`,
    sliced out and reshaped to a scalar. -/
def epsTerm : Fin 3 → (⟨S_, .f32⟩ : BufTy).Contents (Elt Ideal)
  | 0 => addf (F := Ideal) (φ := .f32) (constant (F := Ideal) S_ .f32 0x3F800000#32) (shapeCast _ (extractStridedSlice S1 ![0] (epsBuf m c) slices_S3_S1_0) shapeCasts_S1_S_)
  | 1 => addf (F := Ideal) (φ := .f32) (constant (F := Ideal) S_ .f32 0x3F800000#32) (shapeCast _ (extractStridedSlice S1 ![1] (epsBuf m c) slices_S3_S1_1) shapeCasts_S1_S_)
  | 2 => addf (F := Ideal) (φ := .f32) (constant (F := Ideal) S_ .f32 0x3F800000#32) (shapeCast _ (extractStridedSlice S1 ![2] (epsBuf m c) slices_S3_S1_2) shapeCasts_S1_S_)

/-- One layer of the reference on an array `H` of node features, from the scalar buffer `e` holding the factor and
    the layer's weight and bias buffers. -/
def refLayer (src dst : (⟨S800000, .i32⟩ : BufTy).Contents (Elt Ideal)) (e : (⟨S_, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (H : (⟨S50000x128, .f32⟩ : BufTy).Contents (Elt Ideal)) : (⟨S50000x128, .f32⟩ : BufTy).Contents (Elt Ideal) :=
  addf (F := Ideal) (φ := .f32)
    (Host.dotGeneral (F := Ideal) (φ₁ := .f32) (φ₂ := .f32) dot_S50000x128_S128x128_S50000x128_1_0_0_1_n_n none
      (maximumf (F := Ideal) (φ := .f32)
        (addf (F := Ideal) (φ := .f32)
          (Host.dotGeneral (F := Ideal) (φ₁ := .f32) (φ₂ := .f32) dot_S50000x128_S128x128_S50000x128_1_0_0_1_n_n none
            (addf (F := Ideal) (φ := .f32) (mulf (F := Ideal) (φ := .f32) (broadcastInDim S50000x128 ![] bcast_S_S50000x128 e) H) (aggR src dst H))
            W1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32)))
      W2)
    (broadcastInDim S50000x128 ![0, 1] bcast_S1x128_S50000x128_0_1 (broadcastInDim S1x128 ![1] bcast_S128_S1x128_1 b2))

/-- Layer `k` of the reference, on the launch contents' weights. -/
def refLayerAt (k : Fin 3) (H : (⟨S50000x128, .f32⟩ : BufTy).Contents (Elt Ideal)) : (⟨S50000x128, .f32⟩ : BufTy).Contents (Elt Ideal) :=
  refLayer (srcR m c) (dstR m c) (epsTerm m c k) (w1Buf m c k) (b1Buf m c k) (w2Buf m c k) (b2Buf m c k) H

/-- The reference's result is the pooling scatter of the three layers applied to the features: the composed term,
    with its repeated parts named. -/
theorem res_eq : (res_main_v80 (F := Ideal) m c : (⟨S128x128, .f32⟩ : BufTy).Contents (Elt Ideal))
    = Host.scatterAdd (F := Ideal) (φ := .f32) scatter_S128x128_S50000x1_S50000x128_1_0_0_1
        (broadcastInDim S128x128 ![] bcast_S_S128x128 (constant (F := Ideal) S_ .f32 0x00000000#32))
        (broadcastInDim S50000x1 ![0] bcast_S50000_S50000x1_0 (gidBuf m c))
        (refLayerAt m c 2 (refLayerAt m c 1 (refLayerAt m c 0 (featsR m c)))) := by
  unfold res_main_v80 refLayerAt refLayer aggR epsTerm epsBuf gidBuf featsR srcR dstR w1Buf b1Buf w2Buf b2Buf
  rfl

/-! ## The operations read at an index -/

/-- The word `0x3F800000` is the real number one. -/
theorem ofBits_one_f32 : Ideal.ofBits .f32 0x3F800000#32 = 1 := by
  simp [Ideal.ofBits, Ideal.ieee, -EReal.coe_mul]; norm_num

/-- A scalar broadcast to the node-feature shape reads the scalar everywhere. -/
theorem scalar_bcast_apply {α : Type} (y : S_.Idx → α) (i : S50000x128.Idx) :
    broadcastInDim S50000x128 ![] bcast_S_S50000x128 y i = y ix0 :=
  broadcastInDim_apply _ bcast_S_S50000x128 y i ix0 (fun a => a.elim0)

/-- A bias vector broadcast to a row and then to every node reads, at `(n, q)`, its entry `q`. -/
theorem bias_bcast_apply {α : Type} (b : S128.Idx → α) (n : Fin 50000) (q : Fin 128) :
    broadcastInDim S50000x128 ![0, 1] bcast_S1x128_S50000x128_0_1 (broadcastInDim S1x128 ![1] bcast_S128_S1x128_1 b) (ix2 n q)
      = b (ix1 q) := by
  rw [broadcastInDim_apply _ bcast_S1x128_S50000x128_0_1 _ (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])]
  exact broadcastInDim_apply _ bcast_S128_S1x128_1 b _ (ix1 q) (fun a => match a with
    | ⟨0, _⟩ => by show q.val = if (128 : Nat) = 1 then 0 else q.val; rw [if_neg (by decide)])

/-- The plain product `[50000, 128] × [128, 128]` read at `(n, q)`: the sum over the contracted axis. -/
theorem dot_apply (l : FVec Ideal S50000x128 .f32) (r : FVec Ideal S128x128 .f32) (n : Fin 50000) (q : Fin 128) :
    Host.dotGeneral (F := Ideal) (φ₁ := .f32) (φ₂ := .f32) dot_S50000x128_S128x128_S50000x128_1_0_0_1_n_n none l r (ix2 n q)
      = ∑ k : Fin 128, l (ix2 n k) * r (ix2 k q) :=
  Cert.LibPlainDot.dotGeneral_apply (M := 50000) (K := 128) (N := 128) dot_S50000x128_S128x128_S50000x128_1_0_0_1_n_n_wf none .single l r n q

/-- The scalar buffer of layer `k`'s factor holds `1 + eps[k]`. -/
theorem epsTerm_apply (k : Fin 3) : epsTerm m c k ix0 = epsAt m c k := by
  have hs : ∀ (j : Fin 3) (h : S3.Slices ![j.val] S1),
      shapeCast S_ (extractStridedSlice S1 ![j.val] (epsBuf m c) h) shapeCasts_S1_S_ ix0 = epsBuf m c (ix1 j) := by
    intro j h
    rw [shapeCast_apply _ shapeCasts_S1_S_ ix0 (ix1 (0 : Fin 1)) (by rfl)]
    exact extractStridedSlice_apply ![j.val] (epsBuf m c) h (ix1 (0 : Fin 1)) (ix1 j) (fun a => match a with
      | ⟨0, _⟩ => by show j.val = j.val + 0; omega)
  unfold epsAt
  match k with
  | 0 => exact (congrArg₂ (· + ·) ofBits_one_f32 (hs 0 slices_S3_S1_0))
  | 1 => exact (congrArg₂ (· + ·) ofBits_one_f32 (hs 1 slices_S3_S1_1))
  | 2 => exact (congrArg₂ (· + ·) ofBits_one_f32 (hs 2 slices_S3_S1_2))

/-! ## One layer -/

/-- One layer of the reference read at `(n, q)` is the specification's layer on the same array: both products are
    sums over the contracted axis, the biases read their entry, the rectifier is the maximum with zero, and the
    factor multiplies the node's own features. -/
theorem refLayer_apply (src dst : (⟨S800000, .i32⟩ : BufTy).Contents (Elt Ideal)) (e : (⟨S_, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (H : (⟨S50000x128, .f32⟩ : BufTy).Contents (Elt Ideal)) (n : Fin 50000) (q : Fin 128) :
    refLayer src dst e W1 b1 W2 b2 H (ix2 n q)
      = Cert.Spec.step (aggR src dst) (e ix0) (fun i j => W1 (ix2 i j)) (fun j => b1 (ix1 j)) (fun i j => W2 (ix2 i j))
          (fun j => b2 (ix1 j)) H (ix2 n q) := by
  rw [Cert.Spec.step_apply]
  unfold Cert.Spec.layer Cert.Spec.mlp refLayer
  show (Host.dotGeneral (F := Ideal) (φ₁ := .f32) (φ₂ := .f32) dot_S50000x128_S128x128_S50000x128_1_0_0_1_n_n none _ W2 (ix2 n q) : EReal)
      + broadcastInDim S50000x128 ![0, 1] bcast_S1x128_S50000x128_0_1 (broadcastInDim S1x128 ![1] bcast_S128_S1x128_1 b2) (ix2 n q) = _
  rw [dot_apply, bias_bcast_apply]
  congr 1
  refine Finset.sum_congr rfl fun k _ => ?_
  congr 1
  show max ((Host.dotGeneral (F := Ideal) (φ₁ := .f32) (φ₂ := .f32) dot_S50000x128_S128x128_S50000x128_1_0_0_1_n_n none _ W1 (ix2 n k) : EReal)
        + broadcastInDim S50000x128 ![0, 1] bcast_S1x128_S50000x128_0_1 (broadcastInDim S1x128 ![1] bcast_S128_S1x128_1 b1) (ix2 n k))
      (broadcastInDim S50000x128 ![] bcast_S_S50000x128 (constant (F := Ideal) S_ .f32 0x00000000#32) (ix2 n k)) = _
  rw [dot_apply, bias_bcast_apply, scalar_bcast_apply]
  congr 1
  · congr 1
    refine Finset.sum_congr rfl fun j _ => ?_
    congr 1
    show (broadcastInDim S50000x128 ![] bcast_S_S50000x128 e (ix2 n j) : EReal) * H (ix2 n j) + aggR src dst H (ix2 n j) = _
    rw [scalar_bcast_apply]
  · exact Ideal.ofBits_zero_f32

/-- So a layer of the reference IS the specification's layer, as a map of arrays. -/
theorem refLayer_eq (src dst : (⟨S800000, .i32⟩ : BufTy).Contents (Elt Ideal)) (e : (⟨S_, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (H : (⟨S50000x128, .f32⟩ : BufTy).Contents (Elt Ideal)) :
    (refLayer src dst e W1 b1 W2 b2 H : Cert.Spec.Arr)
      = Cert.Spec.step (aggR src dst) (e ix0) (fun i j => W1 (ix2 i j)) (fun j => b1 (ix1 j)) (fun i j => W2 (ix2 i j))
          (fun j => b2 (ix1 j)) H := by
  funext i
  obtain ⟨n, q, rfl⟩ : ∃ n q, i = ix2 n q := ⟨i 0, i 1, eq_ix2 i⟩
  exact refLayer_apply src dst e W1 b1 W2 b2 H n q

/-- Layer `k` on the launch contents' weights is the specification's layer at the arguments read at their indices. -/
theorem refLayerAt_eq (k : Fin 3) (H : (⟨S50000x128, .f32⟩ : BufTy).Contents (Elt Ideal)) :
    (refLayerAt m c k H : Cert.Spec.Arr)
      = Cert.Spec.step (aggR (srcR m c) (dstR m c)) (epsAt m c k) (w1R m c k) (b1R m c k) (w2R m c k) (b2R m c k) H := by
  unfold refLayerAt
  rw [refLayer_eq, epsTerm_apply]
  rfl

/-! ## The pooling, and the result -/

/-- The pooling scatter read at `(g, q)`: onto the zero array, the rows of the nodes whose graph id is `g`. -/
theorem pool_apply (gid : (⟨S50000, .i32⟩ : BufTy).Contents (Elt Ideal)) (X : (⟨S50000x128, .f32⟩ : BufTy).Contents (Elt Ideal))
    (g q : Fin 128) :
    Host.scatterAdd (F := Ideal) (φ := .f32) scatter_S128x128_S50000x1_S50000x128_1_0_0_1
        (broadcastInDim S128x128 ![] bcast_S_S128x128 (constant (F := Ideal) S_ .f32 0x00000000#32))
        (broadcastInDim S50000x1 ![0] bcast_S50000_S50000x1_0 gid) X (ix2 g q)
      = Cert.Spec.pooled (fun n => gid (ix1 n)) X (ix2 g q) := by
  rw [Cert.Spec.pooled_apply]
  unfold Cert.Spec.pool
  refine (Cert.LibIndex.rowScatterAdd_apply (N := 128) (T := 50000) (H := 128) scatter_S128x128_S50000x1_S50000x128_1_0_0_1_wf _ _ X g q).trans ?_
  rw [broadcastInDim_apply _ bcast_S_S128x128 _ (ix2 g q) ix0 (fun a => a.elim0)]
  show Ideal.ofBits .f32 0x00000000#32 + _ = _
  rw [Ideal.ofBits_zero_f32, zero_add]
  refine Finset.sum_congr ?_ fun _ _ => rfl
  refine Finset.filter_congr fun t _ => ?_
  rw [Cert.LibVecGather.column_apply (by decide) bcast_S50000_S50000x1_0 gid t (0 : Fin 1)]

/-- THE REFERENCE'S RESULT at `(g, q)`: the pooled features of three layers applied to the launch features. -/
theorem ref_value (g q : Fin 128) :
    (res_main_v80 (F := Ideal) m c : S128x128.Idx → EReal) (ix2 g q)
      = Cert.Spec.pooled (gidR m c)
          (Cert.Spec.step (aggR (srcR m c) (dstR m c)) (epsAt m c 2) (w1R m c 2) (b1R m c 2) (w2R m c 2) (b2R m c 2)
            (Cert.Spec.step (aggR (srcR m c) (dstR m c)) (epsAt m c 1) (w1R m c 1) (b1R m c 1) (w2R m c 1) (b2R m c 1)
              (Cert.Spec.step (aggR (srcR m c) (dstR m c)) (epsAt m c 0) (w1R m c 0) (b1R m c 0) (w2R m c 0) (b2R m c 0)
                (featsR m c)))) (ix2 g q) := by
  rw [res_eq, pool_apply, refLayerAt_eq, refLayerAt_eq, refLayerAt_eq]
  rfl

end Cert.RefValue

end
-- ==== Proof.KI.HostReads.lean ====
/-
  What each stretch of host operations leaves in the buffers the next kernel region reads, as the operations'
  composed term of the contents the stretch starts from. Each of the first three stretches aggregates the current
  node array along the edges, scales the node array by one plus the layer's `eps`, and reshapes the layer's two bias
  vectors to one-row matrices; the last reshapes the graph ids to a column. The aggregation is named once and is not
  looked into again. A buffer that nothing before a boundary has written holds, there, its launch contents.
-/
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import proofs.«423360_j44504451121830_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The shared pieces of a host stretch -/

/-- The neighbour aggregation of a node array `H` along the edges `src → dst`: a source index below zero wraps
    round by the node count, the rows of `H` at the sources are gathered, and each is added into a zero array at its
    edge's destination row. The same thirteen operations open each of the three host stretches. -/
def aggK (src dst : (⟨S800000, .i32⟩ : BufTy).Contents (Elt F)) (H : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 H
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The scalar `1 + eps[k]` as stretch `k` computes it from the array `e` of the three `eps`: entry `k` cut out,
    reshaped to a scalar, and added to the constant one. -/
def epsK (e : (⟨S3, .f32⟩ : BufTy).Contents (Elt F)) : Fin 3 → (⟨S_, .f32⟩ : BufTy).Contents (Elt F)
  | ⟨0, _⟩ => addf (constant (F := F) S_ .f32 0x3F800000#32) (shapeCast S_ (extractStridedSlice S1 ![0] e slices_S3_S1_0) shapeCasts_S1_S_)
  | ⟨1, _⟩ => addf (constant (F := F) S_ .f32 0x3F800000#32) (shapeCast S_ (extractStridedSlice S1 ![1] e slices_S3_S1_1) shapeCasts_S1_S_)
  | ⟨2, _⟩ => addf (constant (F := F) S_ .f32 0x3F800000#32) (shapeCast S_ (extractStridedSlice S1 ![2] e slices_S3_S1_2) shapeCasts_S1_S_)

/-! ## A buffer nothing has written yet holds its launch contents -/

theorem W1_of_launch (c : Dev nD) (r : Ref sig .tc) (h0 : r ∉ hostOps0_W) : W1 m c r = m ((c : Thread nD τ).loc r) :=
  (StableHlo.after_of_writes_sub hostOps0 _ hostOps0_writes h0).trans rfl
theorem W2_of_launch (c : Dev nD) (r : Ref sig .tc) (h0 : r ∉ hostOps0_W) (ho : r ≠ main_v17) :
    W2 m c r = m ((c : Thread nD τ).loc r) :=
  (W2_of m c r ho).trans (W1_of_launch m c r h0)
theorem W3_of_launch (c : Dev nD) (r : Ref sig .tc) (h0 : r ∉ hostOps0_W) (h1 : r ∉ hostOps1_W) (ho : r ≠ main_v17) :
    W3 m c r = m ((c : Thread nD τ).loc r) :=
  (StableHlo.after_of_writes_sub hostOps1 _ hostOps1_writes h1).trans (W2_of_launch m c r h0 ho)
theorem W4_of_launch (c : Dev nD) (r : Ref sig .tc) (h0 : r ∉ hostOps0_W) (h1 : r ∉ hostOps1_W)
    (ho : r ≠ main_v17 ∧ r ≠ main_v35) : W4 m c r = m ((c : Thread nD τ).loc r) :=
  (W4_of m c r ho.2).trans (W3_of_launch m c r h0 h1 ho.1)
theorem W5_of_launch (c : Dev nD) (r : Ref sig .tc) (h0 : r ∉ hostOps0_W) (h1 : r ∉ hostOps1_W) (h2 : r ∉ hostOps2_W)
    (ho : r ≠ main_v17 ∧ r ≠ main_v35) : W5 m c r = m ((c : Thread nD τ).loc r) :=
  (StableHlo.after_of_writes_sub hostOps2 _ hostOps2_writes h2).trans (W4_of_launch m c r h0 h1 ho)
theorem W6_of_launch (c : Dev nD) (r : Ref sig .tc) (h0 : r ∉ hostOps0_W) (h1 : r ∉ hostOps1_W) (h2 : r ∉ hostOps2_W)
    (ho : r ≠ main_v17 ∧ r ≠ main_v35 ∧ r ≠ main_v53) : W6 m c r = m ((c : Thread nD τ).loc r) :=
  (W6_of m c r ho.2.2).trans (W5_of_launch m c r h0 h1 h2 ⟨ho.1, ho.2.1⟩)

/-! ## Stretch 0: what region 0 reads -/

/-- The node features scaled by `1 + eps[0]`. -/
theorem W1_v14 (c : Dev nD) : (W1 m c main_v14 : (⟨S50000x128, .f32⟩ : BufTy).Contents (Elt F))
    = mulf (m ((c : Thread nD τ).loc main_arg0))
        (broadcastInDim S50000x128 ![] bcast_S_S50000x128 (epsK (m ((c : Thread nD τ).loc main_arg4)) 0)) := by
  show StableHlo.after hostOps0 _ (Proc.devRef .tc main_v14) = _
  after_results
  rfl
/-- The node features aggregated along the edges. -/
theorem W1_v9 (c : Dev nD) : (W1 m c main_v9 : (⟨S50000x128, .f32⟩ : BufTy).Contents (Elt F))
    = aggK (m ((c : Thread nD τ).loc main_arg1)) (m ((c : Thread nD τ).loc main_arg2)) (m ((c : Thread nD τ).loc main_arg0)) := by
  show StableHlo.after hostOps0 _ (Proc.devRef .tc main_v9) = _
  after_results
  rfl
/-- The first bias as a one-row matrix. -/
theorem W1_v15 (c : Dev nD) : (W1 m c main_v15 : (⟨S1x128, .f32⟩ : BufTy).Contents (Elt F))
    = shapeCast S1x128 (m ((c : Thread nD τ).loc main_arg6)) shapeCasts_S128_S1x128 := by
  show StableHlo.after hostOps0 _ (Proc.devRef .tc main_v15) = _
  after_results
  rfl
/-- The second bias as a one-row matrix. -/
theorem W1_v16 (c : Dev nD) : (W1 m c main_v16 : (⟨S1x128, .f32⟩ : BufTy).Contents (Elt F))
    = shapeCast S1x128 (m ((c : Thread nD τ).loc main_arg8)) shapeCasts_S128_S1x128 := by
  show StableHlo.after hostOps0 _ (Proc.devRef .tc main_v16) = _
  after_results
  rfl
theorem W1_arg5 (c : Dev nD) : W1 m c main_arg5 = m ((c : Thread nD τ).loc main_arg5) := W1_of_launch m c _ (by decide)
theorem W1_arg7 (c : Dev nD) : W1 m c main_arg7 = m ((c : Thread nD τ).loc main_arg7) := W1_of_launch m c _ (by decide)

/-! ## Stretch 1: what region 1 reads -/

/-- The first layer's output scaled by `1 + eps[1]`. -/
theorem W3_v32 (c : Dev nD) : (W3 m c main_v32 : (⟨S50000x128, .f32⟩ : BufTy).Contents (Elt F))
    = mulf (o2 m c) (broadcastInDim S50000x128 ![] bcast_S_S50000x128 (epsK (m ((c : Thread nD τ).loc main_arg4)) 1)) := by
  show StableHlo.after hostOps1 _ (Proc.devRef .tc main_v32) = _
  after_results
  rw [show W2 m c (Proc.devRef .tc main_v17) = o2 m c from W2_out m c,
    show W2 m c (Proc.devRef .tc main_arg4) = m ((c : Thread nD τ).loc main_arg4) from W2_of_launch m c _ (by decide) (by decide)]
  rfl
/-- The first layer's output aggregated along the edges. -/
theorem W3_v27 (c : Dev nD) : (W3 m c main_v27 : (⟨S50000x128, .f32⟩ : BufTy).Contents (Elt F))
    = aggK (m ((c : Thread nD τ).loc main_arg1)) (m ((c : Thread nD τ).loc main_arg2)) (o2 m c) := by
  show StableHlo.after hostOps1 _ (Proc.devRef .tc main_v27) = _
  after_results
  rw [show W2 m c (Proc.devRef .tc main_v17) = o2 m c from W2_out m c,
    show W2 m c (Proc.devRef .tc main_arg1) = m ((c : Thread nD τ).loc main_arg1) from W2_of_launch m c _ (by decide) (by decide),
    show W2 m c (Proc.devRef .tc main_arg2) = m ((c : Thread nD τ).loc main_arg2) from W2_of_launch m c _ (by decide) (by decide)]
  rfl
theorem W3_v33 (c : Dev nD) : (W3 m c main_v33 : (⟨S1x128, .f32⟩ : BufTy).Contents (Elt F))
    = shapeCast S1x128 (m ((c : Thread nD τ).loc main_arg10)) shapeCasts_S128_S1x128 := by
  show StableHlo.after hostOps1 _ (Proc.devRef .tc main_v33) = _
  after_results
  rw [show W2 m c (Proc.devRef .tc main_arg10) = m ((c : Thread nD τ).loc main_arg10) from W2_of_launch m c _ (by decide) (by decide)]
  rfl
theorem W3_v34 (c : Dev nD) : (W3 m c main_v34 : (⟨S1x128, .f32⟩ : BufTy).Contents (Elt F))
    = shapeCast S1x128 (m ((c : Thread nD τ).loc main_arg12)) shapeCasts_S128_S1x128 := by
  show StableHlo.after hostOps1 _ (Proc.devRef .tc main_v34) = _
  after_results
  rw [show W2 m c (Proc.devRef .tc main_arg12) = m ((c : Thread nD τ).loc main_arg12) from W2_of_launch m c _ (by decide) (by decide)]
  rfl
theorem W3_arg9 (c : Dev nD) : W3 m c main_arg9 = m ((c : Thread nD τ).loc main_arg9) :=
  W3_of_launch m c _ (by decide) (by decide) (by decide)
theorem W3_arg11 (c : Dev nD) : W3 m c main_arg11 = m ((c : Thread nD τ).loc main_arg11) :=
  W3_of_launch m c _ (by decide) (by decide) (by decide)

/-! ## Stretch 2: what region 2 reads -/

/-- The second layer's output scaled by `1 + eps[2]`. -/
theorem W5_v50 (c : Dev nD) : (W5 m c main_v50 : (⟨S50000x128, .f32⟩ : BufTy).Contents (Elt F))
    = mulf (o4 m c) (broadcastInDim S50000x128 ![] bcast_S_S50000x128 (epsK (m ((c : Thread nD τ).loc main_arg4)) 2)) := by
  show StableHlo.after hostOps2 _ (Proc.devRef .tc main_v50) = _
  after_results
  rw [show W4 m c (Proc.devRef .tc main_v35) = o4 m c from W4_out m c,
    show W4 m c (Proc.devRef .tc main_arg4) = m ((c : Thread nD τ).loc main_arg4) from W4_of_launch m c _ (by decide) (by decide) (by decide)]
  rfl
/-- The second layer's output aggregated along the edges. -/
theorem W5_v45 (c : Dev nD) : (W5 m c main_v45 : (⟨S50000x128, .f32⟩ : BufTy).Contents (Elt F))
    = aggK (m ((c : Thread nD τ).loc main_arg1)) (m ((c : Thread nD τ).loc main_arg2)) (o4 m c) := by
  show StableHlo.after hostOps2 _ (Proc.devRef .tc main_v45) = _
  after_results
  rw [show W4 m c (Proc.devRef .tc main_v35) = o4 m c from W4_out m c,
    show W4 m c (Proc.devRef .tc main_arg1) = m ((c : Thread nD τ).loc main_arg1) from W4_of_launch m c _ (by decide) (by decide) (by decide),
    show W4 m c (Proc.devRef .tc main_arg2) = m ((c : Thread nD τ).loc main_arg2) from W4_of_launch m c _ (by decide) (by decide) (by decide)]
  rfl
theorem W5_v51 (c : Dev nD) : (W5 m c main_v51 : (⟨S1x128, .f32⟩ : BufTy).Contents (Elt F))
    = shapeCast S1x128 (m ((c : Thread nD τ).loc main_arg14)) shapeCasts_S128_S1x128 := by
  show StableHlo.after hostOps2 _ (Proc.devRef .tc main_v51) = _
  after_results
  rw [show W4 m c (Proc.devRef .tc main_arg14) = m ((c : Thread nD τ).loc main_arg14) from W4_of_launch m c _ (by decide) (by decide) (by decide)]
  rfl
theorem W5_v52 (c : Dev nD) : (W5 m c main_v52 : (⟨S1x128, .f32⟩ : BufTy).Contents (Elt F))
    = shapeCast S1x128 (m ((c : Thread nD τ).loc main_arg16)) shapeCasts_S128_S1x128 := by
  show StableHlo.after hostOps2 _ (Proc.devRef .tc main_v52) = _
  after_results
  rw [show W4 m c (Proc.devRef .tc main_arg16) = m ((c : Thread nD τ).loc main_arg16) from W4_of_launch m c _ (by decide) (by decide) (by decide)]
  rfl
theorem W5_arg13 (c : Dev nD) : W5 m c main_arg13 = m ((c : Thread nD τ).loc main_arg13) :=
  W5_of_launch m c _ (by decide) (by decide) (by decide) (by decide)
theorem W5_arg15 (c : Dev nD) : W5 m c main_arg15 = m ((c : Thread nD τ).loc main_arg15) :=
  W5_of_launch m c _ (by decide) (by decide) (by decide) (by decide)

/-! ## Stretch 3: what the pooling region reads -/

/-- The graph ids as a one-column matrix. -/
theorem W7_v54 (c : Dev nD) : (W7 m c main_v54 : (⟨S50000x1, .i32⟩ : BufTy).Contents (Elt F))
    = shapeCast S50000x1 (m ((c : Thread nD τ).loc main_arg3)) shapeCasts_S50000_S50000x1 := by
  show StableHlo.after hostOps3 _ (Proc.devRef .tc main_v54) = _
  after_results
  rw [show W6 m c (Proc.devRef .tc main_arg3) = m ((c : Thread nD τ).loc main_arg3) from
    W6_of_launch m c _ (by decide) (by decide) (by decide) (by decide)]
  rfl
/-- The third layer's output, which the stretch does not touch. -/
theorem W7_v53 (c : Dev nD) : W7 m c main_v53 = o6 m c :=
  (StableHlo.after_of_writes_sub hostOps3 _ hostOps3_writes (by decide)).trans (W6_out m c)

end Cert.KernelIdeal.Hand

end
-- ==== Proof.KI.LayerValue.lean ====
/-
  The value of region 0 at the extended reals: the first layer's output array, entry by entry.
  The region's kernel runs on 25 blocks of 2000 rows. At a point it reads block t of the two node arrays and the
  whole of the two weight matrices and the two bias rows, and writes block t of the output. Read at an entry, what
  the body stores is the two-layer perceptron of the sum of the two node rows; the 25 blocks tile the 50000 rows, so
  the output array after the region is that perceptron of the arrays' rows, row by row.
-/
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import proofs.«423360_j44504451121830_1_alg».proof.Proof.KI.Layer0
import proofs.«423360_j44504451121830_1_alg».proof.Proof.Spec
import proofs.«423360_j44504451121830_1_alg».proof.Proof.LibPlainDot
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's payload at an entry -/

/-- The block product into a zero accumulator, read at (p, q): the sum over k of l[p, k] * r[k, q]. -/
theorem mm0_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.LibPlainDot.matmul_zero_apply dot_S2000x128_S128x128_S2000x128_1_0_0_1_n_n_wf none l r p q

/-- A one-row matrix broadcast down the 2000 rows, read at (p, q), is the row at q. -/
theorem bias0_apply (b : Vec Ideal S1x128 .f32) (p : Fin 2000) (q : Fin 128) :
    broadcastTo S2000x128 b broadcasts_S1x128_S2000x128 (ix2 p q) = b (ix2 0 q) := by
  refine broadcastTo_apply b broadcasts_S1x128_S2000x128 (ix2 p q) (ix2 0 q) ?_
  intro a
  match a with
  | ⟨0, _⟩ => rfl
  | ⟨1, _⟩ => rfl

/-- WHAT THE BODY STORES, at entry (p, q) of the block: the two-layer perceptron of the sum of the two node blocks' rows p,
    under the two weight blocks and the two bias rows. -/
theorem pay0_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k0_pay1 (F := Ideal) x0 x1 x2 x3 x4 x5 (ix2 p q)
      = Cert.Spec.mlp (fun j => x0 (ix2 p j) + x1 (ix2 p j)) (fun j k => x2 (ix2 j k)) (fun k => x3 (ix2 0 k))
          (fun k q' => x4 (ix2 k q')) (fun q' => x5 (ix2 0 q')) q := by
  unfold k0_pay1 Cert.Spec.mlp
  -- the casts to the same shape change nothing
  simp only [shapeCast_self]
  -- the second product, plus the second bias row
  rw [addf_apply, mm0_apply, bias0_apply]
  refine congrArg (· + x5 (ix2 0 q)) (Finset.sum_congr rfl fun k _ => ?_)
  -- one hidden unit: the first product plus the first bias row, cut below at zero; the format changes are the identity
  rw [truncf_apply, truncf_apply, maximumf_apply, addf_apply, mm0_apply, bias0_apply, broadcast_apply]
  simp only [truncf_apply, addf_apply, Ideal.ofBits_def, Ideal.ofBits_zero_f32]

/-! ## From the blocks to the array -/

variable (V : (c : Dev nD) → (b : Ref sig .tc) → Buf (Elt Ideal) ((c : Thread nD τ).loc b))

/-- The zero offsets of a whole-block rectangle. -/
theorem hz0 : (![0, 0] : Fin 2 → Nat) = fun _ => 0 := funext fun a => by fin_cases a <;> rfl

/-- Row n, feature q of a layer's output from the six arrays the kernel reads: the perceptron, under the weights W1, W2
    and the bias rows b1, b2, of the sum of the rows n of the node array h and of the aggregated neighbours a. -/
abbrev rowMlp0 (h a : S50000x128.Idx → EReal) (W1 : S128x128.Idx → EReal) (b1 : S1x128.Idx → EReal)
    (W2 : S128x128.Idx → EReal) (b2 : S1x128.Idx → EReal) (n : Fin 50000) (q : Fin 128) : EReal :=
  Cert.Spec.mlp (fun j => h (ix2 n j) + a (ix2 n j)) (fun j k => W1 (ix2 j k)) (fun k => b1 (ix2 0 k))
    (fun k q' => W2 (ix2 k q')) (fun q' => b2 (ix2 0 q')) q

/-- What the output array ends holding: at (n, q) the perceptron of row n of the arrays as the region finds them. -/
def G0 (c : Dev nD) : S50000x128.Idx → EReal := fun i =>
  rowMlp0 (V c main_v14) (V c main_v9) (V c main_arg5) (V c main_v15) (V c main_arg7) (V c main_v16) (i 0) (i 1)

/-- The printed index maps over the grid: the two node windows and the output window sit at block (t, 0), the weights'
    and the biases' windows at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row 2000 t + p of a node array. -/
def row0 (t : Fin cfg0.N) (p : Fin 2000) : Fin 50000 :=
  ⟨2000 * t.val + p.val, by have ht : t.val < 25 := t.isLt; have hp := p.isLt; omega⟩

/-- Entry (p, j) of the first node window's block at point t sits at (2000 t + p, j) of its array. -/
theorem emb0_0 (t : Fin cfg0.N) (p : Fin 2000) (j : Fin 128) :
    ((cfg0.win 0).blk t).view.emb (ix2 p j) = ix2 (row0 t p) j := by
  obtain ⟨e0, e1, -⟩ := idx_facts0 t
  funext a; apply Fin.ext
  match a with
  | ⟨0, _⟩ => show win0_0.index t (0 : Fin 2) * 2000 + 1 * p.val = 2000 * t.val + p.val; omega
  | ⟨1, _⟩ => show win0_0.index t (1 : Fin 2) * 128 + 1 * j.val = j.val; omega

/-- The same for the aggregated neighbours' window. -/
theorem emb0_1 (t : Fin cfg0.N) (p : Fin 2000) (j : Fin 128) :
    ((cfg0.win 1).blk t).view.emb (ix2 p j) = ix2 (row0 t p) j := by
  obtain ⟨-, -, e0, e1, -⟩ := idx_facts0 t
  funext a; apply Fin.ext
  match a with
  | ⟨0, _⟩ => show win0_1.index t (0 : Fin 2) * 2000 + 1 * p.val = 2000 * t.val + p.val; omega
  | ⟨1, _⟩ => show win0_1.index t (1 : Fin 2) * 128 + 1 * j.val = j.val; omega

/-- The same for the output window. -/
theorem emb0_6 (t : Fin cfg0.N) (p : Fin 2000) (j : Fin 128) :
    ((cfg0.win 6).blk t).view.emb (ix2 p j) = ix2 (row0 t p) j := by
  obtain ⟨-, -, -, -, -, -, -, -, -, -, -, -, e0, e1⟩ := idx_facts0 t
  funext a; apply Fin.ext
  match a with
  | ⟨0, _⟩ => show win0_6.index t (0 : Fin 2) * 2000 + 1 * p.val = 2000 * t.val + p.val; omega
  | ⟨1, _⟩ => show win0_6.index t (1 : Fin 2) * 128 + 1 * j.val = j.val; omega

/-- The first weight window's one block is its whole array, at every point. -/
theorem emb0_2 (t : Fin cfg0.N) (j k : Fin 128) : ((cfg0.win 2).blk t).view.emb (ix2 j k) = ix2 j k := by
  obtain ⟨-, -, -, -, e0, e1, -⟩ := idx_facts0 t
  funext a; apply Fin.ext
  match a with
  | ⟨0, _⟩ => show win0_2.index t (0 : Fin 2) * 128 + 1 * j.val = j.val; omega
  | ⟨1, _⟩ => show win0_2.index t (1 : Fin 2) * 128 + 1 * k.val = k.val; omega

/-- The first bias window's one block is its whole row. -/
theorem emb0_3 (t : Fin cfg0.N) (k : Fin 128) : ((cfg0.win 3).blk t).view.emb (ix2 0 k) = ix2 0 k := by
  obtain ⟨-, -, -, -, -, -, e0, e1, -⟩ := idx_facts0 t
  funext a; apply Fin.ext
  match a with
  | ⟨0, _⟩ => show win0_3.index t (0 : Fin 2) * 1 + 1 * 0 = 0; omega
  | ⟨1, _⟩ => show win0_3.index t (1 : Fin 2) * 128 + 1 * k.val = k.val; omega

/-- The second weight window's one block is its whole array. -/
theorem emb0_4 (t : Fin cfg0.N) (j k : Fin 128) : ((cfg0.win 4).blk t).view.emb (ix2 j k) = ix2 j k := by
  obtain ⟨-, -, -, -, -, -, -, -, e0, e1, -⟩ := idx_facts0 t
  funext a; apply Fin.ext
  match a with
  | ⟨0, _⟩ => show win0_4.index t (0 : Fin 2) * 128 + 1 * j.val = j.val; omega
  | ⟨1, _⟩ => show win0_4.index t (1 : Fin 2) * 128 + 1 * k.val = k.val; omega

/-- The second bias window's one block is its whole row. -/
theorem emb0_5 (t : Fin cfg0.N) (k : Fin 128) : ((cfg0.win 5).blk t).view.emb (ix2 0 k) = ix2 0 k := by
  obtain ⟨-, -, -, -, -, -, -, -, -, -, e0, e1, -⟩ := idx_facts0 t
  funext a; apply Fin.ext
  match a with
  | ⟨0, _⟩ => show win0_5.index t (0 : Fin 2) * 1 + 1 * 0 = 0; omega
  | ⟨1, _⟩ => show win0_5.index t (1 : Fin 2) * 128 + 1 * k.val = k.val; omega

/-- Each input window's block at point t, read at an entry, is its array where the block sits. -/
theorem iblk0_0_apply (c : Dev nD) (t : Fin cfg0.N) (p : Fin 2000) (j : Fin 128) :
    iblk0 V c 0 t (ix2 p j) = (V c main_v14 : S50000x128.Idx → EReal) (ix2 (row0 t p) j) := by
  show (V c main_v14 : S50000x128.Idx → EReal) (((cfg0.win 0).blk t).view.emb (ix2 p j)) = _
  rw [emb0_0]
theorem iblk0_1_apply (c : Dev nD) (t : Fin cfg0.N) (p : Fin 2000) (j : Fin 128) :
    iblk0 V c 1 t (ix2 p j) = (V c main_v9 : S50000x128.Idx → EReal) (ix2 (row0 t p) j) := by
  show (V c main_v9 : S50000x128.Idx → EReal) (((cfg0.win 1).blk t).view.emb (ix2 p j)) = _
  rw [emb0_1]
theorem iblk0_2_apply (c : Dev nD) (t : Fin cfg0.N) (j k : Fin 128) :
    iblk0 V c 2 t (ix2 j k) = (V c main_arg5 : S128x128.Idx → EReal) (ix2 j k) := by
  show (V c main_arg5 : S128x128.Idx → EReal) (((cfg0.win 2).blk t).view.emb (ix2 j k)) = _
  rw [emb0_2]
theorem iblk0_3_apply (c : Dev nD) (t : Fin cfg0.N) (k : Fin 128) :
    iblk0 V c 3 t (ix2 0 k) = (V c main_v15 : S1x128.Idx → EReal) (ix2 0 k) := by
  show (V c main_v15 : S1x128.Idx → EReal) (((cfg0.win 3).blk t).view.emb (ix2 0 k)) = _
  rw [emb0_3]
theorem iblk0_4_apply (c : Dev nD) (t : Fin cfg0.N) (j k : Fin 128) :
    iblk0 V c 4 t (ix2 j k) = (V c main_arg7 : S128x128.Idx → EReal) (ix2 j k) := by
  show (V c main_arg7 : S128x128.Idx → EReal) (((cfg0.win 4).blk t).view.emb (ix2 j k)) = _
  rw [emb0_4]
theorem iblk0_5_apply (c : Dev nD) (t : Fin cfg0.N) (k : Fin 128) :
    iblk0 V c 5 t (ix2 0 k) = (V c main_v16 : S1x128.Idx → EReal) (ix2 0 k) := by
  show (V c main_v16 : S1x128.Idx → EReal) (((cfg0.win 5).blk t).view.emb (ix2 0 k)) = _
  rw [emb0_5]

/-- WHAT POINT t WRITES BACK is block t of G0: entry (p, q) of the stored block is the perceptron of the input blocks'
    rows, and each input block is read off its array where the output's block sits. -/
theorem flushed0_6_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz0]
  simp only [View.ld_unit_zero (S := S2000x128) hz0, View.ld_unit_zero (S := S128x128) hz0, View.ld_unit_zero (S := S1x128) hz0]
  funext y
  revert y
  show ∀ y : S2000x128.Idx, k0_pay1 (F := Ideal) (iblk0 V c 0 t) (iblk0 V c 1 t) (iblk0 V c 2 t) (iblk0 V c 3 t) (iblk0 V c 4 t) (iblk0 V c 5 t) y
    = G0 V c (((cfg0.win 6).blk t).view.emb y)
  intro y
  obtain ⟨p, q, rfl⟩ : ∃ (p : Fin 2000) (q : Fin 128), y = ix2 p q := ⟨y 0, y 1, eq_ix2 y⟩
  rw [pay0_apply, emb0_6]
  simp only [iblk0_0_apply, iblk0_1_apply, iblk0_2_apply, iblk0_3_apply, iblk0_4_apply, iblk0_5_apply]
  rfl

/-- An index of the output array is in point t's block iff each coordinate is in the block's range on its axis. -/
theorem mem_blk0_6 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v17).slice (win0_6.rect t)).set ↔ _
  rw [View.set_slice_whole, Rect.mem_set_unit]
  exact Iff.rfl

/-- THE BLOCKS TILE THE ARRAY: row n lies in the block of point n / 2000, and every point writes back. -/
theorem covered0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 2000 < cfg0.N := by show _ < 25; omega
  obtain ⟨-, -, -, -, -, -, -, -, -, -, -, -, e0, e1⟩ := idx_facts0 ⟨(i 0).val / 2000, hN⟩
  refine ⟨⟨(i 0).val / 2000, hN⟩, flush0_6 _, ?_⟩
  rw [mem_blk0_6]
  intro a
  match a with
  | ⟨0, _⟩ =>
    show win0_6.index ⟨(i 0).val / 2000, hN⟩ (0 : Fin 2) * 2000 ≤ (i 0).val
      ∧ (i 0).val < win0_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, hN⟩ (1 : Fin 2) * 128 ≤ (i 1).val
      ∧ (i 1).val < win0_6.index ⟨(i 0).val / 2000, hN⟩ (1 : Fin 2) * 128 + 128
    omega

/-- THE OUTPUT ARRAY after the region is G0 of the arrays as the region finds them. -/
theorem final0_6 (c : Dev nD) : (dat0 (F := Ideal) V c).arrAt 6 cfg0.N = G0 V c :=
  (dat0 V c).arrAt_eq_of_cover 6 (G0 V c) (fun t _ => flushed0_6_eq V c t) covered0_6

/-- THE VALUE OF REGION 0: entry (n, q) of the output array after the region is the two-layer perceptron of the sum of
    rows n of the node array and of the aggregated neighbours, under the weights and biases, all as the region finds them. -/
theorem layer0_value (c : Dev nD) (n : Fin 50000) (q : Fin 128) :
    ((dat0 (F := Ideal) V c).arrAt 6 cfg0.N : S50000x128.Idx → EReal) (ix2 n q)
      = rowMlp0 (V c main_v14) (V c main_v9) (V c main_arg5) (V c main_v15) (V c main_arg7) (V c main_v16) n q := by
  rw [final0_6]
  rfl

end Cert.KernelIdeal.Hand

end
-- ==== Proof.KI.LayerValue1.lean ====
/-
  The value of region 1 at the extended reals: the first layer's output array, entry by entry.
  The region's kernel runs on 25 blocks of 2000 rows. At a point it reads block t of the two node arrays and the
  whole of the two weight matrices and the two bias rows, and writes block t of the output. Read at an entry, what
  the body stores is the two-layer perceptron of the sum of the two node rows; the 25 blocks tile the 50000 rows, so
  the output array after the region is that perceptron of the arrays' rows, row by row.
-/
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import proofs.«423360_j44504451121830_1_alg».proof.Proof.KI.Layer1
import proofs.«423360_j44504451121830_1_alg».proof.Proof.Spec
import proofs.«423360_j44504451121830_1_alg».proof.Proof.LibPlainDot
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's payload at an entry -/

/-- The block product into a zero accumulator, read at (p, q): the sum over k of l[p, k] * r[k, q]. -/
theorem mm1_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.LibPlainDot.matmul_zero_apply dot_S2000x128_S128x128_S2000x128_1_0_0_1_n_n_wf none l r p q

/-- A one-row matrix broadcast down the 2000 rows, read at (p, q), is the row at q. -/
theorem bias1_apply (b : Vec Ideal S1x128 .f32) (p : Fin 2000) (q : Fin 128) :
    broadcastTo S2000x128 b broadcasts_S1x128_S2000x128 (ix2 p q) = b (ix2 0 q) := by
  refine broadcastTo_apply b broadcasts_S1x128_S2000x128 (ix2 p q) (ix2 0 q) ?_
  intro a
  match a with
  | ⟨0, _⟩ => rfl
  | ⟨1, _⟩ => rfl

/-- WHAT THE BODY STORES, at entry (p, q) of the block: the two-layer perceptron of the sum of the two node blocks' rows p,
    under the two weight blocks and the two bias rows. -/
theorem pay1_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k1_pay1 (F := Ideal) x0 x1 x2 x3 x4 x5 (ix2 p q)
      = Cert.Spec.mlp (fun j => x0 (ix2 p j) + x1 (ix2 p j)) (fun j k => x2 (ix2 j k)) (fun k => x3 (ix2 0 k))
          (fun k q' => x4 (ix2 k q')) (fun q' => x5 (ix2 0 q')) q := by
  unfold k1_pay1 Cert.Spec.mlp
  -- the casts to the same shape change nothing
  simp only [shapeCast_self]
  -- the second product, plus the second bias row
  rw [addf_apply, mm1_apply, bias1_apply]
  refine congrArg (· + x5 (ix2 0 q)) (Finset.sum_congr rfl fun k _ => ?_)
  -- one hidden unit: the first product plus the first bias row, cut below at zero; the format changes are the identity
  rw [truncf_apply, truncf_apply, maximumf_apply, addf_apply, mm1_apply, bias1_apply, broadcast_apply]
  simp only [truncf_apply, addf_apply, Ideal.ofBits_def, Ideal.ofBits_zero_f32]

/-! ## From the blocks to the array -/

variable (V : (c : Dev nD) → (b : Ref sig .tc) → Buf (Elt Ideal) ((c : Thread nD τ).loc b))

/-- The zero offsets of a whole-block rectangle. -/
theorem hz1 : (![0, 0] : Fin 2 → Nat) = fun _ => 0 := funext fun a => by fin_cases a <;> rfl

/-- Row n, feature q of a layer's output from the six arrays the kernel reads: the perceptron, under the weights W1, W2
    and the bias rows b1, b2, of the sum of the rows n of the node array h and of the aggregated neighbours a. -/
abbrev rowMlp1 (h a : S50000x128.Idx → EReal) (W1 : S128x128.Idx → EReal) (b1 : S1x128.Idx → EReal)
    (W2 : S128x128.Idx → EReal) (b2 : S1x128.Idx → EReal) (n : Fin 50000) (q : Fin 128) : EReal :=
  Cert.Spec.mlp (fun j => h (ix2 n j) + a (ix2 n j)) (fun j k => W1 (ix2 j k)) (fun k => b1 (ix2 0 k))
    (fun k q' => W2 (ix2 k q')) (fun q' => b2 (ix2 0 q')) q

/-- What the output array ends holding: at (n, q) the perceptron of row n of the arrays as the region finds them. -/
def G1 (c : Dev nD) : S50000x128.Idx → EReal := fun i =>
  rowMlp1 (V c main_v32) (V c main_v27) (V c main_arg9) (V c main_v33) (V c main_arg11) (V c main_v34) (i 0) (i 1)

/-- The printed index maps over the grid: the two node windows and the output window sit at block (t, 0), the weights'
    and the biases' windows at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 2000 t + p of a node array. -/
def row1 (t : Fin cfg1.N) (p : Fin 2000) : Fin 50000 :=
  ⟨2000 * t.val + p.val, by have ht : t.val < 25 := t.isLt; have hp := p.isLt; omega⟩

/-- Entry (p, j) of the first node window's block at point t sits at (2000 t + p, j) of its array. -/
theorem emb1_0 (t : Fin cfg1.N) (p : Fin 2000) (j : Fin 128) :
    ((cfg1.win 0).blk t).view.emb (ix2 p j) = ix2 (row1 t p) j := by
  obtain ⟨e0, e1, -⟩ := idx_facts1 t
  funext a; apply Fin.ext
  match a with
  | ⟨0, _⟩ => show win1_0.index t (0 : Fin 2) * 2000 + 1 * p.val = 2000 * t.val + p.val; omega
  | ⟨1, _⟩ => show win1_0.index t (1 : Fin 2) * 128 + 1 * j.val = j.val; omega

/-- The same for the aggregated neighbours' window. -/
theorem emb1_1 (t : Fin cfg1.N) (p : Fin 2000) (j : Fin 128) :
    ((cfg1.win 1).blk t).view.emb (ix2 p j) = ix2 (row1 t p) j := by
  obtain ⟨-, -, e0, e1, -⟩ := idx_facts1 t
  funext a; apply Fin.ext
  match a with
  | ⟨0, _⟩ => show win1_1.index t (0 : Fin 2) * 2000 + 1 * p.val = 2000 * t.val + p.val; omega
  | ⟨1, _⟩ => show win1_1.index t (1 : Fin 2) * 128 + 1 * j.val = j.val; omega

/-- The same for the output window. -/
theorem emb1_6 (t : Fin cfg1.N) (p : Fin 2000) (j : Fin 128) :
    ((cfg1.win 6).blk t).view.emb (ix2 p j) = ix2 (row1 t p) j := by
  obtain ⟨-, -, -, -, -, -, -, -, -, -, -, -, e0, e1⟩ := idx_facts1 t
  funext a; apply Fin.ext
  match a with
  | ⟨0, _⟩ => show win1_6.index t (0 : Fin 2) * 2000 + 1 * p.val = 2000 * t.val + p.val; omega
  | ⟨1, _⟩ => show win1_6.index t (1 : Fin 2) * 128 + 1 * j.val = j.val; omega

/-- The first weight window's one block is its whole array, at every point. -/
theorem emb1_2 (t : Fin cfg1.N) (j k : Fin 128) : ((cfg1.win 2).blk t).view.emb (ix2 j k) = ix2 j k := by
  obtain ⟨-, -, -, -, e0, e1, -⟩ := idx_facts1 t
  funext a; apply Fin.ext
  match a with
  | ⟨0, _⟩ => show win1_2.index t (0 : Fin 2) * 128 + 1 * j.val = j.val; omega
  | ⟨1, _⟩ => show win1_2.index t (1 : Fin 2) * 128 + 1 * k.val = k.val; omega

/-- The first bias window's one block is its whole row. -/
theorem emb1_3 (t : Fin cfg1.N) (k : Fin 128) : ((cfg1.win 3).blk t).view.emb (ix2 0 k) = ix2 0 k := by
  obtain ⟨-, -, -, -, -, -, e0, e1, -⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * k.val = k.val; omega

/-- The second weight window's one block is its whole array. -/
theorem emb1_4 (t : Fin cfg1.N) (j k : Fin 128) : ((cfg1.win 4).blk t).view.emb (ix2 j k) = ix2 j k := by
  obtain ⟨-, -, -, -, -, -, -, -, e0, e1, -⟩ := idx_facts1 t
  funext a; apply Fin.ext
  match a with
  | ⟨0, _⟩ => show win1_4.index t (0 : Fin 2) * 128 + 1 * j.val = j.val; omega
  | ⟨1, _⟩ => show win1_4.index t (1 : Fin 2) * 128 + 1 * k.val = k.val; omega

/-- The second bias window's one block is its whole row. -/
theorem emb1_5 (t : Fin cfg1.N) (k : Fin 128) : ((cfg1.win 5).blk t).view.emb (ix2 0 k) = ix2 0 k := by
  obtain ⟨-, -, -, -, -, -, -, -, -, -, e0, e1, -⟩ := idx_facts1 t
  funext a; apply Fin.ext
  match a with
  | ⟨0, _⟩ => show win1_5.index t (0 : Fin 2) * 1 + 1 * 0 = 0; omega
  | ⟨1, _⟩ => show win1_5.index t (1 : Fin 2) * 128 + 1 * k.val = k.val; omega

/-- Each input window's block at point t, read at an entry, is its array where the block sits. -/
theorem iblk1_0_apply (c : Dev nD) (t : Fin cfg1.N) (p : Fin 2000) (j : Fin 128) :
    iblk1 V c 0 t (ix2 p j) = (V c main_v32 : S50000x128.Idx → EReal) (ix2 (row1 t p) j) := by
  show (V c main_v32 : S50000x128.Idx → EReal) (((cfg1.win 0).blk t).view.emb (ix2 p j)) = _
  rw [emb1_0]
theorem iblk1_1_apply (c : Dev nD) (t : Fin cfg1.N) (p : Fin 2000) (j : Fin 128) :
    iblk1 V c 1 t (ix2 p j) = (V c main_v27 : S50000x128.Idx → EReal) (ix2 (row1 t p) j) := by
  show (V c main_v27 : S50000x128.Idx → EReal) (((cfg1.win 1).blk t).view.emb (ix2 p j)) = _
  rw [emb1_1]
theorem iblk1_2_apply (c : Dev nD) (t : Fin cfg1.N) (j k : Fin 128) :
    iblk1 V c 2 t (ix2 j k) = (V c main_arg9 : S128x128.Idx → EReal) (ix2 j k) := by
  show (V c main_arg9 : S128x128.Idx → EReal) (((cfg1.win 2).blk t).view.emb (ix2 j k)) = _
  rw [emb1_2]
theorem iblk1_3_apply (c : Dev nD) (t : Fin cfg1.N) (k : Fin 128) :
    iblk1 V c 3 t (ix2 0 k) = (V c main_v33 : S1x128.Idx → EReal) (ix2 0 k) := by
  show (V c main_v33 : S1x128.Idx → EReal) (((cfg1.win 3).blk t).view.emb (ix2 0 k)) = _
  rw [emb1_3]
theorem iblk1_4_apply (c : Dev nD) (t : Fin cfg1.N) (j k : Fin 128) :
    iblk1 V c 4 t (ix2 j k) = (V c main_arg11 : S128x128.Idx → EReal) (ix2 j k) := by
  show (V c main_arg11 : S128x128.Idx → EReal) (((cfg1.win 4).blk t).view.emb (ix2 j k)) = _
  rw [emb1_4]
theorem iblk1_5_apply (c : Dev nD) (t : Fin cfg1.N) (k : Fin 128) :
    iblk1 V c 5 t (ix2 0 k) = (V c main_v34 : S1x128.Idx → EReal) (ix2 0 k) := by
  show (V c main_v34 : S1x128.Idx → EReal) (((cfg1.win 5).blk t).view.emb (ix2 0 k)) = _
  rw [emb1_5]

/-- WHAT POINT t WRITES BACK is block t of G1: entry (p, q) of the stored block is the perceptron of the input blocks'
    rows, and each input block is read off its array where the output's block sits. -/
theorem flushed1_6_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S128x128) hz1, View.ld_unit_zero (S := S1x128) hz1]
  funext y
  revert y
  show ∀ y : S2000x128.Idx, k1_pay1 (F := Ideal) (iblk1 V c 0 t) (iblk1 V c 1 t) (iblk1 V c 2 t) (iblk1 V c 3 t) (iblk1 V c 4 t) (iblk1 V c 5 t) y
    = G1 V c (((cfg1.win 6).blk t).view.emb y)
  intro y
  obtain ⟨p, q, rfl⟩ : ∃ (p : Fin 2000) (q : Fin 128), y = ix2 p q := ⟨y 0, y 1, eq_ix2 y⟩
  rw [pay1_apply, emb1_6]
  simp only [iblk1_0_apply, iblk1_1_apply, iblk1_2_apply, iblk1_3_apply, iblk1_4_apply, iblk1_5_apply]
  rfl

/-- An index of the output array is in point t's block iff each coordinate is in the block's range on its axis. -/
theorem mem_blk1_6 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v35).slice (win1_6.rect t)).set ↔ _
  rw [View.set_slice_whole, Rect.mem_set_unit]
  exact Iff.rfl

/-- THE BLOCKS TILE THE ARRAY: row n lies in the block of point n / 2000, and every point writes back. -/
theorem covered1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 2000 < cfg1.N := by show _ < 25; omega
  obtain ⟨-, -, -, -, -, -, -, -, -, -, -, -, e0, e1⟩ := idx_facts1 ⟨(i 0).val / 2000, hN⟩
  refine ⟨⟨(i 0).val / 2000, hN⟩, flush1_6 _, ?_⟩
  rw [mem_blk1_6]
  intro a
  match a with
  | ⟨0, _⟩ =>
    show win1_6.index ⟨(i 0).val / 2000, hN⟩ (0 : Fin 2) * 2000 ≤ (i 0).val
      ∧ (i 0).val < win1_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hN⟩ (1 : Fin 2) * 128 ≤ (i 1).val
      ∧ (i 1).val < win1_6.index ⟨(i 0).val / 2000, hN⟩ (1 : Fin 2) * 128 + 128
    omega

/-- THE OUTPUT ARRAY after the region is G1 of the arrays as the region finds them. -/
theorem final1_6 (c : Dev nD) : (dat1 (F := Ideal) V c).arrAt 6 cfg1.N = G1 V c :=
  (dat1 V c).arrAt_eq_of_cover 6 (G1 V c) (fun t _ => flushed1_6_eq V c t) covered1_6

/-- THE VALUE OF REGION 1: entry (n, q) of the output array after the region is the two-layer perceptron of the sum of
    rows n of the node array and of the aggregated neighbours, under the weights and biases, all as the region finds them. -/
theorem layer1_value (c : Dev nD) (n : Fin 50000) (q : Fin 128) :
    ((dat1 (F := Ideal) V c).arrAt 6 cfg1.N : S50000x128.Idx → EReal) (ix2 n q)
      = rowMlp1 (V c main_v32) (V c main_v27) (V c main_arg9) (V c main_v33) (V c main_arg11) (V c main_v34) n q := by
  rw [final1_6]
  rfl

end Cert.KernelIdeal.Hand

end
-- ==== Proof.KI.LayerValue2.lean ====
/-
  The value of region 2 at the extended reals: the first layer's output array, entry by entry.
  The region's kernel runs on 25 blocks of 2000 rows. At a point it reads block t of the two node arrays and the
  whole of the two weight matrices and the two bias rows, and writes block t of the output. Read at an entry, what
  the body stores is the two-layer perceptron of the sum of the two node rows; the 25 blocks tile the 50000 rows, so
  the output array after the region is that perceptron of the arrays' rows, row by row.
-/
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import proofs.«423360_j44504451121830_1_alg».proof.Proof.KI.Layer2
import proofs.«423360_j44504451121830_1_alg».proof.Proof.Spec
import proofs.«423360_j44504451121830_1_alg».proof.Proof.LibPlainDot
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's payload at an entry -/

/-- The block product into a zero accumulator, read at (p, q): the sum over k of l[p, k] * r[k, q]. -/
theorem mm2_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.LibPlainDot.matmul_zero_apply dot_S2000x128_S128x128_S2000x128_1_0_0_1_n_n_wf none l r p q

/-- A one-row matrix broadcast down the 2000 rows, read at (p, q), is the row at q. -/
theorem bias2_apply (b : Vec Ideal S1x128 .f32) (p : Fin 2000) (q : Fin 128) :
    broadcastTo S2000x128 b broadcasts_S1x128_S2000x128 (ix2 p q) = b (ix2 0 q) := by
  refine broadcastTo_apply b broadcasts_S1x128_S2000x128 (ix2 p q) (ix2 0 q) ?_
  intro a
  match a with
  | ⟨0, _⟩ => rfl
  | ⟨1, _⟩ => rfl

/-- WHAT THE BODY STORES, at entry (p, q) of the block: the two-layer perceptron of the sum of the two node blocks' rows p,
    under the two weight blocks and the two bias rows. -/
theorem pay2_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k2_pay1 (F := Ideal) x0 x1 x2 x3 x4 x5 (ix2 p q)
      = Cert.Spec.mlp (fun j => x0 (ix2 p j) + x1 (ix2 p j)) (fun j k => x2 (ix2 j k)) (fun k => x3 (ix2 0 k))
          (fun k q' => x4 (ix2 k q')) (fun q' => x5 (ix2 0 q')) q := by
  unfold k2_pay1 Cert.Spec.mlp
  -- the casts to the same shape change nothing
  simp only [shapeCast_self]
  -- the second product, plus the second bias row
  rw [addf_apply, mm2_apply, bias2_apply]
  refine congrArg (· + x5 (ix2 0 q)) (Finset.sum_congr rfl fun k _ => ?_)
  -- one hidden unit: the first product plus the first bias row, cut below at zero; the format changes are the identity
  rw [truncf_apply, truncf_apply, maximumf_apply, addf_apply, mm2_apply, bias2_apply, broadcast_apply]
  simp only [truncf_apply, addf_apply, Ideal.ofBits_def, Ideal.ofBits_zero_f32]

/-! ## From the blocks to the array -/

variable (V : (c : Dev nD) → (b : Ref sig .tc) → Buf (Elt Ideal) ((c : Thread nD τ).loc b))

/-- The zero offsets of a whole-block rectangle. -/
theorem hz2 : (![0, 0] : Fin 2 → Nat) = fun _ => 0 := funext fun a => by fin_cases a <;> rfl

/-- Row n, feature q of a layer's output from the six arrays the kernel reads: the perceptron, under the weights W1, W2
    and the bias rows b1, b2, of the sum of the rows n of the node array h and of the aggregated neighbours a. -/
abbrev rowMlp2 (h a : S50000x128.Idx → EReal) (W1 : S128x128.Idx → EReal) (b1 : S1x128.Idx → EReal)
    (W2 : S128x128.Idx → EReal) (b2 : S1x128.Idx → EReal) (n : Fin 50000) (q : Fin 128) : EReal :=
  Cert.Spec.mlp (fun j => h (ix2 n j) + a (ix2 n j)) (fun j k => W1 (ix2 j k)) (fun k => b1 (ix2 0 k))
    (fun k q' => W2 (ix2 k q')) (fun q' => b2 (ix2 0 q')) q

/-- What the output array ends holding: at (n, q) the perceptron of row n of the arrays as the region finds them. -/
def G2 (c : Dev nD) : S50000x128.Idx → EReal := fun i =>
  rowMlp2 (V c main_v50) (V c main_v45) (V c main_arg13) (V c main_v51) (V c main_arg15) (V c main_v52) (i 0) (i 1)

/-- The printed index maps over the grid: the two node windows and the output window sit at block (t, 0), the weights'
    and the biases' windows at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is row 2000 t + p of a node array. -/
def row2 (t : Fin cfg2.N) (p : Fin 2000) : Fin 50000 :=
  ⟨2000 * t.val + p.val, by have ht : t.val < 25 := t.isLt; have hp := p.isLt; omega⟩

/-- Entry (p, j) of the first node window's block at point t sits at (2000 t + p, j) of its array. -/
theorem emb2_0 (t : Fin cfg2.N) (p : Fin 2000) (j : Fin 128) :
    ((cfg2.win 0).blk t).view.emb (ix2 p j) = ix2 (row2 t p) j := by
  obtain ⟨e0, e1, -⟩ := idx_facts2 t
  funext a; apply Fin.ext
  match a with
  | ⟨0, _⟩ => show win2_0.index t (0 : Fin 2) * 2000 + 1 * p.val = 2000 * t.val + p.val; omega
  | ⟨1, _⟩ => show win2_0.index t (1 : Fin 2) * 128 + 1 * j.val = j.val; omega

/-- The same for the aggregated neighbours' window. -/
theorem emb2_1 (t : Fin cfg2.N) (p : Fin 2000) (j : Fin 128) :
    ((cfg2.win 1).blk t).view.emb (ix2 p j) = ix2 (row2 t p) j := by
  obtain ⟨-, -, e0, e1, -⟩ := idx_facts2 t
  funext a; apply Fin.ext
  match a with
  | ⟨0, _⟩ => show win2_1.index t (0 : Fin 2) * 2000 + 1 * p.val = 2000 * t.val + p.val; omega
  | ⟨1, _⟩ => show win2_1.index t (1 : Fin 2) * 128 + 1 * j.val = j.val; omega

/-- The same for the output window. -/
theorem emb2_6 (t : Fin cfg2.N) (p : Fin 2000) (j : Fin 128) :
    ((cfg2.win 6).blk t).view.emb (ix2 p j) = ix2 (row2 t p) j := by
  obtain ⟨-, -, -, -, -, -, -, -, -, -, -, -, e0, e1⟩ := idx_facts2 t
  funext a; apply Fin.ext
  match a with
  | ⟨0, _⟩ => show win2_6.index t (0 : Fin 2) * 2000 + 1 * p.val = 2000 * t.val + p.val; omega
  | ⟨1, _⟩ => show win2_6.index t (1 : Fin 2) * 128 + 1 * j.val = j.val; omega

/-- The first weight window's one block is its whole array, at every point. -/
theorem emb2_2 (t : Fin cfg2.N) (j k : Fin 128) : ((cfg2.win 2).blk t).view.emb (ix2 j k) = ix2 j k := by
  obtain ⟨-, -, -, -, e0, e1, -⟩ := idx_facts2 t
  funext a; apply Fin.ext
  match a with
  | ⟨0, _⟩ => show win2_2.index t (0 : Fin 2) * 128 + 1 * j.val = j.val; omega
  | ⟨1, _⟩ => show win2_2.index t (1 : Fin 2) * 128 + 1 * k.val = k.val; omega

/-- The first bias window's one block is its whole row. -/
theorem emb2_3 (t : Fin cfg2.N) (k : Fin 128) : ((cfg2.win 3).blk t).view.emb (ix2 0 k) = ix2 0 k := by
  obtain ⟨-, -, -, -, -, -, e0, e1, -⟩ := idx_facts2 t
  funext a; apply Fin.ext
  match a with
  | ⟨0, _⟩ => show win2_3.index t (0 : Fin 2) * 1 + 1 * 0 = 0; omega
  | ⟨1, _⟩ => show win2_3.index t (1 : Fin 2) * 128 + 1 * k.val = k.val; omega

/-- The second weight window's one block is its whole array. -/
theorem emb2_4 (t : Fin cfg2.N) (j k : Fin 128) : ((cfg2.win 4).blk t).view.emb (ix2 j k) = ix2 j k := by
  obtain ⟨-, -, -, -, -, -, -, -, e0, e1, -⟩ := idx_facts2 t
  funext a; apply Fin.ext
  match a with
  | ⟨0, _⟩ => show win2_4.index t (0 : Fin 2) * 128 + 1 * j.val = j.val; omega
  | ⟨1, _⟩ => show win2_4.index t (1 : Fin 2) * 128 + 1 * k.val = k.val; omega

/-- The second bias window's one block is its whole row. -/
theorem emb2_5 (t : Fin cfg2.N) (k : Fin 128) : ((cfg2.win 5).blk t).view.emb (ix2 0 k) = ix2 0 k := by
  obtain ⟨-, -, -, -, -, -, -, -, -, -, e0, e1, -⟩ := idx_facts2 t
  funext a; apply Fin.ext
  match a with
  | ⟨0, _⟩ => show win2_5.index t (0 : Fin 2) * 1 + 1 * 0 = 0; omega
  | ⟨1, _⟩ => show win2_5.index t (1 : Fin 2) * 128 + 1 * k.val = k.val; omega

/-- Each input window's block at point t, read at an entry, is its array where the block sits. -/
theorem iblk2_0_apply (c : Dev nD) (t : Fin cfg2.N) (p : Fin 2000) (j : Fin 128) :
    iblk2 V c 0 t (ix2 p j) = (V c main_v50 : S50000x128.Idx → EReal) (ix2 (row2 t p) j) := by
  show (V c main_v50 : S50000x128.Idx → EReal) (((cfg2.win 0).blk t).view.emb (ix2 p j)) = _
  rw [emb2_0]
theorem iblk2_1_apply (c : Dev nD) (t : Fin cfg2.N) (p : Fin 2000) (j : Fin 128) :
    iblk2 V c 1 t (ix2 p j) = (V c main_v45 : S50000x128.Idx → EReal) (ix2 (row2 t p) j) := by
  show (V c main_v45 : S50000x128.Idx → EReal) (((cfg2.win 1).blk t).view.emb (ix2 p j)) = _
  rw [emb2_1]
theorem iblk2_2_apply (c : Dev nD) (t : Fin cfg2.N) (j k : Fin 128) :
    iblk2 V c 2 t (ix2 j k) = (V c main_arg13 : S128x128.Idx → EReal) (ix2 j k) := by
  show (V c main_arg13 : S128x128.Idx → EReal) (((cfg2.win 2).blk t).view.emb (ix2 j k)) = _
  rw [emb2_2]
theorem iblk2_3_apply (c : Dev nD) (t : Fin cfg2.N) (k : Fin 128) :
    iblk2 V c 3 t (ix2 0 k) = (V c main_v51 : S1x128.Idx → EReal) (ix2 0 k) := by
  show (V c main_v51 : S1x128.Idx → EReal) (((cfg2.win 3).blk t).view.emb (ix2 0 k)) = _
  rw [emb2_3]
theorem iblk2_4_apply (c : Dev nD) (t : Fin cfg2.N) (j k : Fin 128) :
    iblk2 V c 4 t (ix2 j k) = (V c main_arg15 : S128x128.Idx → EReal) (ix2 j k) := by
  show (V c main_arg15 : S128x128.Idx → EReal) (((cfg2.win 4).blk t).view.emb (ix2 j k)) = _
  rw [emb2_4]
theorem iblk2_5_apply (c : Dev nD) (t : Fin cfg2.N) (k : Fin 128) :
    iblk2 V c 5 t (ix2 0 k) = (V c main_v52 : S1x128.Idx → EReal) (ix2 0 k) := by
  show (V c main_v52 : S1x128.Idx → EReal) (((cfg2.win 5).blk t).view.emb (ix2 0 k)) = _
  rw [emb2_5]

/-- WHAT POINT t WRITES BACK is block t of G2: entry (p, q) of the stored block is the perceptron of the input blocks'
    rows, and each input block is read off its array where the output's block sits. -/
theorem flushed2_6_eq (c : Dev nD) (t : Fin cfg2.N) :
    (dat2 (F := Ideal) V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x128) hz2, View.ld_unit_zero (S := S1x128) hz2]
  funext y
  revert y
  show ∀ y : S2000x128.Idx, k2_pay1 (F := Ideal) (iblk2 V c 0 t) (iblk2 V c 1 t) (iblk2 V c 2 t) (iblk2 V c 3 t) (iblk2 V c 4 t) (iblk2 V c 5 t) y
    = G2 V c (((cfg2.win 6).blk t).view.emb y)
  intro y
  obtain ⟨p, q, rfl⟩ : ∃ (p : Fin 2000) (q : Fin 128), y = ix2 p q := ⟨y 0, y 1, eq_ix2 y⟩
  rw [pay2_apply, emb2_6]
  simp only [iblk2_0_apply, iblk2_1_apply, iblk2_2_apply, iblk2_3_apply, iblk2_4_apply, iblk2_5_apply]
  rfl

/-- An index of the output array is in point t's block iff each coordinate is in the block's range on its axis. -/
theorem mem_blk2_6 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v53).slice (win2_6.rect t)).set ↔ _
  rw [View.set_slice_whole, Rect.mem_set_unit]
  exact Iff.rfl

/-- THE BLOCKS TILE THE ARRAY: row n lies in the block of point n / 2000, and every point writes back. -/
theorem covered2_6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : (i 0).val / 2000 < cfg2.N := by show _ < 25; omega
  obtain ⟨-, -, -, -, -, -, -, -, -, -, -, -, e0, e1⟩ := idx_facts2 ⟨(i 0).val / 2000, hN⟩
  refine ⟨⟨(i 0).val / 2000, hN⟩, flush2_6 _, ?_⟩
  rw [mem_blk2_6]
  intro a
  match a with
  | ⟨0, _⟩ =>
    show win2_6.index ⟨(i 0).val / 2000, hN⟩ (0 : Fin 2) * 2000 ≤ (i 0).val
      ∧ (i 0).val < win2_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win2_6.index ⟨(i 0).val / 2000, hN⟩ (1 : Fin 2) * 128 ≤ (i 1).val
      ∧ (i 1).val < win2_6.index ⟨(i 0).val / 2000, hN⟩ (1 : Fin 2) * 128 + 128
    omega

/-- THE OUTPUT ARRAY after the region is G2 of the arrays as the region finds them. -/
theorem final2_6 (c : Dev nD) : (dat2 (F := Ideal) V c).arrAt 6 cfg2.N = G2 V c :=
  (dat2 V c).arrAt_eq_of_cover 6 (G2 V c) (fun t _ => flushed2_6_eq V c t) covered2_6

/-- THE VALUE OF REGION 2: entry (n, q) of the output array after the region is the two-layer perceptron of the sum of
    rows n of the node array and of the aggregated neighbours, under the weights and biases, all as the region finds them. -/
theorem layer2_value (c : Dev nD) (n : Fin 50000) (q : Fin 128) :
    ((dat2 (F := Ideal) V c).arrAt 6 cfg2.N : S50000x128.Idx → EReal) (ix2 n q)
      = rowMlp2 (V c main_v50) (V c main_v45) (V c main_arg13) (V c main_v51) (V c main_arg15) (V c main_v52) n q := by
  rw [final2_6]
  rfl

end Cert.KernelIdeal.Hand

end
-- ==== Proof.LibColDot.lean ====
/-
  A matrix product contracting the first axis of both operands, read at an entry.
  The dimension numbers "contract the left operand's axis 0 with the right operand's axis 0, no batch axis" describe the
  product of the transpose of a [K, M] matrix with a [K, N] matrix. At the ideal instance the vector unit's product into a
  zero accumulator has entry (p, q) equal to the sum over k of l[k, p] * r[k, q]. The lemmas are stated for any extents
  K, M, N and any proof of the dimension numbers' well-formedness, so every record with these six axis lists is an instance.
-/
import Idealize.ShloMosaic.PureOps.Ideal.Laws
import Idealize.ShloMosaic.Lib.ValueIdx

noncomputable section

namespace Cert.LibColDot

open Idealize.ShloMosaic Idealize.ShloMosaic.ValueIdx

/-- The dimension numbers of the product [K, M]ᵀ × [K, N] → [M, N], over any proof that they are well formed. -/
abbrev colDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section
variable {K M N : Nat} (wf : DotDims.WF ⟨2, ![K, M]⟩ ⟨2, ![K, N]⟩ ⟨2, ![M, N]⟩ [0] [0] [1] [1] [] [])

/-- The left operand's row is the contraction index. -/
theorem lhs_row (j : (⟨2, ![M, N]⟩ : Shape).Idx) (k : (colDims K M N wf).contr.Idx) :
    ((colDims K M N wf).lhsIdx j k 0).val = (k ⟨0, Nat.one_pos⟩).val :=
  (colDims K M N wf).lhsIdx_val_of_single rfl j k

/-- The left operand's column is the result's row: axis 1 of the left operand is its one free axis. -/
theorem lhs_col (j : (⟨2, ![M, N]⟩ : Shape).Idx) (k : (colDims K M N wf).contr.Idx) :
    ((colDims K M N wf).lhsIdx j k 1).val = (j 0).val := by
  unfold DotDims.lhsIdx
  rw [dif_neg (show ¬(1 : Fin (⟨2, ![K, M]⟩ : Shape).rank) ∈ (colDims K M N wf).lhsBatch from List.not_mem_nil),
    dif_pos (show (1 : Fin (⟨2, ![K, M]⟩ : Shape).rank) ∈ (colDims K M N wf).lhsNonContracting from List.mem_singleton.mpr rfl)]
  rfl

/-- The right operand's row is the contraction index. -/
theorem rhs_row (j : (⟨2, ![M, N]⟩ : Shape).Idx) (k : (colDims K M N wf).contr.Idx) :
    ((colDims K M N wf).rhsIdx j k 0).val = (k ⟨0, Nat.one_pos⟩).val :=
  (colDims K M N wf).rhsIdx_val_of_single rfl j k

/-- The right operand's column is the result's column: axis 1 of the right operand is its one free axis, and it comes
    after the left operand's one free axis among the result's axes. -/
theorem rhs_col (j : (⟨2, ![M, N]⟩ : Shape).Idx) (k : (colDims K M N wf).contr.Idx) :
    ((colDims K M N wf).rhsIdx j k 1).val = (j 1).val := by
  unfold DotDims.rhsIdx
  rw [dif_neg (show ¬(1 : Fin (⟨2, ![K, N]⟩ : Shape).rank) ∈ (colDims K M N wf).rhsBatch from List.not_mem_nil),
    dif_pos (show (1 : Fin (⟨2, ![K, N]⟩ : Shape).rank) ∈ (colDims K M N wf).rhsNonContracting from List.mem_singleton.mpr rfl)]
  rfl

/-- THE CONTRACTION'S SUM over the one contracted axis, re-indexed by its coordinate k : Fin K: the operands are read
    at (k, p) and (k, q). -/
theorem sum_contr {α : Type} [AddCommMonoid α] (f : (⟨2, ![K, M]⟩ : Shape).Idx → (⟨2, ![K, N]⟩ : Shape).Idx → α)
    (p : Fin M) (q : Fin N) :
    ∑ k : (colDims K M N wf).contr.Idx, f ((colDims K M N wf).lhsIdx (ix2 p q) k) ((colDims K M N wf).rhsIdx (ix2 p q) k)
      = ∑ k : Fin K, f (ix2 k p) (ix2 k q) := by
  rw [← Equiv.sum_comp (contrEquiv1 (colDims K M N wf) K rfl rfl).symm]
  refine Finset.sum_congr rfl fun k _ => ?_
  have hk := contrEquiv1_symm_val (colDims K M N wf) K rfl rfl k
  have el : (colDims K M N wf).lhsIdx (ix2 p q) ((contrEquiv1 (colDims K M N wf) K rfl rfl).symm k) = ix2 k p :=
    funext fun a => Fin.ext (by
      match a with
      | ⟨0, _⟩ => exact (lhs_row wf _ _).trans hk
      | ⟨1, _⟩ => exact lhs_col wf _ _)
  have er : (colDims K M N wf).rhsIdx (ix2 p q) ((contrEquiv1 (colDims K M N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (colDims K M N wf) prec l r (constant ⟨2, ![M, N]⟩ .f32 0x00000000#32) (ix2 p q)
      = ∑ k : Fin K, l (ix2 k p) * r (ix2 k q) := by
  rw [Ideal.matmul_constant_zero_apply]
  exact sum_contr wf (fun a b => l a * r b) p q

end

end Cert.LibColDot

end
-- ==== Proof.KI.PoolValue.lean ====
/-
  The value of the pooling region at the ideal instance.
  The pooling kernel keeps a 128x128 accumulator, zeroed at the first grid point; at every point it adds the product of
  the transposed membership matrix of the point's 5000 graph ids with the point's 5000x128 block of node features, and
  at the last point it writes the accumulator out. Entry (g, q) of the output is therefore the sum of feature q over
  all nodes whose graph id, read as a signed integer, is g: the specification's sum pooling.
-/
import proofs.«423360_j44504451121830_1_alg».proof.Proof.KI.Pool
import proofs.«423360_j44504451121830_1_alg».proof.Proof.Spec
import proofs.«423360_j44504451121830_1_alg».proof.Proof.LibColDot
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- A 32-bit word is the word of a graph number g < 128 exactly when its signed reading is g. -/
theorem word_eq_iff (w : BitVec 32) (g : Fin 128) : w = BitVec.ofNat 32 g.val ↔ w.toInt = (g.val : Int) := by
  have hg : (BitVec.ofNat 32 g.val).toInt = (g.val : Int) := by
    have := g.isLt
    rw [BitVec.toInt_eq_toNat_cond, BitVec.toNat_ofNat]
    omega
  constructor
  · intro h; rw [h, hg]
  · intro h; exact BitVec.eq_of_toInt_eq (h.trans hg.symm)

/-- The column counter: entry (r, g) of the iota along axis 1 is the word of g. -/
theorem iota_col_apply (r : Fin 5000) (g : Fin 128) :
    iota .tc S5000x128 32 [1] iota_S5000x128_d1_w32 (ix2 r g) = BitVec.ofNat 32 g.val := by
  unfold iota
  simp

/-- The id column spread over 128 columns: entry (r, g) is the id of row r. -/
theorem bcast_col_apply (gid : IVec S5000x1 32) (r : Fin 5000) (g : Fin 128) :
    broadcastTo S5000x128 gid broadcasts_S5000x1_S5000x128 (ix2 r g) = gid (ix2 r 0) := by
  refine broadcastTo_apply gid _ (ix2 r g) (ix2 r 0) fun a => ?_
  match a with
  | ⟨0, _⟩ => rfl
  | ⟨1, _⟩ => rfl

/-- ONE ENTRY OF THE MEMBERSHIP MATRIX: 1 where row r's id is g, else 0. -/
theorem onehot_apply (gid : IVec S5000x1 32) (r : Fin 5000) (g : Fin 128) :
    (sitofp (F := Ideal) .f32 (extui 32 (cmpi .eq (broadcastTo S5000x128 gid broadcasts_S5000x1_S5000x128)
        (iota .tc S5000x128 32 [1] iota_S5000x128_d1_w32)) natLt_1_32) : FVec Ideal S5000x128 .f32) (ix2 r g)
      = if (gid (ix2 r 0)).toInt = (g.val : Int) then 1 else 0 := by
  rw [sitofp_apply, extui_apply]
  show FloatOps.sitofp .f32 ((IntOp.cmpi .eq (broadcastTo S5000x128 gid broadcasts_S5000x1_S5000x128 (ix2 r g))
      (iota .tc S5000x128 32 [1] iota_S5000x128_d1_w32 (ix2 r g))).setWidth 32) = _
  rw [bcast_col_apply, iota_col_apply]
  by_cases h : (gid (ix2 r 0)).toInt = (g.val : Int)
  · rw [if_pos h, (word_eq_iff _ g).2 h]
    have e1 : IntOp.cmpi .eq (BitVec.ofNat 32 g.val) (BitVec.ofNat 32 g.val) = 1#1 := by simp [IntOp.cmpi]
    rw [e1]
    show (((BitVec.setWidth 32 1#1).toInt : ℝ) : EReal) = 1
    have e2 : (BitVec.setWidth 32 1#1).toInt = 1 := by decide
    rw [e2, Int.cast_one, EReal.coe_one]
  · rw [if_neg h]
    have hne : ¬ gid (ix2 r 0) = BitVec.ofNat 32 g.val := fun e => h ((word_eq_iff _ g).1 e)
    have e1 : IntOp.cmpi .eq (gid (ix2 r 0)) (BitVec.ofNat 32 g.val) = 0#1 := by
      show BitVec.ofBool (_ == _) = 0#1
      rw [beq_eq_false_iff_ne.mpr hne]; rfl
    rw [e1]
    show (((BitVec.setWidth 32 0#1).toInt : ℝ) : EReal) = 0
    have e2 : (BitVec.setWidth 32 0#1).toInt = 0 := by decide
    rw [e2, Int.cast_zero, EReal.coe_zero]

/-- THE ACCUMULATION STEP AT AN ENTRY: the old entry plus feature q of the block's rows whose id is g. -/
theorem k3_pay2_apply (gid : Vec Ideal S5000x1 .i32) (x : Vec Ideal S5000x128 .f32) (a : Vec Ideal S128x128 .f32) (g q : Fin 128) :
    k3_pay2 (F := Ideal) gid x a (ix2 g q)
      = a (ix2 g q) + ∑ r ∈ Finset.univ.filter (fun r : Fin 5000 => (gid (ix2 r 0)).toInt = (g.val : Int)), x (ix2 r q) := by
  unfold k3_pay2
  simp only [shapeCast_self]
  rw [addf_apply]
  congr 1
  show FloatOps.matmul (Cert.LibColDot.colDims 5000 128 128 dot_S5000x128_S5000x128_S128x128_0_0_1_1_n_n_wf) none _ _
    (constant ⟨2, ![128, 128]⟩ .f32 0x00000000#32) (ix2 g q) = _
  rw [Cert.LibColDot.matmul_zero_apply, Finset.sum_filter]
  refine Finset.sum_congr rfl fun r _ => ?_
  rw [truncf_apply, truncf_apply, onehot_apply]
  by_cases h : (gid (ix2 r 0)).toInt = (g.val : Int)
  · rw [if_pos h, if_pos h, one_mul]
  · rw [if_neg h, if_neg h, zero_mul]

/-- The accumulator's first contents: zero at every entry. -/
theorem k3_pay1_apply (g q : Fin 128) : k3_pay1 (F := Ideal) (ix2 g q) = 0 := by
  unfold k3_pay1
  simp only [shapeCast_self]
  rw [broadcast_apply]
  exact Ideal.ofBits_zero_f32

/-! ## The blocks of the two input arrays -/

section
variable (V : (c : Dev nD) → (b : Ref sig .tc) → Buf (Elt Ideal) ((c : Thread nD τ).loc b))

/-- The printed index maps, decided over the grid: point t's blocks of the id column and of the feature matrix are
    block row t, and the output's one block is the whole array. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- The grid has ten points. -/
theorem N3 : cfg3.N = 10 := rfl

/-- Row r of point t's id block is row 5000·t + r of the id column. -/
theorem blk_gid (c : Dev nD) (t : Fin cfg3.N) (r : Fin 5000) :
    (iblk3 V c 0 t : S5000x1.Idx → BitVec 32) (ix2 r 0)
      = (V c main_v54 : S50000x1.Idx → BitVec 32) (ix2 ⟨r.val + 5000 * t.val, by have := t.isLt; have := N3; omega⟩ 0) := by
  obtain ⟨e0, e1, -⟩ := idx_facts3 t
  unfold iblk3
  show V c main_v54 (((cfg3.win 0).blk t).view.emb (ix2 r 0)) = _
  refine congrArg (V c main_v54) (funext fun a => Fin.ext ?_)
  match a with
  | ⟨0, _⟩ => show win3_0.index t (0 : Fin 2) * 5000 + 1 * r.val = r.val + 5000 * t.val; omega
  | ⟨1, _⟩ => show win3_0.index t (1 : Fin 2) * 1 + 1 * 0 = 0; omega

/-- Entry (r, q) of point t's feature block is entry (5000·t + r, q) of the feature matrix. -/
theorem blk_x (c : Dev nD) (t : Fin cfg3.N) (r : Fin 5000) (q : Fin 128) :
    (iblk3 V c 1 t : S5000x128.Idx → EReal) (ix2 r q)
      = (V c main_v53 : S50000x128.Idx → EReal) (ix2 ⟨r.val + 5000 * t.val, by have := t.isLt; have := N3; omega⟩ q) := by
  obtain ⟨-, -, e2, e3, -⟩ := idx_facts3 t
  unfold iblk3
  show V c main_v53 (((cfg3.win 1).blk t).view.emb (ix2 r q)) = _
  refine congrArg (V c main_v53) (funext fun a => Fin.ext ?_)
  match a with
  | ⟨0, _⟩ => show win3_1.index t (0 : Fin 2) * 5000 + 1 * r.val = r.val + 5000 * t.val; omega
  | ⟨1, _⟩ => show win3_1.index t (1 : Fin 2) * 128 + 1 * q.val = q.val; omega

/-! ## The accumulator after each point -/

/-- What point t adds to entry (g, q): feature q of those rows of the point's block whose id is g. -/
def blockSum (c : Dev nD) (g q : Fin 128) (t : Fin cfg3.N) : EReal :=
  ∑ r ∈ Finset.univ.filter (fun r : Fin 5000 => ((iblk3 V c 0 t : S5000x1.Idx → BitVec 32) (ix2 r 0)).toInt = (g.val : Int)),
    (iblk3 V c 1 t : S5000x128.Idx → EReal) (ix2 r q)

/-- THE ACCUMULATOR AFTER POINT n, at entry (g, q): the sum of what the points 0 … n added. -/
theorem acc_apply (c : Dev nD) (g q : Fin 128) : ∀ (n : ℕ) (h : n < cfg3.N),
    accAt3 V c n h (ix2 g q) = ∑ t : Fin (n + 1), blockSum V c g q ⟨t.val, by have := t.isLt; omega⟩
  | 0, h => by
    rw [accAt3_zero, k3_pay2_apply, k3_pay1_apply, zero_add, Fin.sum_univ_one]; rfl
  | n + 1, h => by
    rw [accAt3_succ, k3_pay2_apply, acc_apply c g q n (Nat.lt_of_succ_lt h)]
    conv_rhs => rw [Fin.sum_univ_castSucc]
    rfl
end

/-- SUM POOLING, BLOCK BY BLOCK: the sum over the 50000 nodes with graph id g splits into the ten blocks of 5000. -/
theorem pool_blocks (gid : Fin 50000 → BitVec 32) (x : Fin 50000 → Fin 128 → EReal) (g q : Fin 128) :
    Cert.Spec.pool gid x g q
      = ∑ t : Fin 10, ∑ r ∈ Finset.univ.filter (fun r : Fin 5000 =>
            (gid ⟨r.val + 5000 * t.val, by have := t.isLt; have := r.isLt; omega⟩).toInt = (g.val : Int)),
          x ⟨r.val + 5000 * t.val, by have := t.isLt; have := r.isLt; omega⟩ q := by
  unfold Cert.Spec.pool
  rw [Finset.sum_filter]
  show ∑ n : Fin (10 * 5000), _ = _
  rw [← Equiv.sum_comp finProdFinEquiv, Fintype.sum_prod_type]
  refine Finset.sum_congr rfl fun t _ => ?_
  rw [Finset.sum_filter]
  rfl

/-! ## The last point, and the output array -/

section
variable (V : (c : Dev nD) → (b : Ref sig .tc) → Buf (Elt Ideal) ((c : Thread nD τ).loc b))

/-- THE ACCUMULATOR AFTER THE LAST POINT is the pooled sum of the arrays the region finds. -/
theorem acc_last (c : Dev nD) (g q : Fin 128) (h : 9 < cfg3.N) :
    accAt3 V c 9 h (ix2 g q)
      = Cert.Spec.pool (fun n => (V c main_v54 : S50000x1.Idx → BitVec 32) (ix2 n 0))
          (fun n q' => (V c main_v53 : S50000x128.Idx → EReal) (ix2 n q')) g q := by
  rw [acc_apply, pool_blocks]
  refine Finset.sum_congr rfl fun t _ => ?_
  unfold blockSum
  simp only [blk_gid, blk_x]

/-- The output array's final contents: the pooled sum at every entry. -/
def poolArr (c : Dev nD) : S128x128.Idx → EReal := fun i =>
  Cert.Spec.pool (fun n => (V c main_v54 : S50000x1.Idx → BitVec 32) (ix2 n 0))
    (fun n q' => (V c main_v53 : S50000x128.Idx → EReal) (ix2 n q')) ⟨(i 0).val, idx2_lt0 i⟩ ⟨(i 1).val, idx2_lt1 i⟩

/-- The accumulator after the last point, as a whole: the pooled sum at every entry. -/
theorem acc_last_fun (c : Dev nD) (n : ℕ) (h : n < cfg3.N) (hn : n = 9) : accAt3 V c n h = poolArr V c := by
  subst hn
  funext i
  obtain ⟨g, q, rfl⟩ : ∃ (g : Fin 128) (q : Fin 128), i = ix2 g q := ⟨i 0, i 1, eq_ix2 i⟩
  rw [acc_last]
  rfl

/-- WHAT THE ONE WRITE-BACK WRITES: the only point that writes the output block back is the last, and what it leaves
    in the block is the pooled sum, the block being the whole array. -/
theorem flushed3_eq (c : Dev nD) (t : Fin cfg3.N) (hf : (cfg3.win 2).flush t = true) :
    (dat3 V c).flushed 2 t = ((cfg3.win 2).blk t).view.read (Elt Ideal) (poolArr V c) := by
  have ht : t.val % 10 = 9 := (flush3_2 t).1 hf
  have ht9 : t.val = 9 := by have := t.isLt; have := N3; omega
  obtain ⟨-, -, -, -, e4, e5⟩ := idx_facts3 t
  show (cfg3.win 2).cut (grid3.coords t) ((dat3 V c).after 2 t) = _
  rw [after3_2, acc_last_fun V c t.val t.isLt ht9]
  funext j
  -- both sides read the pooled array: the left at the block's own index, the right where the block sits in the array
  have hL : (cfg3.win 2).cut (grid3.coords t) (poolArr V c) j = poolArr V c ((cfg3.win 2).xinj (grid3.coords t) j) := rfl
  have hR : ((cfg3.win 2).blk t).view.read (Elt Ideal) (poolArr V c) j = poolArr V c (((cfg3.win 2).blk t).view.emb j) := by
    rw [View.read_apply]
    exact cast_eq _ _
  rw [hL, hR]
  refine congrArg (poolArr V c) (funext fun a => Fin.ext ?_)
  match a with
  | ⟨0, _⟩ => show (j 0).val = win3_2.index t (0 : Fin 2) * 128 + 1 * (j 0).val; omega
  | ⟨1, _⟩ => show (j 1).val = win3_2.index t (1 : Fin 2) * 128 + 1 * (j 1).val; omega

/-- An index of the array is in point t's block iff each coordinate is in the block's range on its axis. -/
theorem mem_blk3 (t : Fin cfg3.N) (i : S128x128.Idx) :
    i ∈ ((cfg3.win 2).blk t).view.set ↔ ∀ a : Fin 2, win3_2.index t a * S128x128.size a ≤ (i a).val ∧ (i a).val < win3_2.index t a * S128x128.size a + S128x128.size a := by
  show i ∈ ((View.whole main_v55).slice (win3_2.rect t)).set ↔ _
  rw [View.set_slice_whole, Rect.mem_set_unit]
  exact Iff.rfl

/-- Every index of the output array is in the block the last point writes back. -/
theorem cover3 (i : S128x128.Idx) :
    ∃ t : Fin cfg3.N, (cfg3.win 2).flush t = true ∧ i ∈ ((cfg3.win 2).blk t).view.set := by
  have h9 : 9 < cfg3.N := by rw [N3]; decide
  obtain ⟨-, -, -, -, e4, e5⟩ := idx_facts3 ⟨9, h9⟩
  refine ⟨⟨9, h9⟩, (flush3_2 _).2 rfl, ?_⟩
  rw [mem_blk3]
  intro a
  match a with
  | ⟨0, _⟩ => show win3_2.index ⟨9, h9⟩ (0 : Fin 2) * 128 ≤ (i 0).val ∧ (i 0).val < win3_2.index ⟨9, h9⟩ (0 : Fin 2) * 128 + 128; have := idx2_lt0 i; omega
  | ⟨1, _⟩ => show win3_2.index ⟨9, h9⟩ (1 : Fin 2) * 128 ≤ (i 1).val ∧ (i 1).val < win3_2.index ⟨9, h9⟩ (1 : Fin 2) * 128 + 128; have := idx2_lt1 i; omega

/-- THE VALUE OF THE POOLING REGION: after the run, entry (g, q) of the output array is the sum of feature q over the
    nodes whose graph id is g. -/
theorem pool_value (c : Dev nD) (g q : Fin 128) :
    ((dat3 (F := Ideal) V c).arrAt 2 cfg3.N : S128x128.Idx → EReal) (ix2 g q)
      = Cert.Spec.pool (fun n => (V c main_v54 : S50000x1.Idx → BitVec 32) (ix2 n 0))
          (fun n q' => (V c main_v53 : S50000x128.Idx → EReal) (ix2 n q')) g q := by
  rw [(dat3 V c).arrAt_eq_of_cover 2 (poolArr V c) (fun t hf => flushed3_eq V c t hf) (cover3)]
  rfl
end

end Cert.KernelIdeal.Hand
end
-- ==== Proof.LibSlice.lean ====
/-
  Reading a layer's slice of a stacked weight array at an index.
  The five layers' weights are stacked along a leading axis; a layer's matrix is cut out by a unit-stride slice
  `[l : l+1, off : off+a, 0 : b]` and a reshape that drops the leading axis of extent one, and a layer's bias vector
  by `[l : l+1, 0 : a]` and the same reshape, possibly reshaped again to a one-row matrix. Each of these, read at an
  index, is the stacked array at layer `l` and the shifted position.
-/
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

/-- A layer's matrix: rows `off … off + a − 1` of layer `l`'s `[r, b]` matrix, read at `(d, k)`. -/
theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  -- the reshape keeps the row-major position: (0, d, k) of [1, a, b] and (d, k) of [a, b] both sit at d * b + k
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  -- the slice shifts each coordinate by its offset: (0, d, k) reads the stacked array at (l + 0, off + d, 0 + k)
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

/-- A layer's bias vector, read at `k`. -/
theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by
  -- the reshape: (0, k) of [1, a] and k of [a] both sit at position k
  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]
  -- the slice: (0, k) reads the stacked array at (l + 0, 0 + k)
  · exact extractStridedSlice_apply _ B hs _ _ (fun x => match x with
      | ⟨0, _⟩ => by show l.val = l.val + 0; omega
      | ⟨1, _⟩ => by show k.val = 0 + k.val; omega)

/-- A vector reshaped to a one-row matrix, read at `(0, k)`. -/
theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  -- k of [a] and (0, k) of [1, a] both sit at position k
  refine shapeCast_apply v hc (ix2 (0 : Fin 1) k) (ix1 k) ?_
  rw [Shape.rowMajor_val_two, Shape.rowMajor_val_one]
  show k.val = (0 : Nat) * a + k.val
  rw [Nat.zero_mul, Nat.zero_add]

/-- A vector reshaped to a one-column matrix, read at `(n, 0)`. -/
theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  -- n of [a] and (n, 0) of [a, 1] both sit at position n
  refine shapeCast_apply v hc (ix2 n (0 : Fin 1)) (ix1 n) ?_
  rw [Shape.rowMajor_val_two, Shape.rowMajor_val_one]
  show n.val = n.val * 1 + (0 : Nat)
  rw [Nat.mul_one, Nat.add_zero]

/-- One column of a two-column word array, reshaped to a vector, read at `t`. -/
theorem col_slice_apply {α : Type} {T : Nat} (e : (⟨2, ![T, 2]⟩ : Shape).Idx → α) (j : Fin 2)
    (hs : (⟨2, ![T, 2]⟩ : Shape).Slices ![0, j.val] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, j.val] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the two-column array at (0 + t, j + 0)
  · exact extractStridedSlice_apply _ e hs _ _ (fun x => match x with
      | ⟨0, _⟩ => by show t.val = 0 + t.val; omega
      | ⟨1, _⟩ => by show j.val = j.val + 0; omega)

/-- At the ideal instance a change of float format is the identity. -/
theorem truncf_ideal {s : Shape} {φ ψ : FTy} (x : FVec Ideal s φ) (h : ψ.bits < φ.bits) :
    (truncf ψ x h : s.Idx → EReal) = x := by
  -- element by element the ideal instance's format change returns its operand
  funext i
  rfl

end Cert.LibSlice

end
-- ==== Proof.KernelValue.lean ====
/-
  The kernel program's result at the extended reals, as the specification's closed form of the launch arguments.
  Each layer region's output array is the two-layer perceptron of the rows its six arrays hold; the host stretch before
  the region left in those arrays the current node array scaled by one plus the layer's `eps`, its aggregation along
  the edges, the layer's weights and its biases as one-row matrices. So each boundary's node array is the
  specification's step of the one before, and the pooling region's output is the pooling of the third.
-/
import proofs.«423360_j44504451121830_1_alg».proof.Proof.KernelIdealLaunch
import proofs.«423360_j44504451121830_1_alg».proof.Proof.Gen.KernelIdeal.Skeleton
import proofs.«423360_j44504451121830_1_alg».proof.Proof.Gen.KernelIdeal.Points
import proofs.«423360_j44504451121830_1_alg».proof.Proof.KI.HostReads
import proofs.«423360_j44504451121830_1_alg».proof.Proof.KI.LayerValue
import proofs.«423360_j44504451121830_1_alg».proof.Proof.KI.LayerValue1
import proofs.«423360_j44504451121830_1_alg».proof.Proof.KI.LayerValue2
import proofs.«423360_j44504451121830_1_alg».proof.Proof.KI.PoolValue
import proofs.«423360_j44504451121830_1_alg».proof.Proof.Spec
import proofs.«423360_j44504451121830_1_alg».proof.Proof.LibSlice
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The kernel program's result as the closed form

The three layer regions' output arrays and the pooling region's are each the specification's map of what the region
reads; what a region reads is what the host stretch before it left (the scaled node array, the aggregated neighbours,
the weights, the bias rows); so, layer by layer, the arrays at the boundaries are the specification's steps of the launch
features, and the program's result is their pooling. -/

section Value

variable (mI : (ℓ : Loc nD τ sig) → Buf (Elt Ideal) ℓ) (c : Dev nD)

/-! ## The arguments, as functions of their indices -/

/-- The node features at launch. -/
def featsK : Cert.Spec.Arr := mI ((c : Thread nD τ).loc main_arg0)
/-- The edges' source and destination node ids. -/
def srcK : (⟨S800000, .i32⟩ : BufTy).Contents (Elt Ideal) := mI ((c : Thread nD τ).loc main_arg1)
def dstK : (⟨S800000, .i32⟩ : BufTy).Contents (Elt Ideal) := mI ((c : Thread nD τ).loc main_arg2)
/-- The graph id of each node. -/
def gidBufK : (⟨S50000, .i32⟩ : BufTy).Contents (Elt Ideal) := mI ((c : Thread nD τ).loc main_arg3)
def gidK : Fin 50000 → BitVec 32 := fun n => gidBufK mI c (ix1 n)
/-- The three layers' `eps`. -/
def epsBufK : (⟨S3, .f32⟩ : BufTy).Contents (Elt Ideal) := mI ((c : Thread nD τ).loc main_arg4)
/-- Layer `k`'s factor `1 + eps[k]`. -/
def eK (k : Fin 3) : EReal := (1 : EReal) + epsBufK mI c (ix1 k)
/-- Layer `k`'s weight and bias buffers: arguments 5 + 4k, 6 + 4k, 7 + 4k and 8 + 4k. -/
def w1BufK : Fin 3 → (⟨S128x128, .f32⟩ : BufTy).Contents (Elt Ideal)
  | 0 => mI ((c : Thread nD τ).loc main_arg5) | 1 => mI ((c : Thread nD τ).loc main_arg9) | 2 => mI ((c : Thread nD τ).loc main_arg13)
def b1BufK : Fin 3 → (⟨S128, .f32⟩ : BufTy).Contents (Elt Ideal)
  | 0 => mI ((c : Thread nD τ).loc main_arg6) | 1 => mI ((c : Thread nD τ).loc main_arg10) | 2 => mI ((c : Thread nD τ).loc main_arg14)
def w2BufK : Fin 3 → (⟨S128x128, .f32⟩ : BufTy).Contents (Elt Ideal)
  | 0 => mI ((c : Thread nD τ).loc main_arg7) | 1 => mI ((c : Thread nD τ).loc main_arg11) | 2 => mI ((c : Thread nD τ).loc main_arg15)
def b2BufK : Fin 3 → (⟨S128, .f32⟩ : BufTy).Contents (Elt Ideal)
  | 0 => mI ((c : Thread nD τ).loc main_arg8) | 1 => mI ((c : Thread nD τ).loc main_arg12) | 2 => mI ((c : Thread nD τ).loc main_arg16)
/-- and the same read at their indices. -/
def w1K (k : Fin 3) : Fin 128 → Fin 128 → EReal := fun i j => w1BufK mI c k (ix2 i j)
def b1K (k : Fin 3) : Fin 128 → EReal := fun j => b1BufK mI c k (ix1 j)
def w2K (k : Fin 3) : Fin 128 → Fin 128 → EReal := fun i j => w2BufK mI c k (ix2 i j)
def b2K (k : Fin 3) : Fin 128 → EReal := fun j => b2BufK mI c k (ix1 j)

/-! ## The host operations read at an index -/

/-- The word `0x3F800000` is the real number one. -/
theorem ofBits_one_f32 : Ideal.ofBits .f32 0x3F800000#32 = 1 := by
  simp [Ideal.ofBits, Ideal.ieee, -EReal.coe_mul]; norm_num

/-- The scalar a stretch computes for layer `k` is `1 + eps[k]`: the slice reads entry `k`, the reshape keeps it. -/
theorem epsK_apply (e : Vec Ideal S3 .f32) (k : Fin 3) : (epsK (F := Ideal) e k : S_.Idx → EReal) ix0 = (1 : EReal) + e (ix1 k) := by
  have hs : ∀ (j : Fin 3) (h : S3.Slices ![j.val] S1),
      shapeCast S_ (extractStridedSlice S1 ![j.val] e h) shapeCasts_S1_S_ ix0 = e (ix1 j) := by
    intro j h
    rw [shapeCast_apply _ shapeCasts_S1_S_ ix0 (ix1 (0 : Fin 1)) (by rfl)]
    exact extractStridedSlice_apply ![j.val] e h (ix1 (0 : Fin 1)) (ix1 j) (fun a => match a with
      | ⟨0, _⟩ => by show j.val = j.val + 0; omega)
  match k with
  | ⟨0, _⟩ => exact congrArg₂ (· + ·) ofBits_one_f32 (hs 0 slices_S3_S1_0)
  | ⟨1, _⟩ => exact congrArg₂ (· + ·) ofBits_one_f32 (hs 1 slices_S3_S1_1)
  | ⟨2, _⟩ => exact congrArg₂ (· + ·) ofBits_one_f32 (hs 2 slices_S3_S1_2)

/-- ONE LAYER FROM WHAT ITS REGION READS. If the region's six arrays are the node array `H` scaled by the scalar `e`,
    the aggregation of `H`, the two weight matrices, and the two bias vectors as one-row matrices, then the perceptron of
    the sum of the first two's rows `n` is the specification's step of `H` at `(n, q)`: the scalar commutes to the front,
    and a bias row read at `(0, k)` is the vector at `k`. -/
theorem step_of_reads (agg : Cert.Spec.Arr → Cert.Spec.Arr) (H : Vec Ideal S50000x128 .f32) (e : Vec Ideal S_ .f32)
    (W1 W2 : Vec Ideal S128x128 .f32) (b1 b2 : Vec Ideal S128 .f32)
    (xh xa : Vec Ideal S50000x128 .f32) (xw1 xw2 : Vec Ideal S128x128 .f32) (xb1 xb2 : Vec Ideal S1x128 .f32)
    (hh : xh = mulf (F := Ideal) (φ := .f32) H (broadcastInDim S50000x128 ![] bcast_S_S50000x128 e)) (ha : xa = agg H)
    (hw1 : xw1 = W1) (hb1 : xb1 = shapeCast S1x128 b1 shapeCasts_S128_S1x128)
    (hw2 : xw2 = W2) (hb2 : xb2 = shapeCast S1x128 b2 shapeCasts_S128_S1x128) (n : Fin 50000) (q : Fin 128) :
    Cert.Spec.mlp (fun j => xh (ix2 n j) + xa (ix2 n j)) (fun j k => xw1 (ix2 j k)) (fun k => xb1 (ix2 0 k))
        (fun k q' => xw2 (ix2 k q')) (fun q' => xb2 (ix2 0 q')) q
      = Cert.Spec.step agg (e ix0) (fun i j => W1 (ix2 i j)) (fun j => b1 (ix1 j)) (fun i j => W2 (ix2 i j))
          (fun j => b2 (ix1 j)) H (ix2 n q) := by
  subst hh ha hw1 hb1 hw2 hb2
  rw [Cert.Spec.step_apply]
  unfold Cert.Spec.layer
  have hz : (fun j : Fin 128 => (mulf (F := Ideal) (φ := .f32) H (broadcastInDim S50000x128 ![] bcast_S_S50000x128 e)) (ix2 n j) + agg H (ix2 n j))
      = fun j => e ix0 * H (ix2 n j) + agg H (ix2 n j) := by
    funext j
    rw [mulf_apply, broadcastInDim_apply _ bcast_S_S50000x128 e (ix2 n j) ix0 (fun a => a.elim0), mul_comm]
  have hr : ∀ b : Vec Ideal S128 .f32, (fun k : Fin 128 => shapeCast S1x128 b shapeCasts_S128_S1x128 (ix2 0 k)) = fun k => b (ix1 k) :=
    fun b => funext fun k => Cert.LibSlice.row_of_vec_apply b shapeCasts_S128_S1x128 k
  rw [hz, hr b1, hr b2]

/-! ## The boundaries' arrays, layer by layer -/

/-- The first layer's output array is the specification's step of the launch features. -/
theorem o2_eq : (o2 (F := Ideal) mI c : Cert.Spec.Arr)
    = Cert.Spec.step (aggK (srcK mI c) (dstK mI c)) (eK mI c 0) (w1K mI c 0) (b1K mI c 0) (w2K mI c 0) (b2K mI c 0) (featsK mI c) := by
  funext i
  obtain ⟨n, q, rfl⟩ : ∃ (n : Fin 50000) (q : Fin 128), i = ix2 n q := ⟨i 0, i 1, eq_ix2 i⟩
  unfold o2
  refine (layer0_value (E1 mI) c n q).trans ?_
  refine (step_of_reads (aggK (srcK mI c) (dstK mI c)) (featsK mI c) (epsK (epsBufK mI c) 0)
    (w1BufK mI c 0) (w2BufK mI c 0) (b1BufK mI c 0) (b2BufK mI c 0) _ _ _ _ _ _
    (W1_v14 mI c) (W1_v9 mI c) (W1_arg5 mI c) (W1_v15 mI c) (W1_arg7 mI c) (W1_v16 mI c) n q).trans ?_
  rw [epsK_apply]
  rfl

/-- The second layer's output array is the step of the first's. -/
theorem o4_eq : (o4 (F := Ideal) mI c : Cert.Spec.Arr)
    = Cert.Spec.step (aggK (srcK mI c) (dstK mI c)) (eK mI c 1) (w1K mI c 1) (b1K mI c 1) (w2K mI c 1) (b2K mI c 1)
        (Cert.Spec.step (aggK (srcK mI c) (dstK mI c)) (eK mI c 0) (w1K mI c 0) (b1K mI c 0) (w2K mI c 0) (b2K mI c 0) (featsK mI c)) := by
  rw [← o2_eq mI c]
  funext i
  obtain ⟨n, q, rfl⟩ : ∃ (n : Fin 50000) (q : Fin 128), i = ix2 n q := ⟨i 0, i 1, eq_ix2 i⟩
  unfold o4
  refine (layer1_value (E3 mI) c n q).trans ?_
  refine (step_of_reads (aggK (srcK mI c) (dstK mI c)) (o2 mI c) (epsK (epsBufK mI c) 1)
    (w1BufK mI c 1) (w2BufK mI c 1) (b1BufK mI c 1) (b2BufK mI c 1) _ _ _ _ _ _
    (W3_v32 mI c) (W3_v27 mI c) (W3_arg9 mI c) (W3_v33 mI c) (W3_arg11 mI c) (W3_v34 mI c) n q).trans ?_
  rw [epsK_apply]
  rfl

/-- The third layer's output array is the step of the second's. -/
theorem o6_eq : (o6 (F := Ideal) mI c : Cert.Spec.Arr)
    = Cert.Spec.step (aggK (srcK mI c) (dstK mI c)) (eK mI c 2) (w1K mI c 2) (b1K mI c 2) (w2K mI c 2) (b2K mI c 2)
        (Cert.Spec.step (aggK (srcK mI c) (dstK mI c)) (eK mI c 1) (w1K mI c 1) (b1K mI c 1) (w2K mI c 1) (b2K mI c 1)
          (Cert.Spec.step (aggK (srcK mI c) (dstK mI c)) (eK mI c 0) (w1K mI c 0) (b1K mI c 0) (w2K mI c 0) (b2K mI c 0) (featsK mI c))) := by
  rw [← o4_eq mI c]
  funext i
  obtain ⟨n, q, rfl⟩ : ∃ (n : Fin 50000) (q : Fin 128), i = ix2 n q := ⟨i 0, i 1, eq_ix2 i⟩
  unfold o6
  refine (layer2_value (E5 mI) c n q).trans ?_
  refine (step_of_reads (aggK (srcK mI c) (dstK mI c)) (o4 mI c) (epsK (epsBufK mI c) 2)
    (w1BufK mI c 2) (w2BufK mI c 2) (b1BufK mI c 2) (b2BufK mI c 2) _ _ _ _ _ _
    (W5_v50 mI c) (W5_v45 mI c) (W5_arg13 mI c) (W5_v51 mI c) (W5_arg15 mI c) (W5_v52 mI c) n q).trans ?_
  rw [epsK_apply]
  rfl

/-! ## The result -/

/-- THE KERNEL PROGRAM'S RESULT at `(g, q)`: the pooled features of three layers applied to the launch features. -/
theorem kernel_value (g q : Fin 128) :
    (o8 (F := Ideal) mI c : S128x128.Idx → EReal) (ix2 g q)
      = Cert.Spec.pooled (gidK mI c)
          (Cert.Spec.step (aggK (srcK mI c) (dstK mI c)) (eK mI c 2) (w1K mI c 2) (b1K mI c 2) (w2K mI c 2) (b2K mI c 2)
            (Cert.Spec.step (aggK (srcK mI c) (dstK mI c)) (eK mI c 1) (w1K mI c 1) (b1K mI c 1) (w2K mI c 1) (b2K mI c 1)
              (Cert.Spec.step (aggK (srcK mI c) (dstK mI c)) (eK mI c 0) (w1K mI c 0) (b1K mI c 0) (w2K mI c 0) (b2K mI c 0)
                (featsK mI c)))) (ix2 g q) := by
  rw [← o6_eq mI c, Cert.Spec.pooled_apply]
  unfold o8
  refine (pool_value (E7 mI) c g q).trans ?_
  -- the pooling region reads the graph ids as a column and the third layer's output untouched
  have hg : (fun n : Fin 50000 => (E7 mI c main_v54 : S50000x1.Idx → BitVec 32) (ix2 n 0)) = gidK mI c := by
    funext n
    rw [show E7 mI c main_v54 = _ from W7_v54 mI c]
    exact Cert.LibSlice.col_of_vec_apply (gidBufK mI c) shapeCasts_S50000_S50000x1 n
  rw [hg, show E7 mI c main_v53 = _ from W7_v53 mI c]

end Value

end Cert.KernelIdeal.Hand

end
-- ==== Proof.Bridge.lean ====
/-
  The two closed forms meet. The reference's result and the kernel program's are each the pooled features of three
  layers applied to the launch features, over the same specification; the layers' parameters are read off the
  programs' arguments, which agree by hypothesis, and the one part the specification does not open — the neighbour
  aggregation — is the same function in both programs, because both state it by the same host operations over the
  same dimension numbers, shapes and constants.
-/
import proofs.«423360_j44504451121830_1_alg».proof.Proof.RefValue
import proofs.«423360_j44504451121830_1_alg».proof.Proof.KernelValue

noncomputable section

namespace Cert.Bridge

open Idealize.ShloMosaic Idealize.ShloMosaic.TcCoe Idealize.SL.Sem
open Idealize.ShloMosaic.ValueIdx
open Cert.RefValue

/-- The two programs' neighbour aggregations are one function: the same gather and accumulating scatter, over
    records, shapes and constants that are the same literals (the records' well-formedness fields are proofs). -/
theorem agg_eq (src dst : (⟨Cert.ReferenceIdeal.S800000, .i32⟩ : BufTy).Contents (Elt Ideal)) (H : Cert.Spec.Arr) :
    aggR src dst H = Cert.KernelIdeal.Hand.aggK (F := Ideal) src dst H := by
  unfold aggR Cert.KernelIdeal.Hand.aggK
  rfl

/-- The same, as maps of arrays. -/
theorem agg_eq_fn (src dst : (⟨Cert.ReferenceIdeal.S800000, .i32⟩ : BufTy).Contents (Elt Ideal)) :
    aggR src dst = Cert.KernelIdeal.Hand.aggK (F := Ideal) src dst :=
  funext (agg_eq src dst)

/-- From memories that agree on the seventeen arguments, the reference's result buffer is the kernel program's:
    index by index both are the specification's closed form, the reference's over its arguments and the kernel
    program's over its own, and those are equal argument by argument. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (c : Dev Cert.KernelIdeal.nD) :
    Cert.ReferenceIdeal.Value.res_main_v80 (F := Ideal) m' c
      = Cert.KernelIdeal.Hand.W8 m c Cert.KernelIdeal.main_v55 := by
  obtain ⟨h0, h1, h2, h3, h4, h5, h6, h7, h8, h9, h10, h11, h12, h13, h14, h15, h16⟩ := hagree c
  rw [Cert.KernelIdeal.Hand.W8_out]
  funext i
  obtain ⟨g, q, rfl⟩ : ∃ g q, i = ix2 g q := ⟨i 0, i 1, eq_ix2 i⟩
  refine (ref_value m' c g q).trans (Eq.trans ?_ (Cert.KernelIdeal.Hand.kernel_value m c g q).symm)
  -- every reader of the reference's arguments is the kernel program's reader of the same argument
  have e_feats : featsR m' c = Cert.KernelIdeal.Hand.featsK m c := h0
  have e_src : srcR m' c = Cert.KernelIdeal.Hand.srcK m c := h1
  have e_dst : dstR m' c = Cert.KernelIdeal.Hand.dstK m c := h2
  have e_gid : gidR m' c = Cert.KernelIdeal.Hand.gidK m c :=
    congrArg (fun (b : Cert.ReferenceIdeal.S50000.Idx → BitVec 32) (n : Fin 50000) => b (ix1 n)) h3
  have e_eps : ∀ k : Fin 3, epsAt m' c k = Cert.KernelIdeal.Hand.eK m c k := fun k =>
    congrArg (fun (b : Cert.ReferenceIdeal.S3.Idx → EReal) => (1 : EReal) + b (ix1 k)) h4
  have e_w1a : w1R m' c 0 = Cert.KernelIdeal.Hand.w1K m c 0 := congrArg (fun (b : Cert.ReferenceIdeal.S128x128.Idx → EReal) (i j : Fin 128) => b (ix2 i j)) h5
  have e_b1a : b1R m' c 0 = Cert.KernelIdeal.Hand.b1K m c 0 := congrArg (fun (b : Cert.ReferenceIdeal.S128.Idx → EReal) (j : Fin 128) => b (ix1 j)) h6
  have e_w2a : w2R m' c 0 = Cert.KernelIdeal.Hand.w2K m c 0 := congrArg (fun (b : Cert.ReferenceIdeal.S128x128.Idx → EReal) (i j : Fin 128) => b (ix2 i j)) h7
  have e_b2a : b2R m' c 0 = Cert.KernelIdeal.Hand.b2K m c 0 := congrArg (fun (b : Cert.ReferenceIdeal.S128.Idx → EReal) (j : Fin 128) => b (ix1 j)) h8
  have e_w1b : w1R m' c 1 = Cert.KernelIdeal.Hand.w1K m c 1 := congrArg (fun (b : Cert.ReferenceIdeal.S128x128.Idx → EReal) (i j : Fin 128) => b (ix2 i j)) h9
  have e_b1b : b1R m' c 1 = Cert.KernelIdeal.Hand.b1K m c 1 := congrArg (fun (b : Cert.ReferenceIdeal.S128.Idx → EReal) (j : Fin 128) => b (ix1 j)) h10
  have e_w2b : w2R m' c 1 = Cert.KernelIdeal.Hand.w2K m c 1 := congrArg (fun (b : Cert.ReferenceIdeal.S128x128.Idx → EReal) (i j : Fin 128) => b (ix2 i j)) h11
  have e_b2b : b2R m' c 1 = Cert.KernelIdeal.Hand.b2K m c 1 := congrArg (fun (b : Cert.ReferenceIdeal.S128.Idx → EReal) (j : Fin 128) => b (ix1 j)) h12
  have e_w1c : w1R m' c 2 = Cert.KernelIdeal.Hand.w1K m c 2 := congrArg (fun (b : Cert.ReferenceIdeal.S128x128.Idx → EReal) (i j : Fin 128) => b (ix2 i j)) h13
  have e_b1c : b1R m' c 2 = Cert.KernelIdeal.Hand.b1K m c 2 := congrArg (fun (b : Cert.ReferenceIdeal.S128.Idx → EReal) (j : Fin 128) => b (ix1 j)) h14
  have e_w2c : w2R m' c 2 = Cert.KernelIdeal.Hand.w2K m c 2 := congrArg (fun (b : Cert.ReferenceIdeal.S128x128.Idx → EReal) (i j : Fin 128) => b (ix2 i j)) h15
  have e_b2c : b2R m' c 2 = Cert.KernelIdeal.Hand.b2K m c 2 := congrArg (fun (b : Cert.ReferenceIdeal.S128.Idx → EReal) (j : Fin 128) => b (ix1 j)) h16
  rw [e_feats, e_src, e_dst, e_gid, e_eps 0, e_eps 1, e_eps 2, e_w1a, e_b1a, e_w2a, e_b2a, e_w1b, e_b1b, e_w2b, e_b2b,
    e_w1c, e_b1c, e_w2c, e_b2c, agg_eq_fn]

end Cert.Bridge

end
-- ==== Proof.lean ====
/-
  The proof of `Cert.Claim` (proofs.«423360_j44504451121830_1_alg».proof.Defs): a three-layer graph isomorphism network
  with sum pooling, as a kernel program and as its reference.

  WHAT IS COMPUTED. Each of 50000 nodes carries 128 features. A layer replaces `h[n, ·]` by the two-layer perceptron
  `relu(z · W1 + b1) · W2 + b2` of `z = (1 + eps) · h[n, ·] + Σ_{edges s → n} h[s, ·]`; three layers are applied, and
  the result adds, for each of 128 graphs, the features of the graph's nodes (`Cert.Spec`: `step`, `pooled`).

  THE KERNEL PROGRAM forms the neighbour sum and the scaling by `1 + eps` on the host — a gather of the source rows
  and an accumulating scatter onto the destination rows, the reference's own operations — and runs each perceptron as
  a pipelined region over 25 blocks of 2000 nodes, whose body is product, bias, rectifier, product, bias on the block,
  the weights fetched once. The pooling is a fourth region over 10 blocks of 5000 nodes: each block's one-hot matrix
  of the graph ids, transposed, times the block's features, accumulated in a scratch array that is zeroed at the
  first block and stored at the last. Summed over the blocks, entry `(g, q)` of the one-hot products is the sum of
  feature `q` over the nodes whose id is `g`: the reference's scatter.

  THE CLAIMS. Each program's frame (it runs without fault and its argument arrays end unchanged) is read off its run:
  the reference's from its list of host operations, the kernel programs' from their four regions, each after a
  stretch of host operations, the buffers' contents threaded from the launch memory through every boundary. The
  idealized kernel program is the kernel program's own text read at the ideal instance: `preserves_Kernel_KernelIdeal`
  states that no operation was rewritten, and is `True`. At the ideal instance, where floats are extended reals and
  format changes the identity, both programs' results are, index by index, the pooled features of three
  specification steps of the launch features, over parameters read off arguments that agree by hypothesis; the
  neighbour aggregation is never opened, being the same function in both programs. The claims' precondition on the
  inputs is not used.
-/
import proofs.«423360_j44504451121830_1_alg».proof.Defs
import proofs.«423360_j44504451121830_1_alg».proof.Proof.Gen.Kernel
import proofs.«423360_j44504451121830_1_alg».proof.Proof.Gen.KernelIdeal
import proofs.«423360_j44504451121830_1_alg».proof.Proof.Gen.ReferenceIdeal
import proofs.«423360_j44504451121830_1_alg».proof.Proof.Gen.Pre_finite_inputs
import proofs.«423360_j44504451121830_1_alg».proof.Proof.Frames
import proofs.«423360_j44504451121830_1_alg».proof.Proof.Bridge

noncomputable section

namespace Cert.Proof

open Idealize.ShloMosaic Idealize.ShloMosaic.TcCoe Idealize.SL.Sem

/-- The two idealized programs agree: the kernel program's run ends with its result array at the last boundary's
    contents for it, the reference's with its composed term, and from agreeing arguments those are equal
    (`Cert.Bridge.result_eq`); both leave their arguments as launched. -/
theorem algebraic : Cert.algebraic_KernelIdeal_ReferenceIdeal :=
  fun m ρ m' ρ' _ hagree =>
    ⟨fun c => Cert.KernelIdeal.Hand.W8 m c Cert.KernelIdeal.main_v55, Frames.kernel_run m ρ,
      (θ_run Cert.ReferenceIdeal.defs _ _).mono
        (fun _ h c => ⟨(h c).1.trans (Cert.Bridge.result_eq m m' hagree c), (h c).2⟩)
        (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_reference, trivial, algebraic⟩

end Cert.Proof

end
